-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64000x128 : Shape := ⟨2, ![64000, 128]⟩
abbrev S2x1048576 : Shape := ⟨2, ![2, 1048576]⟩
abbrev S32000 : Shape := ⟨1, ![32000]⟩
abbrev S128x128 : Shape := ⟨2, ![128, 128]⟩
abbrev S128 : Shape := ⟨1, ![128]⟩
abbrev S_ : Shape := ⟨0, ![]⟩

class Facts : Prop where
  bcast_S_S64000x128 : S_.BroadcastsInDim S64000x128 (![] : Fin 0 → Fin S64000x128.rank)
  reducesTo_S64000x128_S_d0_1 : S64000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32000 : S_.BroadcastsInDim S32000 (![] : Fin 0 → Fin S32000.rank)
  reducesTo_S32000_S_d0 : S32000.ReducesTo [0] S_

variable [Facts]

def fn_part4 {F : FTy → Type} [FloatOps F] (main_arg6 : IVec S32000 32) (main_v62 : IVec S_ 1) (main_v67 : IVec S32000 1) : IVec S_ 1 :=
  let main_c_26 : IVec S_ 1 := constantI S_ 1 1#1
  let main_v68 : IVec S_ 1 := (fun x v => Host.reduce IntOp.andi x v reducesTo_S32000_S_d0 h_S_) main_v67 main_c_26
  let main_v69 : IVec S_ 1 := andi main_v62 main_v68
  let main_c_27 : IVec S_ 32 := constantI S_ 32 0#32
  let main_v70 : IVec S32000 32 := broadcastInDim S32000 ![] bcast_S_S32000 main_c_27
  let main_v71 : IVec S32000 1 := cmpi .sge main_arg6 main_v70
  let main_c_28 : IVec S_ 32 := constantI S_ 32 1000#32
  let main_v72 : IVec S32000 32 := broadcastInDim S32000 ![] bcast_S_S32000 main_c_28
  let main_v73 : IVec S32000 1 := cmpi .slt main_arg6 main_v72
  let main_v74 : IVec S32000 1 := andi main_v71 main_v73
  let main_c_29 : IVec S_ 1 := constantI S_ 1 1#1
  let main_v75 : IVec S_ 1 := (fun x v => Host.reduce IntOp.andi x v reducesTo_S32000_S_d0 h_S_) main_v74 main_c_29
  let main_v76 : IVec S_ 1 := andi main_v69 main_v75
  main_v76

def fn_part3 {F : FTy → Type} [FloatOps F] (main_arg3 : IVec S32000 32) (main_arg4 : IVec S32000 32) (main_arg5 : IVec S32000 32) (main_arg6 : IVec S32000 32) (main_v48 : IVec S_ 1) (main_v50 : IVec S32000 1) : IVec S_ 1 :=
  let main_c_19 : IVec S_ 32 := constantI S_ 32 64#32
  let main_v51 : IVec S32000 32 := broadcastInDim S32000 ![] bcast_S_S32000 main_c_19
  let main_v52 : IVec S32000 1 := cmpi .slt main_arg3 main_v51
  let main_v53 : IVec S32000 1 := andi main_v50 main_v52
  let main_c_20 : IVec S_ 1 := constantI S_ 1 1#1
  let main_v54 : IVec S_ 1 := (fun x v => Host.reduce IntOp.andi x v reducesTo_S32000_S_d0 h_S_) main_v53 main_c_20
  let main_v55 : IVec S_ 1 := andi main_v48 main_v54
  let main_c_21 : IVec S_ 32 := constantI S_ 32 0#32
  let main_v56 : IVec S32000 32 := broadcastInDim S32000 ![] bcast_S_S32000 main_c_21
  let main_v57 : IVec S32000 1 := cmpi .sge main_arg4 main_v56
  let main_c_22 : IVec S_ 32 := constantI S_ 32 1000#32
  let main_v58 : IVec S32000 32 := broadcastInDim S32000 ![] bcast_S_S32000 main_c_22
  let main_v59 : IVec S32000 1 := cmpi .slt main_arg4 main_v58
  let main_v60 : IVec S32000 1 := andi main_v57 main_v59
  let main_c_23 : IVec S_ 1 := constantI S_ 1 1#1
  let main_v61 : IVec S_ 1 := (fun x v => Host.reduce IntOp.andi x v reducesTo_S32000_S_d0 h_S_) main_v60 main_c_23
  let main_v62 : IVec S_ 1 := andi main_v55 main_v61
  let main_c_24 : IVec S_ 32 := constantI S_ 32 0#32
  let main_v63 : IVec S32000 32 := broadcastInDim S32000 ![] bcast_S_S32000 main_c_24
  let main_v64 : IVec S32000 1 := cmpi .sge main_arg5 main_v63
  let main_c_25 : IVec S_ 32 := constantI S_ 32 64#32
  let main_v65 : IVec S32000 32 := broadcastInDim S32000 ![] bcast_S_S32000 main_c_25
  let main_v66 : IVec S32000 1 := cmpi .slt main_arg5 main_v65
  let main_v67 : IVec S32000 1 := andi main_v64 main_v66
  fn_part4 (F := F) main_arg6 main_v62 main_v67

def fn_part2 {F : FTy → Type} [FloatOps F] (main_arg3 : IVec S32000 32) (main_arg4 : IVec S32000 32) (main_arg5 : IVec S32000 32) (main_arg6 : IVec S32000 32) (main_arg12 : FVec F S128 .f32) (main_arg13 : FVec F S128x128 .f32) (main_arg14 : FVec F S128 .f32) (main_v33 : IVec S_ 1) : IVec S_ 1 :=
  let main_v34 : FVec F S128 .f32 := Host.absf main_arg12
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg13
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S32000 32 := broadcastInDim S32000 ![] bcast_S_S32000 main_c_18
  let main_v50 : IVec S32000 1 := cmpi .sge main_arg3 main_v49
  fn_part3 (F := F) main_arg3 main_arg4 main_arg5 main_arg6 main_v48 main_v50

def fn_part1 {F : FTy → Type} [FloatOps F] (main_arg3 : IVec S32000 32) (main_arg4 : IVec S32000 32) (main_arg5 : IVec S32000 32) (main_arg6 : IVec S32000 32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg9
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg10
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg11
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg4 main_arg5 main_arg6 main_arg12 main_arg13 main_arg14 main_v33

def fn {F : FTy → Type} [FloatOps F] (main_arg0 : FVec F S64000x128 .f32) (main_arg1 : FVec F S64000x128 .f32) (main_arg2 : IVec S2x1048576 32) (main_arg3 : IVec S32000 32) (main_arg4 : IVec S32000 32) (main_arg5 : IVec S32000 32) (main_arg6 : IVec S32000 32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S64000x128 .f32 := Host.absf main_arg0
  let main_cst : FVec F S_ .f32 := constant S_ .f32 0x7F800000#32
  let main_v1 : FVec F S64000x128 .f32 := broadcastInDim S64000x128 ![] bcast_S_S64000x128 main_cst
  let main_v2 : IVec S64000x128 1 := cmpf .olt main_v0 main_v1
  let main_c : IVec S_ 1 := constantI S_ 1 1#1
  let main_v3 : IVec S_ 1 := (fun x v => Host.reduce IntOp.andi x v reducesTo_S64000x128_S_d0_1 h_S_) main_v2 main_c
  let main_v4 : FVec F S64000x128 .f32 := Host.absf main_arg1
  let main_cst_0 : FVec F S_ .f32 := constant S_ .f32 0x7F800000#32
  let main_v5 : FVec F S64000x128 .f32 := broadcastInDim S64000x128 ![] bcast_S_S64000x128 main_cst_0
  let main_v6 : IVec S64000x128 1 := cmpf .olt main_v4 main_v5
  let main_c_1 : IVec S_ 1 := constantI S_ 1 1#1
  let main_v7 : IVec S_ 1 := (fun x v => Host.reduce IntOp.andi x v reducesTo_S64000x128_S_d0_1 h_S_) main_v6 main_c_1
  let main_v8 : IVec S_ 1 := andi main_v3 main_v7
  let main_v9 : FVec F S128x128 .f32 := Host.absf main_arg7
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg4 main_arg5 main_arg6 main_arg9 main_arg10 main_arg11 main_arg12 main_arg13 main_arg14 main_v13 main_v16
-- ==== Kernel.lean ====
abbrev S64000x128 : Shape := ⟨2, ![64000, 128]⟩
abbrev S2x1048576 : Shape := ⟨2, ![2, 1048576]⟩
abbrev S32000 : Shape := ⟨1, ![32000]⟩
abbrev S128x128 : Shape := ⟨2, ![128, 128]⟩
abbrev S128 : Shape := ⟨1, ![128]⟩
abbrev S_ : Shape := ⟨0, ![]⟩
abbrev S32000x1 : Shape := ⟨2, ![32000, 1]⟩
abbrev S32000x128 : Shape := ⟨2, ![32000, 128]⟩
abbrev S4000x128 : Shape := ⟨2, ![4000, 128]⟩
abbrev S1x128 : Shape := ⟨2, ![1, 128]⟩
abbrev S1x1048576 : Shape := ⟨2, ![1, 1048576]⟩
abbrev S1048576 : Shape := ⟨1, ![1048576]⟩
abbrev S1048576x1 : Shape := ⟨2, ![1048576, 1]⟩
abbrev S1048576x128 : Shape := ⟨2, ![1048576, 128]⟩
abbrev S1x32000x128 : Shape := ⟨3, ![1, 32000, 128]⟩
abbrev S2x32000x128 : Shape := ⟨3, ![2, 32000, 128]⟩

abbrev nBuf : Space → Nat
  | .hbm => 90
  | .vmem => 18
  | .smem => 0
  | _ => 0

abbrev bufTy : (tb : Table) → Fin (tcTables nBuf tb) → BufTy
  | .hbm, ⟨0, _⟩ => ⟨S64000x128, .f32⟩
  | .hbm, ⟨1, _⟩ => ⟨S64000x128, .f32⟩
  | .hbm, ⟨2, _⟩ => ⟨S2x1048576, .i32⟩
  | .hbm, ⟨3, _⟩ => ⟨S32000, .i32⟩
  | .hbm, ⟨4, _⟩ => ⟨S32000, .i32⟩
  | .hbm, ⟨5, _⟩ => ⟨S32000, .i32⟩
  | .hbm, ⟨6, _⟩ => ⟨S32000, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .i32⟩
  | .hbm, ⟨16, _⟩ => ⟨S32000, .i32⟩
  | .hbm, ⟨17, _⟩ => ⟨S32000, .i32⟩
  | .hbm, ⟨18, _⟩ => ⟨S32000, .i32⟩
  | .hbm, ⟨19, _⟩ => ⟨S_, .i32⟩
  | .hbm, ⟨20, _⟩ => ⟨S32000, .i32⟩
  | .hbm, ⟨21, _⟩ => ⟨S32000, .i1⟩
  | .hbm, ⟨22, _⟩ => ⟨S_, .i32⟩
  | .hbm, ⟨23, _⟩ => ⟨S32000, .i32⟩
  | .hbm, ⟨24, _⟩ => ⟨S32000, .i32⟩
  | .hbm, ⟨25, _⟩ => ⟨S32000, .i32⟩
  | .hbm, ⟨26, _⟩ => ⟨S32000x1, .i32⟩
  | .hbm, ⟨27, _⟩ => ⟨S32000x128, .f32⟩
  | .hbm, ⟨28, _⟩ => ⟨S32000x128, .f32⟩
  | .hbm, ⟨29, _⟩ => ⟨S1x1048576, .i32⟩
  | .hbm, ⟨30, _⟩ => ⟨S1048576, .i32⟩
  | .hbm, ⟨31, _⟩ => ⟨S1x1048576, .i32⟩
  | .hbm, ⟨32, _⟩ => ⟨S1048576, .i32⟩
  | .hbm, ⟨33, _⟩ => ⟨S64000x128, .bf16⟩
  | .hbm, ⟨34, _⟩ => ⟨S_, .i32⟩
  | .hbm, ⟨35, _⟩ => ⟨S1048576, .i32⟩
  | .hbm, ⟨36, _⟩ => ⟨S1048576, .i1⟩
  | .hbm, ⟨37, _⟩ => ⟨S_, .i32⟩
  | .hbm, ⟨38, _⟩ => ⟨S1048576, .i32⟩
  | .hbm, ⟨39, _⟩ => ⟨S1048576, .i32⟩
  | .hbm, ⟨40, _⟩ => ⟨S1048576, .i32⟩
  | .hbm, ⟨41, _⟩ => ⟨S1048576x1, .i32⟩
  | .hbm, ⟨42, _⟩ => ⟨S1048576x128, .bf16⟩
  | .hbm, ⟨43, _⟩ => ⟨S1048576x128, .f32⟩
  | .hbm, ⟨44, _⟩ => ⟨S_, .f32⟩
  | .hbm, ⟨45, _⟩ => ⟨S64000x128, .f32⟩
  | .hbm, ⟨46, _⟩ => ⟨S1048576x1, .i32⟩
  | .hbm, ⟨47, _⟩ => ⟨S64000x128, .f32⟩
  | .hbm, ⟨48, _⟩ => ⟨S64000x128, .f32⟩
  | .hbm, ⟨49, _⟩ => ⟨S1x1048576, .i32⟩
  | .hbm, ⟨50, _⟩ => ⟨S1048576, .i32⟩
  | .hbm, ⟨51, _⟩ => ⟨S1x1048576, .i32⟩
  | .hbm, ⟨52, _⟩ => ⟨S1048576, .i32⟩
  | .hbm, ⟨53, _⟩ => ⟨S64000x128, .bf16⟩
  | .hbm, ⟨54, _⟩ => ⟨S_, .i32⟩
  | .hbm, ⟨55, _⟩ => ⟨S1048576, .i32⟩
  | .hbm, ⟨56, _⟩ => ⟨S1048576, .i1⟩
  | .hbm, ⟨57, _⟩ => ⟨S_, .i32⟩
  | .hbm, ⟨58, _⟩ => ⟨S1048576, .i32⟩
  | .hbm, ⟨59, _⟩ => ⟨S1048576, .i32⟩
  | .hbm, ⟨60, _⟩ => ⟨S1048576, .i32⟩
  | .hbm, ⟨61, _⟩ => ⟨S1048576x1, .i32⟩
  | .hbm, ⟨62, _⟩ => ⟨S1048576x128, .bf16⟩
  | .hbm, ⟨63, _⟩ => ⟨S1048576x128, .f32⟩
  | .hbm, ⟨64, _⟩ => ⟨S_, .f32⟩
  | .hbm, ⟨65, _⟩ => ⟨S64000x128, .f32⟩
  | .hbm, ⟨66, _⟩ => ⟨S1048576x1, .i32⟩
  | .hbm, ⟨67, _⟩ => ⟨S64000x128, .f32⟩
  | .hbm, ⟨68, _⟩ => ⟨S128x128, .f32⟩
  | .hbm, ⟨69, _⟩ => ⟨S1x128, .f32⟩
  | .hbm, ⟨70, _⟩ => ⟨S1x128, .f32⟩
  | .hbm, ⟨71, _⟩ => ⟨S128, .f32⟩
  | .hbm, ⟨72, _⟩ => ⟨S128, .f32⟩
  | .hbm, ⟨73, _⟩ => ⟨S_, .i32⟩
  | .hbm, ⟨74, _⟩ => ⟨S32000, .i32⟩
  | .hbm, ⟨75, _⟩ => ⟨S32000, .i32⟩
  | .hbm, ⟨76, _⟩ => ⟨S32000, .i32⟩
  | .hbm, ⟨77, _⟩ => ⟨S_, .i32⟩
  | .hbm, ⟨78, _⟩ => ⟨S32000, .i32⟩
  | .hbm, ⟨79, _⟩ => ⟨S32000, .i1⟩
  | .hbm, ⟨80, _⟩ => ⟨S_, .i32⟩
  | .hbm, ⟨81, _⟩ => ⟨S32000, .i32⟩
  | .hbm, ⟨82, _⟩ => ⟨S32000, .i32⟩
  | .hbm, ⟨83, _⟩ => ⟨S32000, .i32⟩
  | .hbm, ⟨84, _⟩ => ⟨S32000x1, .i32⟩
  | .hbm, ⟨85, _⟩ => ⟨S32000x128, .f32⟩
  | .hbm, ⟨86, _⟩ => ⟨S32000x128, .f32⟩
  | .hbm, ⟨87, _⟩ => ⟨S1x32000x128, .f32⟩
  | .hbm, ⟨88, _⟩ => ⟨S1x32000x128, .f32⟩
  | .hbm, ⟨89, _⟩ => ⟨S2x32000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S128, .f32⟩
  | .local _ .vmem, ⟨16, _⟩ => ⟨S4000x128, .f32⟩
  | .local _ .vmem, ⟨17, _⟩ => ⟨S4000x128, .f32⟩
  | _, _ => ⟨S64000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_8 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S32000 : S_.BroadcastsInDim S32000 (![] : Fin 0 → Fin S32000.rank)
  bcast_S32000_S32000x1_0 : S32000.BroadcastsInDim S32000x1 (![0] : Fin 1 → Fin S32000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S64000x128 : S_.BroadcastsInDim S64000x128 (![] : Fin 0 → Fin S64000x128.rank)
  bcast_S128_S1x128_1 : S128.BroadcastsInDim S1x128 (![1] : Fin 1 → Fin S1x128.rank)
  shapeCasts_S1x128_S128 : S1x128.ShapeCasts S128
  shapeCasts_S128x128_S128x128 : S128x128.ShapeCasts S128x128
  shapeCasts_S128_S128 : S128.ShapeCasts S128
  bcast_S32000x128_S1x32000x128_1_2 : S32000x128.BroadcastsInDim S1x32000x128 (![1, 2] : Fin 2 → Fin S1x32000x128.rank)
  concatenates_S1x32000x128_S1x32000x128_S2x32000x128_d0 : Shape.Concatenates [S1x32000x128, S1x32000x128] S2x32000x128 0
  gather_S64000x128_S32000x1_S32000x128_1_0_n_n_0_1_1128_wf : GatherDims.WF S64000x128 S32000x1 S32000x128 [1] [0] [] [0] [] 1 ![1, 128]
  dot_S4000x128_S128x128_S4000x128_1_0_0_1_n_n_wf : DotDims.WF S4000x128 S128x128 S4000x128 [1] [0] [0] [1] [] []
  gather_S64000x128_S1048576x1_S1048576x128_1_0_n_n_0_1_1128_wf : GatherDims.WF S64000x128 S1048576x1 S1048576x128 [1] [0] [] [0] [] 1 ![1, 128]
  scatter_S64000x128_S1048576x1_S1048576x128_1_0_0_1_wf : ScatterDims.WF S64000x128 S1048576x1 S1048576x128 [1] [0] [0] 1
  dot_S128x128_S128x128_S128x128_1_0_0_1_n_n_wf : DotDims.WF S128x128 S128x128 S128x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S32000x128.size a
  hwx0_0 : ∀ i : grid0.Coords, EltTy.bits .f32 = 32 ∨ (Rect.block (s := S32000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S32000x128.size a
  hwx0_3 : ∀ i : grid0.Coords, EltTy.bits .f32 = 32 ∨ (Rect.block (s := S32000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S64000x128.size a
  hwx1_0 : ∀ i : grid1.Coords, EltTy.bits .f32 = 32 ∨ (Rect.block (s := S64000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S64000x128.size a
  hwx1_3 : ∀ i : grid1.Coords, EltTy.bits .f32 = 32 ∨ (Rect.block (s := S64000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S32000x128.size a
  hwx2_0 : ∀ i : grid2.Coords, EltTy.bits .f32 = 32 ∨ (Rect.block (s := S32000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S32000x128.size a
  hwx2_3 : ∀ i : grid2.Coords, EltTy.bits .f32 = 32 ∨ (Rect.block (s := S32000x128) S4000x128.size (cc2_transform_3 i) (hinb2_3 i)).WholeWords (EltTy.packing .f32)

variable [Facts₀]

def gather_S64000x128_S32000x1_S32000x128_1_0_n_n_0_1_1128 : GatherDims S64000x128 S32000x1 S32000x128 where
  offsetDims := [1]
  collapsedSliceDims := [0]
  operandBatchingDims := []
  startIndicesBatchingDims := []
  startIndexMap := [0]
  indexVectorDim := 1
  sliceSizes := ![1, 128]
  wf := gather_S64000x128_S32000x1_S32000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S64000x128_S1048576x1_S1048576x128_1_0_n_n_0_1_1128 : GatherDims S64000x128 S1048576x1 S1048576x128 where
  offsetDims := [1]
  collapsedSliceDims := [0]
  operandBatchingDims := []
  startIndicesBatchingDims := []
  startIndexMap := [0]
  indexVectorDim := 1
  sliceSizes := ![1, 128]
  wf := gather_S64000x128_S1048576x1_S1048576x128_1_0_n_n_0_1_1128_wf
def scatter_S64000x128_S1048576x1_S1048576x128_1_0_0_1 : ScatterDims S64000x128 S1048576x1 S1048576x128 where
  updateWindowDims := [1]
  insertedWindowDims := [0]
  scatterDimsToOperandDims := [0]
  indexVectorDim := 1
  wf := scatter_S64000x128_S1048576x1_S1048576x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg14) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S64000x128 : Shape := ⟨2, ![64000, 128]⟩
abbrev S2x1048576 : Shape := ⟨2, ![2, 1048576]⟩
abbrev S32000 : Shape := ⟨1, ![32000]⟩
abbrev S128x128 : Shape := ⟨2, ![128, 128]⟩
abbrev S128 : Shape := ⟨1, ![128]⟩
abbrev S64x1000x128 : Shape := ⟨3, ![64, 1000, 128]⟩
abbrev S_ : Shape := ⟨0, ![]⟩
abbrev S32000x1 : Shape := ⟨2, ![32000, 1]⟩
abbrev S32000x2 : Shape := ⟨2, ![32000, 2]⟩
abbrev S32000x128 : Shape := ⟨2, ![32000, 128]⟩
abbrev S1x128 : Shape := ⟨2, ![1, 128]⟩
abbrev S1x1048576 : Shape := ⟨2, ![1, 1048576]⟩
abbrev S1048576 : Shape := ⟨1, ![1048576]⟩
abbrev S1048576x1 : Shape := ⟨2, ![1048576, 1]⟩
abbrev S1048576x128 : Shape := ⟨2, ![1048576, 128]⟩
abbrev S1x32000x128 : Shape := ⟨3, ![1, 32000, 128]⟩
abbrev S2x32000x128 : Shape := ⟨3, ![2, 32000, 128]⟩

abbrev nBuf : Space → Nat
  | .hbm => 106
  | .vmem => 0
  | .smem => 0
  | _ => 0

abbrev bufTy : (tb : Table) → Fin (tcTables nBuf tb) → BufTy
  | .hbm, ⟨0, _⟩ => ⟨S64000x128, .f32⟩
  | .hbm, ⟨1, _⟩ => ⟨S64000x128, .f32⟩
  | .hbm, ⟨2, _⟩ => ⟨S2x1048576, .i32⟩
  | .hbm, ⟨3, _⟩ => ⟨S32000, .i32⟩
  | .hbm, ⟨4, _⟩ => ⟨S32000, .i32⟩
  | .hbm, ⟨5, _⟩ => ⟨S32000, .i32⟩
  | .hbm, ⟨6, _⟩ => ⟨S32000, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S64x1000x128, .f32⟩
  | .hbm, ⟨16, _⟩ => ⟨S_, .i32⟩
  | .hbm, ⟨17, _⟩ => ⟨S32000, .i32⟩
  | .hbm, ⟨18, _⟩ => ⟨S32000, .i1⟩
  | .hbm, ⟨19, _⟩ => ⟨S_, .i32⟩
  | .hbm, ⟨20, _⟩ => ⟨S32000, .i32⟩
  | .hbm, ⟨21, _⟩ => ⟨S32000, .i32⟩
  | .hbm, ⟨22, _⟩ => ⟨S32000, .i32⟩
  | .hbm, ⟨23, _⟩ => ⟨S_, .i32⟩
  | .hbm, ⟨24, _⟩ => ⟨S32000, .i32⟩
  | .hbm, ⟨25, _⟩ => ⟨S32000, .i1⟩
  | .hbm, ⟨26, _⟩ => ⟨S_, .i32⟩
  | .hbm, ⟨27, _⟩ => ⟨S32000, .i32⟩
  | .hbm, ⟨28, _⟩ => ⟨S32000, .i32⟩
  | .hbm, ⟨29, _⟩ => ⟨S32000, .i32⟩
  | .hbm, ⟨30, _⟩ => ⟨S32000x1, .i32⟩
  | .hbm, ⟨31, _⟩ => ⟨S32000x1, .i32⟩
  | .hbm, ⟨32, _⟩ => ⟨S32000x2, .i32⟩
  | .hbm, ⟨33, _⟩ => ⟨S32000x128, .f32⟩
  | .hbm, ⟨34, _⟩ => ⟨S32000x128, .f32⟩
  | .hbm, ⟨35, _⟩ => ⟨S1x128, .f32⟩
  | .hbm, ⟨36, _⟩ => ⟨S32000x128, .f32⟩
  | .hbm, ⟨37, _⟩ => ⟨S32000x128, .f32⟩
  | .hbm, ⟨38, _⟩ => ⟨S1x1048576, .i32⟩
  | .hbm, ⟨39, _⟩ => ⟨S1048576, .i32⟩
  | .hbm, ⟨40, _⟩ => ⟨S_, .i32⟩
  | .hbm, ⟨41, _⟩ => ⟨S1048576, .i32⟩
  | .hbm, ⟨42, _⟩ => ⟨S1048576, .i1⟩
  | .hbm, ⟨43, _⟩ => ⟨S_, .i32⟩
  | .hbm, ⟨44, _⟩ => ⟨S1048576, .i32⟩
  | .hbm, ⟨45, _⟩ => ⟨S1048576, .i32⟩
  | .hbm, ⟨46, _⟩ => ⟨S1048576, .i32⟩
  | .hbm, ⟨47, _⟩ => ⟨S1048576x1, .i32⟩
  | .hbm, ⟨48, _⟩ => ⟨S1048576x128, .f32⟩
  | .hbm, ⟨49, _⟩ => ⟨S1x1048576, .i32⟩
  | .hbm, ⟨50, _⟩ => ⟨S1048576, .i32⟩
  | .hbm, ⟨51, _⟩ => ⟨S_, .f32⟩
  | .hbm, ⟨52, _⟩ => ⟨S64000x128, .f32⟩
  | .hbm, ⟨53, _⟩ => ⟨S1048576x1, .i32⟩
  | .hbm, ⟨54, _⟩ => ⟨S64000x128, .f32⟩
  | .hbm, ⟨55, _⟩ => ⟨S64000x128, .f32⟩
  | .hbm, ⟨56, _⟩ => ⟨S1x128, .f32⟩
  | .hbm, ⟨57, _⟩ => ⟨S64000x128, .f32⟩
  | .hbm, ⟨58, _⟩ => ⟨S64000x128, .f32⟩
  | .hbm, ⟨59, _⟩ => ⟨S1x1048576, .i32⟩
  | .hbm, ⟨60, _⟩ => ⟨S1048576, .i32⟩
  | .hbm, ⟨61, _⟩ => ⟨S_, .i32⟩
  | .hbm, ⟨62, _⟩ => ⟨S1048576, .i32⟩
  | .hbm, ⟨63, _⟩ => ⟨S1048576, .i1⟩
  | .hbm, ⟨64, _⟩ => ⟨S_, .i32⟩
  | .hbm, ⟨65, _⟩ => ⟨S1048576, .i32⟩
  | .hbm, ⟨66, _⟩ => ⟨S1048576, .i32⟩
  | .hbm, ⟨67, _⟩ => ⟨S1048576, .i32⟩
  | .hbm, ⟨68, _⟩ => ⟨S1048576x1, .i32⟩
  | .hbm, ⟨69, _⟩ => ⟨S1048576x128, .f32⟩
  | .hbm, ⟨70, _⟩ => ⟨S1x1048576, .i32⟩
  | .hbm, ⟨71, _⟩ => ⟨S1048576, .i32⟩
  | .hbm, ⟨72, _⟩ => ⟨S_, .f32⟩
  | .hbm, ⟨73, _⟩ => ⟨S64000x128, .f32⟩
  | .hbm, ⟨74, _⟩ => ⟨S1048576x1, .i32⟩
  | .hbm, ⟨75, _⟩ => ⟨S64000x128, .f32⟩
  | .hbm, ⟨76, _⟩ => ⟨S64000x128, .f32⟩
  | .hbm, ⟨77, _⟩ => ⟨S1x128, .f32⟩
  | .hbm, ⟨78, _⟩ => ⟨S64000x128, .f32⟩
  | .hbm, ⟨79, _⟩ => ⟨S64000x128, .f32⟩
  | .hbm, ⟨80, _⟩ => ⟨S64x1000x128, .f32⟩
  | .hbm, ⟨81, _⟩ => ⟨S_, .i32⟩
  | .hbm, ⟨82, _⟩ => ⟨S32000, .i32⟩
  | .hbm, ⟨83, _⟩ => ⟨S32000, .i1⟩
  | .hbm, ⟨84, _⟩ => ⟨S_, .i32⟩
  | .hbm, ⟨85, _⟩ => ⟨S32000, .i32⟩
  | .hbm, ⟨86, _⟩ => ⟨S32000, .i32⟩
  | .hbm, ⟨87, _⟩ => ⟨S32000, .i32⟩
  | .hbm, ⟨88, _⟩ => ⟨S_, .i32⟩
  | .hbm, ⟨89, _⟩ => ⟨S32000, .i32⟩
  | .hbm, ⟨90, _⟩ => ⟨S32000, .i1⟩
  | .hbm, ⟨91, _⟩ => ⟨S_, .i32⟩
  | .hbm, ⟨92, _⟩ => ⟨S32000, .i32⟩
  | .hbm, ⟨93, _⟩ => ⟨S32000, .i32⟩
  | .hbm, ⟨94, _⟩ => ⟨S32000, .i32⟩
  | .hbm, ⟨95, _⟩ => ⟨S32000x1, .i32⟩
  | .hbm, ⟨96, _⟩ => ⟨S32000x1, .i32⟩
  | .hbm, ⟨97, _⟩ => ⟨S32000x2, .i32⟩
  | .hbm, ⟨98, _⟩ => ⟨S32000x128, .f32⟩
  | .hbm, ⟨99, _⟩ => ⟨S32000x128, .f32⟩
  | .hbm, ⟨100, _⟩ => ⟨S1x128, .f32⟩
  | .hbm, ⟨101, _⟩ => ⟨S32000x128, .f32⟩
  | .hbm, ⟨102, _⟩ => ⟨S32000x128, .f32⟩
  | .hbm, ⟨103, _⟩ => ⟨S1x32000x128, .f32⟩
  | .hbm, ⟨104, _⟩ => ⟨S1x32000x128, .f32⟩
  | .hbm, ⟨105, _⟩ => ⟨S2x32000x128, .f32⟩
  | _, _ => ⟨S64000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_1 : Ref sig .tc := ⟨.hbm, 23, rfl⟩
abbrev main_v6 : Ref sig .tc := ⟨.hbm, 24, rfl⟩
abbrev main_v7 : Ref sig .tc := ⟨.hbm, 25, rfl⟩
abbrev main_c_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_8 : Ref sig .tc := ⟨.hbm, 81, rfl⟩
abbrev main_v56 : Ref sig .tc := ⟨.hbm, 82, rfl⟩
abbrev main_v57 : Ref sig .tc := ⟨.hbm, 83, rfl⟩
abbrev main_c_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_10 : Ref sig .tc := ⟨.hbm, 88, rfl⟩
abbrev main_v61 : Ref sig .tc := ⟨.hbm, 89, rfl⟩
abbrev main_v62 : Ref sig .tc := ⟨.hbm, 90, rfl⟩
abbrev main_c_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  shapeCasts_S64000x128_S64x1000x128 : S64000x128.ShapeCasts S64x1000x128
  bcast_S_S32000 : S_.BroadcastsInDim S32000 (![] : Fin 0 → Fin S32000.rank)
  bcast_S32000_S32000x1_0 : S32000.BroadcastsInDim S32000x1 (![0] : Fin 1 → Fin S32000x1.rank)
  concatenates_S32000x1_S32000x1_S32000x2_d1 : Shape.Concatenates [S32000x1, S32000x1] S32000x2 1
  bcast_S128_S1x128_1 : S128.BroadcastsInDim S1x128 (![1] : Fin 1 → Fin S1x128.rank)
  bcast_S1x128_S32000x128_0_1 : S1x128.BroadcastsInDim S32000x128 (![0, 1] : Fin 2 → Fin S32000x128.rank)
  slices_S2x1048576_S1x1048576_0_0 : S2x1048576.Slices ![0, 0] S1x1048576
  shapeCasts_S1x1048576_S1048576 : S1x1048576.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S2x1048576_S1x1048576_1_0 : S2x1048576.Slices ![1, 0] S1x1048576
  bcast_S_S64000x128 : S_.BroadcastsInDim S64000x128 (![] : Fin 0 → Fin S64000x128.rank)
  bcast_S1x128_S64000x128_0_1 : S1x128.BroadcastsInDim S64000x128 (![0, 1] : Fin 2 → Fin S64000x128.rank)
  bcast_S32000x128_S1x32000x128_1_2 : S32000x128.BroadcastsInDim S1x32000x128 (![1, 2] : Fin 2 → Fin S1x32000x128.rank)
  concatenates_S1x32000x128_S1x32000x128_S2x32000x128_d0 : Shape.Concatenates [S1x32000x128, S1x32000x128] S2x32000x128 0
  gather_S64x1000x128_S32000x2_S32000x128_1_01_n_n_01_1_11128_wf : GatherDims.WF S64x1000x128 S32000x2 S32000x128 [1] [0, 1] [] [0, 1] [] 1 ![1, 1, 128]
  dot_S32000x128_S128x128_S32000x128_1_0_0_1_n_n_wf : DotDims.WF S32000x128 S128x128 S32000x128 [1] [0] [0] [1] [] []
  gather_S64000x128_S1048576x1_S1048576x128_1_0_n_n_0_1_1128_wf : GatherDims.WF S64000x128 S1048576x1 S1048576x128 [1] [0] [] [0] [] 1 ![1, 128]
  scatter_S64000x128_S1048576x1_S1048576x128_1_0_0_1_wf : ScatterDims.WF S64000x128 S1048576x1 S1048576x128 [1] [0] [0] 1
  dot_S64000x128_S128x128_S64000x128_1_0_0_1_n_n_wf : DotDims.WF S64000x128 S128x128 S64000x128 [1] [0] [0] [1] [] []

variable [Facts₀]

def gather_S64x1000x128_S32000x2_S32000x128_1_01_n_n_01_1_11128 : GatherDims S64x1000x128 S32000x2 S32000x128 where
  offsetDims := [1]
  collapsedSliceDims := [0, 1]
  operandBatchingDims := []
  startIndicesBatchingDims := []
  startIndexMap := [0, 1]
  indexVectorDim := 1
  sliceSizes := ![1, 1, 128]
  wf := gather_S64x1000x128_S32000x2_S32000x128_1_01_n_n_01_1_11128_wf
def dot_S32000x128_S128x128_S32000x128_1_0_0_1_n_n : DotDims S32000x128 S128x128 S32000x128 where
  lhsContracting := [1]
  rhsContracting := [0]
  lhsNonContracting := [0]
  rhsNonContracting := [1]
  lhsBatch := []
  rhsBatch := []
  wf := dot_S32000x128_S128x128_S32000x128_1_0_0_1_n_n_wf
def gather_S64000x128_S1048576x1_S1048576x128_1_0_n_n_0_1_1128 : GatherDims S64000x128 S1048576x1 S1048576x128 where
  offsetDims := [1]
  collapsedSliceDims := [0]
  operandBatchingDims := []
  startIndicesBatchingDims := []
  startIndexMap := [0]
  indexVectorDim := 1
  sliceSizes := ![1, 128]
  wf := gather_S64000x128_S1048576x1_S1048576x128_1_0_n_n_0_1_1128_wf
def scatter_S64000x128_S1048576x1_S1048576x128_1_0_0_1 : ScatterDims S64000x128 S1048576x1 S1048576x128 where
  updateWindowDims := [1]
  insertedWindowDims := [0]
  scatterDimsToOperandDims := [0]
  indexVectorDim := 1
  wf := scatter_S64000x128_S1048576x1_S1048576x128_1_0_0_1_wf
def dot_S64000x128_S128x128_S64000x128_1_0_0_1_n_n : DotDims S64000x128 S128x128 S64000x128 where
  lhsContracting := [1]
  rhsContracting := [0]
  lhsNonContracting := [0]
  rhsNonContracting := [1]
  lhsBatch := []
  rhsBatch := []
  wf := dot_S64000x128_S128x128_S64000x128_1_0_0_1_n_n_wf

class Facts : Prop extends Facts₀ where

variable [Facts]
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.Affine.lean ====
/-
  THE ROW-WISE AFFINE MAP `x ↦ x · W + b` on the extended reals, for arrays of `R` rows and 128 columns.

  Entry `(r, q)` of `affine x w b` is `Σ_k x(r, k) · w(k, q) + b(q)`. Two such maps compose into one,
  `(x · W₂ + b₂) · Wₗ + bₗ = x · (W₂ · Wₗ) + (b₂ · Wₗ + bₗ)`, when every entry involved is a real number: the step
  uses distributivity and the exchange of two finite sums, which hold on the reals and fail at the infinities, so the
  hypothesis `IsReal` (every entry is the image of a real) is carried through every operation that feeds the map.
-/
import Idealize.ShloMosaic.Lib.ValueIdx

noncomputable section

open scoped BigOperators

namespace Cert.Affine

open Idealize.ShloMosaic Idealize.ShloMosaic.ValueIdx

/-- Every entry of the array is a real number (not an infinity). -/
def IsReal {S : Shape} (v : S.Idx → EReal) : Prop := ∀ i, ∃ r : ℝ, v i = (r : EReal)

/-- `x · W + b`, entry by entry: `Σ_k x(r, k) · w(k, q) + b(q)`. -/
def affine {R : Nat} (x : (⟨2, ![R, 128]⟩ : Shape).Idx → EReal) (w : (⟨2, ![128, 128]⟩ : Shape).Idx → EReal)
    (b : (⟨1, ![128]⟩ : Shape).Idx → EReal) : (⟨2, ![R, 128]⟩ : Shape).Idx → EReal :=
  fun i => (∑ k : Fin 128, x (ix2 (n0 := R) (i 0) k) * w (ix2 (n0 := 128) k (i 1))) + b (ix1 (n := 128) (i 1))

theorem affine_apply {R : Nat} (x : (⟨2, ![R, 128]⟩ : Shape).Idx → EReal) (w : (⟨2, ![128, 128]⟩ : Shape).Idx → EReal)
    (b : (⟨1, ![128]⟩ : Shape).Idx → EReal) (r : Fin R) (q : Fin 128) :
    affine x w b (ix2 r q) = (∑ k : Fin 128, x (ix2 r k) * w (ix2 k q)) + b (ix1 q) := rfl

/-- The product of two 128 × 128 matrices, entry by entry. -/
def matProd (w2 wl : (⟨2, ![128, 128]⟩ : Shape).Idx → EReal) : (⟨2, ![128, 128]⟩ : Shape).Idx → EReal :=
  fun i => ∑ l : Fin 128, w2 (ix2 (n0 := 128) (i 0) l) * wl (ix2 (n0 := 128) l (i 1))

/-- The bias of the composed map: `b₂ · Wₗ + bₗ`. -/
def biasProd (b2 : (⟨1, ![128]⟩ : Shape).Idx → EReal) (wl : (⟨2, ![128, 128]⟩ : Shape).Idx → EReal)
    (bl : (⟨1, ![128]⟩ : Shape).Idx → EReal) : (⟨1, ![128]⟩ : Shape).Idx → EReal :=
  fun i => (∑ l : Fin 128, b2 (ix1 l) * wl (ix2 (n0 := 128) l (i 0))) + bl (ix1 (n := 128) (i 0))

/-! ## The same three maps on the reals, and the inclusion of the reals carried through them -/

/-- A finite sum of reals, seen in the extended reals, is the real sum: by induction on the index set, one
    summand at a time, since the inclusion carries `0` to `0` and a sum of two to the sum. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array is real exactly when it is the entrywise image of an array of reals. -/
private theorem exists_real {S : Shape} {v : S.Idx → EReal} (hv : IsReal v) :
    ∃ vr : S.Idx → ℝ, v = fun i => (vr i : EReal) := by
  choose vr hvr using hv
  exact ⟨vr, funext hvr⟩

/-- The affine map on real arrays. -/
private def affineR {R : Nat} (x : (⟨2, ![R, 128]⟩ : Shape).Idx → ℝ) (w : (⟨2, ![128, 128]⟩ : Shape).Idx → ℝ)
    (b : (⟨1, ![128]⟩ : Shape).Idx → ℝ) : (⟨2, ![R, 128]⟩ : Shape).Idx → ℝ :=
  fun i => (∑ k : Fin 128, x (ix2 (n0 := R) (i 0) k) * w (ix2 (n0 := 128) k (i 1))) + b (ix1 (n := 128) (i 1))

/-- The matrix product on real arrays. -/
private def matProdR (w2 wl : (⟨2, ![128, 128]⟩ : Shape).Idx → ℝ) : (⟨2, ![128, 128]⟩ : Shape).Idx → ℝ :=
  fun i => ∑ l : Fin 128, w2 (ix2 (n0 := 128) (i 0) l) * wl (ix2 (n0 := 128) l (i 1))

/-- The composed bias on real arrays. -/
private def biasProdR (b2 : (⟨1, ![128]⟩ : Shape).Idx → ℝ) (wl : (⟨2, ![128, 128]⟩ : Shape).Idx → ℝ)
    (bl : (⟨1, ![128]⟩ : Shape).Idx → ℝ) : (⟨1, ![128]⟩ : Shape).Idx → ℝ :=
  fun i => (∑ l : Fin 128, b2 (ix1 l) * wl (ix2 (n0 := 128) l (i 0))) + bl (ix1 (n := 128) (i 0))

/-- The affine map of images of real arrays is the image of the real affine map: the inclusion of the reals goes
    through each product, through the finite sum and through the last addition. -/
private theorem affine_coe {R : Nat} (x : (⟨2, ![R, 128]⟩ : Shape).Idx → ℝ) (w : (⟨2, ![128, 128]⟩ : Shape).Idx → ℝ)
    (b : (⟨1, ![128]⟩ : Shape).Idx → ℝ) :
    affine (fun i => (x i : EReal)) (fun i => (w i : EReal)) (fun i => (b i : EReal))
      = fun i => (affineR x w b i : EReal) := by
  funext i
  unfold affine affineR
  rw [EReal.coe_add, coe_sum]
  simp only [EReal.coe_mul]

/-- The same for the matrix product. -/
private theorem matProd_coe (w2 wl : (⟨2, ![128, 128]⟩ : Shape).Idx → ℝ) :
    matProd (fun i => (w2 i : EReal)) (fun i => (wl i : EReal)) = fun i => (matProdR w2 wl i : EReal) := by
  funext i
  unfold matProd matProdR
  rw [coe_sum]
  simp only [EReal.coe_mul]

/-- The same for the composed bias. -/
private theorem biasProd_coe (b2 : (⟨1, ![128]⟩ : Shape).Idx → ℝ) (wl : (⟨2, ![128, 128]⟩ : Shape).Idx → ℝ)
    (bl : (⟨1, ![128]⟩ : Shape).Idx → ℝ) :
    biasProd (fun i => (b2 i : EReal)) (fun i => (wl i : EReal)) (fun i => (bl i : EReal))
      = fun i => (biasProdR b2 wl bl i : EReal) := by
  funext i
  unfold biasProd biasProdR
  rw [EReal.coe_add, coe_sum]
  simp only [EReal.coe_mul]

/-- THE COMPOSITION LAW IN THE REALS, for one entry: with `a` the row of the input,
    `Σ_k (Σ_l a(l) · w₂(l, k) + b₂(k)) · wₗ(k) + c = Σ_l a(l) · (Σ_k w₂(l, k) · wₗ(k)) + (Σ_k b₂(k) · wₗ(k) + c)`.
    Distribute the product over the inner sum and over `+ b₂(k)`, split the outer sum in two, and exchange the two
    summations in the first part. -/
private theorem compose_real {ι κ : Type*} [Fintype ι] [Fintype κ] (a : ι → ℝ) (w2 : ι → κ → ℝ) (b2 wl : κ → ℝ) (c : ℝ) :
    (∑ k, ((∑ l, a l * w2 l k) + b2 k) * wl k) + c
      = (∑ l, a l * ∑ k, w2 l k * wl k) + ((∑ k, b2 k * wl k) + c) := by
  have h1 : ∀ k, ((∑ l, a l * w2 l k) + b2 k) * wl k = (∑ l, a l * (w2 l k * wl k)) + b2 k * wl k := by
    intro k
    rw [add_mul, Finset.sum_mul]
    congr 1
    exact Finset.sum_congr rfl fun l _ => mul_assoc _ _ _
  have h2 : ∀ l, a l * ∑ k, w2 l k * wl k = ∑ k, a l * (w2 l k * wl k) := fun l => Finset.mul_sum _ _ _
  simp only [h1, h2]
  rw [Finset.sum_add_distrib, Finset.sum_comm, add_assoc]

/-- Two real affine maps compose into one. -/
private theorem affineR_affineR {R : Nat} (x : (⟨2, ![R, 128]⟩ : Shape).Idx → ℝ)
    (w2 wl : (⟨2, ![128, 128]⟩ : Shape).Idx → ℝ) (b2 bl : (⟨1, ![128]⟩ : Shape).Idx → ℝ) :
    affineR (affineR x w2 b2) wl bl = affineR x (matProdR w2 wl) (biasProdR b2 wl bl) := by
  funext i
  exact compose_real (fun l : Fin 128 => x (ix2 (i 0) l)) (fun l k : Fin 128 => w2 (ix2 l k)) (fun k : Fin 128 => b2 (ix1 k))
    (fun k : Fin 128 => wl (ix2 k (i 1))) (bl (ix1 (i 1)))

/-- An affine image of real arrays is real. -/
theorem affine_isReal {R : Nat} {x : (⟨2, ![R, 128]⟩ : Shape).Idx → EReal} {w : (⟨2, ![128, 128]⟩ : Shape).Idx → EReal}
    {b : (⟨1, ![128]⟩ : Shape).Idx → EReal} (hx : IsReal x) (hw : IsReal w) (hb : IsReal b) : IsReal (affine x w b) := by
  obtain ⟨xr, rfl⟩ := exists_real hx
  obtain ⟨wr, rfl⟩ := exists_real hw
  obtain ⟨br, rfl⟩ := exists_real hb
  rw [affine_coe]
  exact fun i => ⟨affineR xr wr br i, rfl⟩

/-- TWO AFFINE MAPS COMPOSE INTO ONE, on real arrays. -/
theorem affine_affine {R : Nat} {x : (⟨2, ![R, 128]⟩ : Shape).Idx → EReal} {w2 wl : (⟨2, ![128, 128]⟩ : Shape).Idx → EReal}
    {b2 bl : (⟨1, ![128]⟩ : Shape).Idx → EReal} (hx : IsReal x) (hw2 : IsReal w2) (hwl : IsReal wl) (hb2 : IsReal b2)
    (hbl : IsReal bl) :
    affine (affine x w2 b2) wl bl = affine x (matProd w2 wl) (biasProd b2 wl bl) := by
  obtain ⟨xr, rfl⟩ := exists_real hx
  obtain ⟨w2r, rfl⟩ := exists_real hw2
  obtain ⟨wlr, rfl⟩ := exists_real hwl
  obtain ⟨b2r, rfl⟩ := exists_real hb2
  obtain ⟨blr, rfl⟩ := exists_real hbl
  rw [affine_coe, affine_coe, matProd_coe, biasProd_coe, affine_coe, affineR_affineR]

end Cert.Affine

end
-- ==== Proof.RealClosure.lean ====
/-
  REAL ARRAYS STAY REAL under a row gather and a row scatter-add.

  A gathered entry is an entry of the operand; a scatter-add's entry is the operand's plus a finite sum of updates. So
  when the operands hold no infinity, neither does the result.
-/
import proofs.«403703_j45397804319006_2_alg».proof.Proof.LibIndexing
import proofs.«403703_j45397804319006_2_alg».proof.Proof.Affine

noncomputable section

open scoped BigOperators

namespace Cert.Affine

open Idealize.ShloMosaic Idealize.ShloMosaic.ValueIdx Cert.LibIndexing

/-- A finite sum of reals, seen in the extended reals, is the real sum. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row gather of a real array is real. -/
theorem gather_rows_isReal {N D E w : Nat} (hN : 0 < N)
    (wf : GatherDims.WF ⟨2, ![N, D]⟩ ⟨2, ![E, 1]⟩ ⟨2, ![E, D]⟩ [1] [0] [] [0] [] 1 ![1, D])
    {x : (⟨2, ![N, D]⟩ : Shape).Idx → EReal} (idx : IVec ⟨2, ![E, 1]⟩ w) (hx : IsReal x) :
    IsReal (Host.gather (rowGatherDims N D E wf) x idx) := by
  intro i
  obtain ⟨e, j, rfl⟩ : ∃ (e : Fin E) (j : Fin D), i = ix2 e j := ⟨i 0, i 1, eq_ix2 i⟩
  rw [gather_rows_apply hN wf x idx e j]
  exact hx _

/-- A row scatter-add of real arrays is real. -/
theorem scatterAdd_rows_isReal {N D E w : Nat}
    (wf : ScatterDims.WF ⟨2, ![N, D]⟩ ⟨2, ![E, 1]⟩ ⟨2, ![E, D]⟩ [1] [0] [0] 1) (idx : IVec ⟨2, ![E, 1]⟩ w)
    {x : FVec Ideal ⟨2, ![N, D]⟩ .f32} {upd : FVec Ideal ⟨2, ![E, D]⟩ .f32} (hx : IsReal x) (hu : IsReal upd) :
    IsReal (Host.scatterAdd (rowScatterDims N D E wf) x idx upd) := by
  intro i
  obtain ⟨n, j, rfl⟩ : ∃ (n : Fin N) (j : Fin D), i = ix2 n j := ⟨i 0, i 1, eq_ix2 i⟩
  choose ur hur using hu
  obtain ⟨xr, hxr⟩ := hx (ix2 n j)
  refine ⟨xr + ∑ e ∈ Finset.univ.filter (fun e : Fin E => (idx (ix2 e 0)).toInt = (n.val : Int)), ur (ix2 e j), ?_⟩
  rw [scatterAdd_rows_apply wf idx x upd n j, hxr, EReal.coe_add, coe_finset_sum]
  simp only [hur]

end Cert.Affine

end
-- ==== Proof.PairGather.lean ====
/-
  A GATHER BY A PAIR OF INDICES AGAINST A GATHER BY ONE FLAT INDEX.

  `x.reshape(B, A, D)[b, n]` reads row `(b, n)` of the array seen as `B` groups of `A` rows; `x[b · A + n]` reads
  row `b · A + n` of the flat array. Both prepare their indices the way jnp does (a negative index has the extent added)
  and both clamp what they are given into range. When `0 ≤ b < B` and `0 ≤ n < A` no index is negative, nothing is
  clamped, the 32-bit product and sum do not wrap, and row `(b, n)` of the reshaped array IS row `b · A + n` of the
  flat one (row-major order): the two gathers are the same array. Here `B = 64`, `A = 1000`, `D = 128` and there
  are 32000 index pairs.
-/
import Idealize.ShloMosaic.Lib.ValueIdx
import Idealize.ShloMosaic.Lib.Pipeline.Value
import proofs.«403703_j45397804319006_2_alg».proof.Proof.LibIndexing

noncomputable section

open scoped BigOperators

namespace Cert.PairGather

open Idealize.ShloMosaic Idealize.ShloMosaic.ValueIdx Cert.LibIndexing

variable {α : Type}

/-- The dimension numbers of a gather by index pairs: operand `[B, A, D]`, start indices `[E, 2]`, result `[E, D]`;
    the result's axis 1 is the offset axis, the operand's axes 0 and 1 are collapsed and are the ones the two start
    indices name, whole rows `[1, 1, D]` are sliced. -/
abbrev pairGatherDims (B A D E : Nat)
    (wf : GatherDims.WF ⟨3, ![B, A, D]⟩ ⟨2, ![E, 2]⟩ ⟨2, ![E, D]⟩ [1] [0, 1] [] [0, 1] [] 1 ![1, 1, D]) :
    GatherDims ⟨3, ![B, A, D]⟩ ⟨2, ![E, 2]⟩ ⟨2, ![E, D]⟩ where
  offsetDims := [1]
  collapsedSliceDims := [0, 1]
  operandBatchingDims := []
  startIndicesBatchingDims := []
  startIndexMap := [0, 1]
  indexVectorDim := 1
  sliceSizes := ![1, 1, D]
  wf := wf

/-- THE PAIR GATHER READ AT `(e, j)`: the operand at group `idx[e, 0]` and row `idx[e, 1]` (each signed, clamped into its
    axis) and column `j`. -/
theorem gather_pairs_apply {B A D E w : Nat} (hB : 0 < B) (hA : 0 < A)
    (wf : GatherDims.WF ⟨3, ![B, A, D]⟩ ⟨2, ![E, 2]⟩ ⟨2, ![E, D]⟩ [1] [0, 1] [] [0, 1] [] 1 ![1, 1, D])
    (x : (⟨3, ![B, A, D]⟩ : Shape).Idx → α) (idx : IVec ⟨2, ![E, 2]⟩ w) (e : Fin E) (j : Fin D) :
    Host.gather (pairGatherDims B A D E wf) x idx (ix2 e j)
      = x (ix3 ⟨min (idx (ix2 e 0)).toInt.toNat (B - 1), by omega⟩ ⟨min (idx (ix2 e 1)).toInt.toNat (A - 1), by omega⟩ j) := by
  unfold Host.gather
  congr 1
  funext a
  refine Fin.ext ?_
  have h0mem : (0 : Fin 3) ∈ (pairGatherDims B A D E wf).startIndexMap :=
    show (0 : Fin 3) ∈ ([0, 1] : List (Fin 3)) from by decide
  have h1mem : (1 : Fin 3) ∈ (pairGatherDims B A D E wf).startIndexMap :=
    show (1 : Fin 3) ∈ ([0, 1] : List (Fin 3)) from by decide
  match a with
  | ⟨0, _⟩ =>
    show (pairGatherDims B A D E wf).start (ix2 e j) idx 0 + (pairGatherDims B A D E wf).batchCoord (ix2 e j) 0
        + (pairGatherDims B A D E wf).offCoord (ix2 e j) 0 = _
    rw [GatherDims.batchCoord_eq_zero _ _ _ List.not_mem_nil,
      GatherDims.offCoord_eq_zero _ _ _ (fun h => ((GatherDims.mem_sKept _ _).mp h).1 h0mem)]
    simp only [Nat.add_zero]
    unfold GatherDims.start
    rw [dif_pos h0mem]
    have hsi : (pairGatherDims B A D E wf).siIdx (ix2 e j) ⟨List.idxOf (0 : Fin 3) (pairGatherDims B A D E wf).startIndexMap,
        List.idxOf_lt_length_iff.2 h0mem⟩ = ix2 e 0 := by
      funext b; refine Fin.ext ?_
      match b with
      | ⟨0, _⟩ => rfl
      | ⟨1, _⟩ => rfl
    rw [hsi]
    rfl
  | ⟨1, _⟩ =>
    show (pairGatherDims B A D E wf).start (ix2 e j) idx 1 + (pairGatherDims B A D E wf).batchCoord (ix2 e j) 1
        + (pairGatherDims B A D E wf).offCoord (ix2 e j) 1 = _
    rw [GatherDims.batchCoord_eq_zero _ _ _ List.not_mem_nil,
      GatherDims.offCoord_eq_zero _ _ _ (fun h => ((GatherDims.mem_sKept _ _).mp h).1 h1mem)]
    simp only [Nat.add_zero]
    unfold GatherDims.start
    rw [dif_pos h1mem]
    have hsi : (pairGatherDims B A D E wf).siIdx (ix2 e j) ⟨List.idxOf (1 : Fin 3) (pairGatherDims B A D E wf).startIndexMap,
        List.idxOf_lt_length_iff.2 h1mem⟩ = ix2 e 1 := by
      funext b; refine Fin.ext ?_
      match b with
      | ⟨0, _⟩ => rfl
      | ⟨1, _⟩ => rfl
    rw [hsi]
    rfl
  | ⟨2, _⟩ =>
    show (pairGatherDims B A D E wf).start (ix2 e j) idx 2 + (pairGatherDims B A D E wf).batchCoord (ix2 e j) 2
        + (pairGatherDims B A D E wf).offCoord (ix2 e j) 2 = _
    rw [GatherDims.batchCoord_eq_zero _ _ _ List.not_mem_nil]
    unfold GatherDims.start
    rw [dif_neg (show (2 : Fin 3) ∉ (pairGatherDims B A D E wf).startIndexMap from
      show (2 : Fin 3) ∉ ([0, 1] : List (Fin 3)) from by decide)]
    simp only [Nat.add_zero, Nat.zero_add]
    rfl

/-- jnp's preparation of an index vector for an axis of extent `k`: a negative entry has `k` added. -/
def wrapNeg {S : Shape} (hb : (⟨0, ![]⟩ : Shape).BroadcastsInDim S ![]) (k : BitVec 32) (v : IVec S 32) : IVec S 32 :=
  select (cmpi .slt v (broadcastInDim S ![] hb (constantI ⟨0, ![]⟩ 32 0#32)))
    (addi v (broadcastInDim S ![] hb (constantI ⟨0, ![]⟩ 32 k))) v

/-- The prepared index at a position: the word itself, or the word plus the extent when the word is negative. -/
private theorem wrapNeg_apply {S : Shape} (hb : (⟨0, ![]⟩ : Shape).BroadcastsInDim S ![]) (k : BitVec 32) (v : IVec S 32)
    (i : S.Idx) :
    wrapNeg hb k v i = Scalar.select (IntOp.cmpi .slt (v i) 0#32) (IntOp.addi (v i) k) (v i) := rfl

/-- A word that is not negative is left as it is. -/
private theorem wrapNeg_of_nonneg {S : Shape} (hb : (⟨0, ![]⟩ : Shape).BroadcastsInDim S ![]) (k : BitVec 32) (v : IVec S 32)
    (i : S.Idx) (h : 0 ≤ (v i).toInt) : wrapNeg hb k v i = v i := by
  rw [wrapNeg_apply]
  have hc : IntOp.cmpi .slt (v i) 0#32 = 0#1 := by
    unfold IntOp.cmpi
    have hs : (v i).slt 0#32 = false := by
      simp only [BitVec.slt, BitVec.toInt_zero, decide_eq_false_iff_not]
      omega
    rw [hs]; rfl
  rw [hc, select_zero]

/-- A vector laid as an `[n, 1]` column reads, at `(e, 0)`, the vector at `e`. -/
private theorem col_apply {β : Type} {n : Nat} (h : (⟨1, ![n]⟩ : Shape).BroadcastsInDim ⟨2, ![n, 1]⟩ ![0])
    (v : (⟨1, ![n]⟩ : Shape).Idx → β) (e : Fin n) :
    broadcastInDim ⟨2, ![n, 1]⟩ ![0] h v (ix2 e 0) = v (ix1 e) := by
  simp only [broadcastInDim]
  congr 1
  funext a
  have ha : a = 0 := Subsingleton.elim _ _
  subst ha
  apply Fin.ext
  have he := e.isLt
  split
  · next h1 => change n = 1 at h1; show (0 : Nat) = e.val; omega
  · rfl

/-- Two columns side by side read, at `(e, 0)`, the first column at `(e, 0)`. -/
private theorem cat_col0 {β : Type}
    (hcat : Shape.Concatenates [(⟨2, ![32000, 1]⟩ : Shape), ⟨2, ![32000, 1]⟩] ⟨2, ![32000, 2]⟩ 1)
    (u v : (⟨2, ![32000, 1]⟩ : Shape).Idx → β) (e : Fin 32000) :
    concatenate ⟨2, ![32000, 2]⟩ 1 [⟨⟨2, ![32000, 1]⟩, u⟩, ⟨⟨2, ![32000, 1]⟩, v⟩] hcat (ix2 e 0) = u (ix2 e 0) :=
  concatenate_apply_piece (t := ⟨2, ![32000, 2]⟩) 1 [⟨⟨2, ![32000, 1]⟩, u⟩, ⟨⟨2, ![32000, 1]⟩, v⟩] hcat (ix2 e 0)
    0 Nat.zero_lt_two ⟨2, ![32000, 1]⟩ u rfl rfl 0 rfl (ix2 e 0)
    (fun b hb => match b with
      | ⟨0, _⟩ => rfl
      | ⟨1, _⟩ => absurd rfl hb)
    rfl

/-- Two columns side by side read, at `(e, 1)`, the second column at `(e, 0)`. -/
private theorem cat_col1 {β : Type}
    (hcat : Shape.Concatenates [(⟨2, ![32000, 1]⟩ : Shape), ⟨2, ![32000, 1]⟩] ⟨2, ![32000, 2]⟩ 1)
    (u v : (⟨2, ![32000, 1]⟩ : Shape).Idx → β) (e : Fin 32000) :
    concatenate ⟨2, ![32000, 2]⟩ 1 [⟨⟨2, ![32000, 1]⟩, u⟩, ⟨⟨2, ![32000, 1]⟩, v⟩] hcat (ix2 e 1) = v (ix2 e 0) :=
  concatenate_apply_piece (t := ⟨2, ![32000, 2]⟩) 1 [⟨⟨2, ![32000, 1]⟩, u⟩, ⟨⟨2, ![32000, 1]⟩, v⟩] hcat (ix2 e 1)
    1 Nat.one_lt_two ⟨2, ![32000, 1]⟩ v rfl rfl 1 rfl (ix2 e 0)
    (fun b hb => match b with
      | ⟨0, _⟩ => rfl
      | ⟨1, _⟩ => absurd rfl hb)
    rfl

/-- The flat row number as a 32-bit word: with `0 ≤ p < 64` and `0 ≤ q < 1000` the product `p · 1000` and the sum
    `p · 1000 + q` stay below `2³¹`, so the word reads `1000 p + q`. -/
private theorem flat_word (p q : BitVec 32) (hp0 : 0 ≤ p.toInt) (hp1 : p.toInt < 64) (hq0 : 0 ≤ q.toInt)
    (hq1 : q.toInt < 1000) : (IntOp.addi (IntOp.muli p 1000#32) q).toInt = 1000 * p.toInt + q.toInt := by
  show (p * 1000#32 + q).toInt = _
  have hk : (1000#32 : BitVec 32).toInt = 1000 := by decide
  rw [BitVec.toInt_add, BitVec.toInt_mul, hk]
  have h1 : (p.toInt * 1000).bmod (2 ^ 32) = p.toInt * 1000 := Int.bmod_eq_of_le_mul_two (by omega) (by omega)
  rw [h1]
  have h2 : (p.toInt * 1000 + q.toInt).bmod (2 ^ 32) = p.toInt * 1000 + q.toInt :=
    Int.bmod_eq_of_le_mul_two (by omega) (by omega)
  rw [h2]; omega

/-- THE TWO GATHERS AGREE when every pair is in range. -/
theorem pair_gather_eq_flat_gather
    (wf2 : GatherDims.WF ⟨3, ![64, 1000, 128]⟩ ⟨2, ![32000, 2]⟩ ⟨2, ![32000, 128]⟩ [1] [0, 1] [] [0, 1] [] 1 ![1, 1, 128])
    (wf1 : GatherDims.WF ⟨2, ![64000, 128]⟩ ⟨2, ![32000, 1]⟩ ⟨2, ![32000, 128]⟩ [1] [0] [] [0] [] 1 ![1, 128])
    (hsc : (⟨2, ![64000, 128]⟩ : Shape).ShapeCasts ⟨3, ![64, 1000, 128]⟩)
    (hb0 : (⟨0, ![]⟩ : Shape).BroadcastsInDim ⟨1, ![32000]⟩ ![])
    (hb1 : (⟨1, ![32000]⟩ : Shape).BroadcastsInDim ⟨2, ![32000, 1]⟩ ![0])
    (hcat : Shape.Concatenates [(⟨2, ![32000, 1]⟩ : Shape), ⟨2, ![32000, 1]⟩] ⟨2, ![32000, 2]⟩ 1)
    (x : (⟨2, ![64000, 128]⟩ : Shape).Idx → α) (b n : IVec ⟨1, ![32000]⟩ 32)
    (hb : ∀ e : Fin 32000, 0 ≤ (b (ix1 e)).toInt ∧ (b (ix1 e)).toInt < 64)
    (hn : ∀ e : Fin 32000, 0 ≤ (n (ix1 e)).toInt ∧ (n (ix1 e)).toInt < 1000) :
    Host.gather (pairGatherDims 64 1000 128 32000 wf2) (shapeCast ⟨3, ![64, 1000, 128]⟩ x hsc)
        (concatenate ⟨2, ![32000, 2]⟩ 1
          [⟨⟨2, ![32000, 1]⟩, broadcastInDim ⟨2, ![32000, 1]⟩ ![0] hb1 (wrapNeg hb0 64#32 b)⟩,
           ⟨⟨2, ![32000, 1]⟩, broadcastInDim ⟨2, ![32000, 1]⟩ ![0] hb1 (wrapNeg hb0 1000#32 n)⟩] hcat)
      = Host.gather (rowGatherDims 64000 128 32000 wf1) x
          (broadcastInDim ⟨2, ![32000, 1]⟩ ![0] hb1
            (wrapNeg hb0 64000#32
              (addi (muli b (broadcastInDim ⟨1, ![32000]⟩ ![] hb0 (constantI ⟨0, ![]⟩ 32 1000#32))) n))) := by
  funext i
  obtain ⟨e, j, rfl⟩ : ∃ e j, i = ix2 e j := ⟨i 0, i 1, eq_ix2 i⟩
  obtain ⟨hp0, hp1⟩ := hb e
  obtain ⟨hq0, hq1⟩ := hn e
  -- the flat row number, as a word and as an integer
  have hflat : ((addi (muli b (broadcastInDim ⟨1, ![32000]⟩ ![] hb0 (constantI ⟨0, ![]⟩ 32 1000#32))) n) (ix1 e)).toInt
      = 1000 * (b (ix1 e)).toInt + (n (ix1 e)).toInt := flat_word _ _ hp0 hp1 hq0 hq1
  -- each gather read at `(e, j)`
  rw [gather_pairs_apply (by decide) (by decide), gather_rows_apply (by decide)]
  -- the reshaped array at `(bb, nn, j)` is the flat one at the index with the same row-major position
  refine shapeCast_apply x hsc _ _ ?_
  rw [Shape.rowMajor_val_two, Shape.rowMajor_val_three]
  show min _ (64000 - 1) * 128 + j.val = (min _ (64 - 1) * 1000 + min _ (1000 - 1)) * 128 + j.val
  -- the three start indices are `b e`, `n e` and `1000 (b e) + n e`: none negative, none clamped
  rw [cat_col0, cat_col1, col_apply, col_apply, col_apply, wrapNeg_of_nonneg _ _ _ _ hp0, wrapNeg_of_nonneg _ _ _ _ hq0,
    wrapNeg_of_nonneg _ _ _ _ (by rw [hflat]; omega), hflat]
  omega

end Cert.PairGather

end
-- ==== Proof.Stages.lean ====
/-
  THE STAGES BOTH PROGRAMS ARE BUILT FROM, each defined once, over literal shapes.

  * `edgeSum x ei`: one round of message passing without its projection. Row `ei[0, e]` of `x` (jnp's negative-index
    convention applied, then clamped) is gathered for each of the 1048576 edges and added into row `ei[1, e]` of a zero
    array; an edge whose destination is outside the 64000 rows adds nowhere.
  * `flatRows x b n`: rows `b · 1000 + n` of `x`, one for each of 32000 index pairs (32-bit arithmetic, negative-index
    convention, clamped). `pairRows x b n`: rows `(b, n)` of `x` seen as 64 groups of 1000 rows.
  * `hostAffine x w b`: `x · w + b` as the reference spells it, a contraction and a bias broadcast along the rows; it is
    the map `Cert.Affine.affine`.
  * `prodW w2 wl`, `prodB b2 wl bl`: the folded weight `w2 · wl` and the folded bias `b2 · wl + bl`; they are
    `Cert.Affine.matProd` and `Cert.Affine.biasProd`.
  * `stack a b`: the two results as the two slabs of one `[2, 32000, 128]` array.

  The kernel program computes `stack (affine (flatRows x0 …) …) (affine (flatRows A2 …) (prodW W2 Wl) (prodB b2 Wl bl))` and
  the reference `stack (hostAffine (pairRows x0 …) …) (hostAffine (pairRows (hostAffine A2 W2 b2) …) Wl bl)` over the same
  `A2 = edgeSum (affine (edgeSum x1 ei) W1 b1) ei`. With the index pairs in range the two gathers agree, a gather of rows
  commutes with a row-wise affine map, and on real arrays two affine maps compose into one: the two are one array.
-/
import Idealize.ShloMosaic.Lib.ValueIdx
import Idealize.ShloMosaic.Lib.ValueLayout
import Idealize.ShloMosaic.Lib.Pipeline.Value
import Idealize.ShloMosaic.PureOps.Ideal.Laws
import proofs.«403703_j45397804319006_2_alg».proof.Proof.LibIndexing
import proofs.«403703_j45397804319006_2_alg».proof.Proof.Affine
import proofs.«403703_j45397804319006_2_alg».proof.Proof.RealClosure
import proofs.«403703_j45397804319006_2_alg».proof.Proof.PairGather

noncomputable section

open scoped BigOperators

namespace Cert.Stages

open Idealize.ShloMosaic Idealize.ShloMosaic.ValueIdx Cert.LibIndexing Cert.Affine Cert.PairGather

/-! ## Shapes -/

abbrev SX : Shape := ⟨2, ![64000, 128]⟩
abbrev SM : Shape := ⟨2, ![32000, 128]⟩
abbrev SW : Shape := ⟨2, ![128, 128]⟩
abbrev SB : Shape := ⟨1, ![128]⟩
abbrev SB1 : Shape := ⟨2, ![1, 128]⟩
abbrev SEI : Shape := ⟨2, ![2, 1048576]⟩
abbrev SE1 : Shape := ⟨2, ![1, 1048576]⟩
abbrev SE : Shape := ⟨1, ![1048576]⟩
abbrev SEc : Shape := ⟨2, ![1048576, 1]⟩
abbrev SEX : Shape := ⟨2, ![1048576, 128]⟩
abbrev SI : Shape := ⟨1, ![32000]⟩
abbrev SIc : Shape := ⟨2, ![32000, 1]⟩
abbrev SI2 : Shape := ⟨2, ![32000, 2]⟩
abbrev S3 : Shape := ⟨3, ![64, 1000, 128]⟩
abbrev S0 : Shape := ⟨0, ![]⟩
abbrev ST1 : Shape := ⟨3, ![1, 32000, 128]⟩
abbrev ST2 : Shape := ⟨3, ![2, 32000, 128]⟩

/-- The shape side conditions the stages' operations take. -/
structure ShapeFacts : Prop where
  b0I : S0.BroadcastsInDim SI ![]
  bIc : SI.BroadcastsInDim SIc ![0]
  b0E : S0.BroadcastsInDim SE ![]
  bEc : SE.BroadcastsInDim SEc ![0]
  b0X : S0.BroadcastsInDim SX ![]
  sl0 : SEI.Slices ![0, 0] SE1
  sl1 : SEI.Slices ![1, 0] SE1
  scE : SE1.ShapeCasts SE
  wfGE : GatherDims.WF SX SEc SEX [1] [0] [] [0] [] 1 ![1, 128]
  wfSE : ScatterDims.WF SX SEc SEX [1] [0] [0] 1
  wfGI : GatherDims.WF SX SIc SM [1] [0] [] [0] [] 1 ![1, 128]
  wfG2 : GatherDims.WF S3 SI2 SM [1] [0, 1] [] [0, 1] [] 1 ![1, 1, 128]
  sc3 : SX.ShapeCasts S3
  cat2 : Shape.Concatenates [SIc, SIc] SI2 1
  bT : SM.BroadcastsInDim ST1 ![1, 2]
  catT : Shape.Concatenates [ST1, ST1] ST2 0
  wfDM : DotDims.WF SM SW SM [1] [0] [0] [1] [] []
  wfDX : DotDims.WF SX SW SX [1] [0] [0] [1] [] []
  wfDW : DotDims.WF SW SW SW [1] [0] [0] [1] [] []
  wfD1 : DotDims.WF SB1 SW SB1 [1] [0] [0] [1] [] []
  bB1 : SB.BroadcastsInDim SB1 ![1]
  bB1M : SB1.BroadcastsInDim SM ![0, 1]
  bB1X : SB1.BroadcastsInDim SX ![0, 1]
  scB : SB1.ShapeCasts SB

variable {F : FTy → Type} [FloatOps F]

variable (h : ShapeFacts)

/-! ## Message passing -/

/-- Row `k` of the edge-index array, as a vector of 1048576 words. -/
def edgeRow0 (ei : IVec SEI 32) : IVec SE 32 := shapeCast SE (extractStridedSlice SE1 ![0, 0] ei h.sl0) h.scE
def edgeRow1 (ei : IVec SEI 32) : IVec SE 32 := shapeCast SE (extractStridedSlice SE1 ![1, 0] ei h.sl1) h.scE

/-- Gather the source rows, add them into the destination rows of a zero array. -/
def edgeSum (x : FVec F SX .f32) (ei : IVec SEI 32) : FVec F SX .f32 :=
  Host.scatterAdd (rowScatterDims 64000 128 1048576 h.wfSE)
    (broadcastInDim SX ![] h.b0X (constant (F := F) S0 .f32 0x00000000#32))
    (broadcastInDim SEc ![0] h.bEc (edgeRow1 h ei))
    (Host.gather (rowGatherDims 64000 128 1048576 h.wfGE) x
      (broadcastInDim SEc ![0] h.bEc (wrapNeg h.b0E 64000#32 (edgeRow0 h ei))))

theorem edgeSum_isReal {x : FVec Ideal SX .f32} (ei : IVec SEI 32) (hx : IsReal x) : IsReal (edgeSum h x ei) := by
  unfold edgeSum
  refine scatterAdd_rows_isReal h.wfSE _ (fun i => ⟨0, ?_⟩) (gather_rows_isReal (by decide) h.wfGE _ hx)
  show Ideal.ofBits .f32 0x00000000#32 = ((0 : ℝ) : EReal)
  rw [Ideal.ofBits_zero_f32, EReal.coe_zero]

/-! ## The two row selections -/

/-- Rows `b · 1000 + n`. -/
def flatRows {α : Type} (x : SX.Idx → α) (b n : IVec SI 32) : SM.Idx → α :=
  Host.gather (rowGatherDims 64000 128 32000 h.wfGI) x
    (broadcastInDim SIc ![0] h.bIc
      (wrapNeg h.b0I 64000#32 (addi (muli b (broadcastInDim SI ![] h.b0I (constantI S0 32 1000#32))) n)))

/-- Rows `(b, n)` of the array seen as 64 groups of 1000 rows. -/
def pairRows {α : Type} (x : SX.Idx → α) (b n : IVec SI 32) : SM.Idx → α :=
  Host.gather (pairGatherDims 64 1000 128 32000 h.wfG2) (shapeCast S3 x h.sc3)
    (concatenate SI2 1
      [⟨SIc, broadcastInDim SIc ![0] h.bIc (wrapNeg h.b0I 64#32 b)⟩,
       ⟨SIc, broadcastInDim SIc ![0] h.bIc (wrapNeg h.b0I 1000#32 n)⟩] h.cat2)

theorem pairRows_eq_flatRows {α : Type} (x : SX.Idx → α) (b n : IVec SI 32)
    (hb : ∀ e : Fin 32000, 0 ≤ (b (ix1 e)).toInt ∧ (b (ix1 e)).toInt < 64)
    (hn : ∀ e : Fin 32000, 0 ≤ (n (ix1 e)).toInt ∧ (n (ix1 e)).toInt < 1000) :
    pairRows h x b n = flatRows h x b n :=
  pair_gather_eq_flat_gather h.wfG2 h.wfGI h.sc3 h.b0I h.bIc h.cat2 x b n hb hn

theorem flatRows_isReal {x : FVec Ideal SX .f32} (b n : IVec SI 32) (hx : IsReal x) : IsReal (flatRows h x b n) :=
  gather_rows_isReal (by decide) h.wfGI _ hx

/-- A selection of rows commutes with a row-wise affine map. -/
theorem flatRows_affine (x : FVec Ideal SX .f32) (w : FVec Ideal SW .f32) (bias : FVec Ideal SB .f32) (b n : IVec SI 32) :
    flatRows h (affine (R := 64000) x w bias) b n = affine (R := 32000) (flatRows h x b n) w bias := by
  funext i
  obtain ⟨e, q, rfl⟩ : ∃ (e : Fin 32000) (q : Fin 128), i = ix2 e q := ⟨i 0, i 1, eq_ix2 i⟩
  unfold flatRows
  rw [gather_rows_apply (by decide) h.wfGI, affine_apply, affine_apply]
  congr 1
  refine Finset.sum_congr rfl fun k _ => ?_
  rw [gather_rows_apply (by decide) h.wfGI]

/-! ## The reference's spelling of the affine map, and the folded weight and bias -/

/-- The dimension numbers of rows × matrix. -/
abbrev matDims (R K C : Nat) (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

def hostAffineM (x : FVec F SM .f32) (w : FVec F SW .f32) (b : FVec F SB .f32) : FVec F SM .f32 :=
  addf (Host.dotGeneral (matDims 32000 128 128 h.wfDM) none x w)
    (broadcastInDim SM ![0, 1] h.bB1M (broadcastInDim SB1 ![1] h.bB1 b))

def hostAffineX (x : FVec F SX .f32) (w : FVec F SW .f32) (b : FVec F SB .f32) : FVec F SX .f32 :=
  addf (Host.dotGeneral (matDims 64000 128 128 h.wfDX) none x w)
    (broadcastInDim SX ![0, 1] h.bB1X (broadcastInDim SB1 ![1] h.bB1 b))

/-! ### Rows times a matrix, and a broadcast bias, read at an index -/

section Reads
variable {R K C : Nat} (wf : DotDims.WF ⟨2, ![R, K]⟩ ⟨2, ![K, C]⟩ ⟨2, ![R, C]⟩ [1] [0] [0] [1] [] [])

/-- The left operand's row coordinate is the result's row. -/
private theorem matDims_lhs0 (i : (⟨2, ![R, C]⟩ : Shape).Idx) (q : (matDims R K C wf).contr.Idx) :
    ((matDims R K C wf).lhsIdx i q 0).val = (i 0).val := by
  unfold DotDims.lhsIdx
  rw [dif_neg (show ¬(0 : Fin 2) ∈ (matDims R K C wf).lhsBatch from List.not_mem_nil),
    dif_pos (show (0 : Fin 2) ∈ (matDims R K C wf).lhsNonContracting from List.mem_singleton.mpr rfl)]
  rfl

/-- The left operand's column coordinate is the contraction index. -/
private theorem matDims_lhs1 (i : (⟨2, ![R, C]⟩ : Shape).Idx) (q : (matDims R K C wf).contr.Idx) :
    ((matDims R K C wf).lhsIdx i q 1).val = (q ⟨0, Nat.one_pos⟩).val :=
  (matDims R K C wf).lhsIdx_val_of_single rfl i q

/-- The right operand's row coordinate is the contraction index. -/
private theorem matDims_rhs0 (i : (⟨2, ![R, C]⟩ : Shape).Idx) (q : (matDims R K C wf).contr.Idx) :
    ((matDims R K C wf).rhsIdx i q 0).val = (q ⟨0, Nat.one_pos⟩).val :=
  (matDims R K C wf).rhsIdx_val_of_single rfl i q

/-- The right operand's column coordinate is the result's column. -/
private theorem matDims_rhs1 (i : (⟨2, ![R, C]⟩ : Shape).Idx) (q : (matDims R K C wf).contr.Idx) :
    ((matDims R K C wf).rhsIdx i q 1).val = (i 1).val := by
  unfold DotDims.rhsIdx
  rw [dif_neg (show ¬(1 : Fin 2) ∈ (matDims R K C wf).rhsBatch from List.not_mem_nil),
    dif_pos (show (1 : Fin 2) ∈ (matDims R K C wf).rhsNonContracting from List.mem_singleton.mpr rfl)]
  rfl

/-- ROWS TIMES A MATRIX READ AT `(r, q)`, at the ideal values: `Σ_k x(r, k) · w(k, q)`, whatever the precision key. The
    contraction index set has one axis of extent `K`; the sum is re-indexed along its one coordinate. -/
private theorem dot_rows_apply (prec : Option ContractPrecision) (x : FVec Ideal ⟨2, ![R, K]⟩ .f32)
    (w : FVec Ideal ⟨2, ![K, C]⟩ .f32) (r : Fin R) (q : Fin C) :
    Host.dotGeneral (matDims R K C wf) prec x w (ix2 r q) = ∑ k : Fin K, x (ix2 r k) * w (ix2 k q) := by
  simp only [Host.dotGeneral]
  rw [Ideal.dotGeneral_apply, ← Equiv.sum_comp (contrEquiv1 (matDims R K C wf) K rfl rfl).symm]
  refine Finset.sum_congr rfl fun k _ => ?_
  have hk := contrEquiv1_symm_val (matDims R K C wf) K rfl rfl k
  have el : (matDims R K C wf).lhsIdx (ix2 r q) ((contrEquiv1 (matDims R K C wf) K rfl rfl).symm k) = ix2 r k :=
    funext fun a => Fin.ext (by
      match a with
      | ⟨0, _⟩ => exact matDims_lhs0 wf _ _
      | ⟨1, _⟩ => exact (matDims_lhs1 wf _ _).trans hk)
  have er : (matDims R K C wf).rhsIdx (ix2 r q) ((contrEquiv1 (matDims R K C wf) K rfl rfl).symm k) = ix2 k q :=
    funext fun a => Fin.ext (by
      match a with
      | ⟨0, _⟩ => exact (matDims_rhs0 wf _ _).trans hk
      | ⟨1, _⟩ => exact matDims_rhs1 wf _ _)
  rw [el, er]

end Reads

/-- A vector of 128 entries laid out as one row reads, at `(0, q)`, its entry `q`. -/
private theorem bias_row_apply {α : Type} (hb1 : SB.BroadcastsInDim SB1 ![1]) (b : SB.Idx → α) (u : Fin 1) (q : Fin 128) :
    broadcastInDim SB1 ![1] hb1 b (ix2 u q) = b (ix1 q) :=
  broadcastInDim_apply _ hb1 b (ix2 u q) (ix1 q) (fun a => match a with
    | ⟨0, _⟩ => by show q.val = if (128 : Nat) = 1 then 0 else q.val; rw [if_neg (by decide)])

/-- That one row repeated along `R` rows reads, at `(r, q)`, the vector's entry `q`. -/
private theorem bias_rows_apply {α : Type} {R : Nat} (hb1 : SB.BroadcastsInDim SB1 ![1])
    (hbR : SB1.BroadcastsInDim ⟨2, ![R, 128]⟩ ![0, 1]) (b : SB.Idx → α) (r : Fin R) (q : Fin 128) :
    broadcastInDim ⟨2, ![R, 128]⟩ ![0, 1] hbR (broadcastInDim SB1 ![1] hb1 b) (ix2 r q) = b (ix1 q) := by
  rw [broadcastInDim_apply _ hbR _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  exact bias_row_apply hb1 b 0 q

/-- The reference's spelling, a contraction plus the bias broadcast along the rows, is the affine map at any number
    of rows: read at `(r, q)` both are `Σ_k x(r, k) · w(k, q) + b(q)`. -/
private theorem hostAffine_eq {R : Nat} (wf : DotDims.WF ⟨2, ![R, 128]⟩ ⟨2, ![128, 128]⟩ ⟨2, ![R, 128]⟩ [1] [0] [0] [1] [] [])
    (hb1 : SB.BroadcastsInDim SB1 ![1]) (hbR : SB1.BroadcastsInDim ⟨2, ![R, 128]⟩ ![0, 1])
    (x : FVec Ideal ⟨2, ![R, 128]⟩ .f32) (w : FVec Ideal SW .f32) (b : FVec Ideal SB .f32) :
    addf (Host.dotGeneral (matDims R 128 128 wf) none x w)
        (broadcastInDim ⟨2, ![R, 128]⟩ ![0, 1] hbR (broadcastInDim SB1 ![1] hb1 b))
      = affine (R := R) x w b := by
  funext i
  obtain ⟨r, q, rfl⟩ : ∃ (r : Fin R) (q : Fin 128), i = ix2 r q := ⟨i 0, i 1, eq_ix2 i⟩
  rw [addf_apply, dot_rows_apply, bias_rows_apply, affine_apply]

theorem hostAffineM_eq (x : FVec Ideal SM .f32) (w : FVec Ideal SW .f32) (b : FVec Ideal SB .f32) :
    hostAffineM h x w b = affine (R := 32000) x w b := by
  unfold hostAffineM
  exact hostAffine_eq h.wfDM h.bB1 h.bB1M x w b

theorem hostAffineX_eq (x : FVec Ideal SX .f32) (w : FVec Ideal SW .f32) (b : FVec Ideal SB .f32) :
    hostAffineX h x w b = affine (R := 64000) x w b := by
  unfold hostAffineX
  exact hostAffine_eq h.wfDX h.bB1 h.bB1X x w b

def prodW (w2 wl : FVec F SW .f32) : FVec F SW .f32 :=
  Host.dotGeneral (matDims 128 128 128 h.wfDW) (some .fp32) w2 wl

def prodB (b2 : FVec F SB .f32) (wl : FVec F SW .f32) (bl : FVec F SB .f32) : FVec F SB .f32 :=
  addf (shapeCast SB (Host.dotGeneral (matDims 1 128 128 h.wfD1) (some .fp32) (broadcastInDim SB1 ![1] h.bB1 b2) wl) h.scB) bl

theorem prodW_eq (w2 wl : FVec Ideal SW .f32) : prodW h w2 wl = matProd w2 wl := by
  funext i
  obtain ⟨r, q, rfl⟩ : ∃ (r q : Fin 128), i = ix2 r q := ⟨i 0, i 1, eq_ix2 i⟩
  unfold prodW
  rw [dot_rows_apply]
  rfl

theorem prodB_eq (b2 : FVec Ideal SB .f32) (wl : FVec Ideal SW .f32) (bl : FVec Ideal SB .f32) :
    prodB h b2 wl bl = biasProd b2 wl bl := by
  funext i
  obtain ⟨q, rfl⟩ : ∃ q : Fin 128, i = ix1 q := ⟨i 0, eq_ix1 i⟩
  unfold prodB
  rw [addf_apply, shapeCast_1a_a_apply, dot_rows_apply]
  show (∑ k : Fin 128, broadcastInDim SB1 ![1] h.bB1 b2 (ix2 (0 : Fin 1) k) * wl (ix2 k q)) + bl (ix1 q)
    = (∑ l : Fin 128, b2 (ix1 l) * wl (ix2 l q)) + bl (ix1 q)
  congr 1
  refine Finset.sum_congr rfl fun k _ => ?_
  rw [bias_row_apply]

/-! ## The result -/

def stack (a b : FVec F SM .f32) : FVec F ST2 .f32 :=
  concatenate ST2 0
    [⟨ST1, broadcastInDim ST1 ![1, 2] h.bT a⟩, ⟨ST1, broadcastInDim ST1 ![1, 2] h.bT b⟩] h.catT

/-- What the kernel program computes. -/
def kernelVal (x0 x1 : FVec Ideal SX .f32) (ei : IVec SEI 32) (b0 n0 b1 n1 : IVec SI 32)
    (W1 : FVec Ideal SW .f32) (c1 : FVec Ideal SB .f32) (W2 : FVec Ideal SW .f32) (c2 : FVec Ideal SB .f32)
    (Wl : FVec Ideal SW .f32) (cl : FVec Ideal SB .f32) (Wfi : FVec Ideal SW .f32) (cfi : FVec Ideal SB .f32) :
    FVec Ideal ST2 .f32 :=
  stack (F := Ideal) h (affine (R := 32000) (flatRows h x0 b0 n0) Wfi cfi)
    (affine (R := 32000) (flatRows h (edgeSum (F := Ideal) h (affine (R := 64000) (edgeSum h x1 ei) W1 c1) ei) b1 n1)
      (prodW h W2 Wl) (prodB h c2 Wl cl))

/-- What the reference program computes. -/
def refVal (x0 x1 : FVec F SX .f32) (ei : IVec SEI 32) (b0 n0 b1 n1 : IVec SI 32)
    (W1 : FVec F SW .f32) (c1 : FVec F SB .f32) (W2 : FVec F SW .f32) (c2 : FVec F SB .f32)
    (Wl : FVec F SW .f32) (cl : FVec F SB .f32) (Wfi : FVec F SW .f32) (cfi : FVec F SB .f32) :
    FVec F ST2 .f32 :=
  stack h (hostAffineM h (pairRows h x0 b0 n0) Wfi cfi)
    (hostAffineM h (pairRows h (hostAffineX h (edgeSum h (hostAffineX h (edgeSum h x1 ei) W1 c1) ei) W2 c2) b1 n1) Wl cl)

/-- THE TWO PROGRAMS COMPUTE ONE ARRAY, on real float arguments and index pairs in range. -/
theorem refVal_eq_kernelVal (x0 x1 : FVec Ideal SX .f32) (ei : IVec SEI 32) (b0 n0 b1 n1 : IVec SI 32)
    (W1 : FVec Ideal SW .f32) (c1 : FVec Ideal SB .f32) (W2 : FVec Ideal SW .f32) (c2 : FVec Ideal SB .f32)
    (Wl : FVec Ideal SW .f32) (cl : FVec Ideal SB .f32) (Wfi : FVec Ideal SW .f32) (cfi : FVec Ideal SB .f32)
    (hx1 : IsReal x1) (hW1 : IsReal W1) (hc1 : IsReal c1) (hW2 : IsReal W2) (hc2 : IsReal c2) (hWl : IsReal Wl) (hcl : IsReal cl)
    (hb0 : ∀ e : Fin 32000, 0 ≤ (b0 (ix1 e)).toInt ∧ (b0 (ix1 e)).toInt < 64)
    (hn0 : ∀ e : Fin 32000, 0 ≤ (n0 (ix1 e)).toInt ∧ (n0 (ix1 e)).toInt < 1000)
    (hb1 : ∀ e : Fin 32000, 0 ≤ (b1 (ix1 e)).toInt ∧ (b1 (ix1 e)).toInt < 64)
    (hn1 : ∀ e : Fin 32000, 0 ≤ (n1 (ix1 e)).toInt ∧ (n1 (ix1 e)).toInt < 1000) :
    refVal h x0 x1 ei b0 n0 b1 n1 W1 c1 W2 c2 Wl cl Wfi cfi = kernelVal h x0 x1 ei b0 n0 b1 n1 W1 c1 W2 c2 Wl cl Wfi cfi := by
  unfold refVal kernelVal
  have hA1 : IsReal (edgeSum h x1 ei) := edgeSum_isReal h ei hx1
  have hH1 : IsReal (affine (R := 64000) (edgeSum h x1 ei) W1 c1) := affine_isReal hA1 hW1 hc1
  have hA2 : IsReal (edgeSum (F := Ideal) h (affine (R := 64000) (edgeSum h x1 ei) W1 c1) ei) := edgeSum_isReal h ei hH1
  rw [hostAffineM_eq, hostAffineM_eq, hostAffineX_eq, hostAffineX_eq, pairRows_eq_flatRows h _ b0 n0 hb0 hn0,
    pairRows_eq_flatRows h _ b1 n1 hb1 hn1, flatRows_affine,
    affine_affine (flatRows_isReal h b1 n1 hA2) hW2 hWl hc2 hcl, prodW_eq, prodB_eq]

end Cert.Stages

end
-- ==== Proof.KernelStretch0.lean ====
import proofs.«403703_j45397804319006_2_alg».proof.Proof.Gen.KernelIdeal.Frame
import proofs.«403703_j45397804319006_2_alg».proof.Proof.Stages
import Idealize.ShloMosaic.Lib.StableHlo.Run
import Idealize.ShloMosaic.PureOps.Ideal

set_option maxRecDepth 16384

noncomputable section

namespace Cert.KernelIdeal.Stretch0

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg) (h : Cert.Stages.ShapeFacts)

/-! ## The first host stretch, read back: what the first region finds -/

set_option maxHeartbeats 4000000 in
/-- The first region's input rows: the flat selection of rows of the first argument. -/
theorem V1_x (c : Dev nD) :
    V1 m ρ c main_v9 = Cert.Stages.flatRows h (m ((c.tc : Thread nD τ).loc main_arg0)) (m ((c.tc : Thread nD τ).loc main_arg3)) (m ((c.tc : Thread nD τ).loc main_arg4)) := by
  show StableHlo.after hostOps0 (W0 m ρ c) (Proc.devRef .tc main_v9) = _
  after_results
  rfl

/-- Its weight and bias are two arguments, untouched. -/
theorem V1_w (c : Dev nD) : V1 m ρ c main_arg13 = m ((c.tc : Thread nD τ).loc main_arg13) := by
  show StableHlo.after hostOps0 (W0 m ρ c) (Proc.devRef .tc main_arg13) = _
  after_results
theorem V1_b (c : Dev nD) : V1 m ρ c main_arg14 = m ((c.tc : Thread nD τ).loc main_arg14) := by
  show StableHlo.after hostOps0 (W0 m ρ c) (Proc.devRef .tc main_arg14) = _
  after_results

/-! ## The arguments at the first region's exit: no host operation and no window of the region writes one -/

theorem W2_arg1 (c : Dev nD) : W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  after_results

theorem W2_arg2 (c : Dev nD) : W2 m ρ c (Proc.devRef .tc main_arg2) = m ((c.tc : Thread nD τ).loc main_arg2) := by
  rw [W2_of_ne m ρ c main_arg2 (by decide)]
  show StableHlo.after hostOps0 (W0 m ρ c) (Proc.devRef .tc main_arg2) = _
  after_results

theorem W2_arg5 (c : Dev nD) : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results

theorem W2_arg6 (c : Dev nD) : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results

theorem W2_arg7 (c : Dev nD) : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results

theorem W2_arg8 (c : Dev nD) : W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  after_results

theorem W2_arg9 (c : Dev nD) : W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  after_results

theorem W2_arg10 (c : Dev nD) : W2 m ρ c (Proc.devRef .tc main_arg10) = m ((c.tc : Thread nD τ).loc main_arg10) := by
  rw [W2_of_ne m ρ c main_arg10 (by decide)]
  show StableHlo.after hostOps0 (W0 m ρ c) (Proc.devRef .tc main_arg10) = _
  after_results

theorem W2_arg11 (c : Dev nD) : W2 m ρ c (Proc.devRef .tc main_arg11) = m ((c.tc : Thread nD τ).loc main_arg11) := by
  rw [W2_of_ne m ρ c main_arg11 (by decide)]
  show StableHlo.after hostOps0 (W0 m ρ c) (Proc.devRef .tc main_arg11) = _
  after_results

theorem W2_arg12 (c : Dev nD) : W2 m ρ c (Proc.devRef .tc main_arg12) = m ((c.tc : Thread nD τ).loc main_arg12) := by
  rw [W2_of_ne m ρ c main_arg12 (by decide)]
  show StableHlo.after hostOps0 (W0 m ρ c) (Proc.devRef .tc main_arg12) = _
  after_results

end Cert.KernelIdeal.Stretch0

end
-- ==== Proof.KernelStages.lean ====
/-
  MESSAGE PASSING AS THE KERNEL PROGRAM SPELLS IT: the source rows are narrowed to bf16 before they are gathered and
  widened again before they are summed. On the extended reals a change of float format is the identity, so this is
  `Cert.Stages.edgeSum`.
-/
import proofs.«403703_j45397804319006_2_alg».proof.Proof.Stages

noncomputable section

namespace Cert.Stages

open Idealize.ShloMosaic Idealize.ShloMosaic.ValueIdx Cert.LibIndexing Cert.Affine Cert.PairGather

variable {F : FTy → Type} [FloatOps F] (h : ShapeFacts)

/-- Gather the narrowed source rows, widen them, add them into the destination rows of a zero array. -/
def edgeSumK (x : FVec F SX .f32) (ei : IVec SEI 32) : FVec F SX .f32 :=
  Host.scatterAdd (rowScatterDims 64000 128 1048576 h.wfSE)
    (broadcastInDim SX ![] h.b0X (constant (F := F) S0 .f32 0x00000000#32))
    (broadcastInDim SEc ![0] h.bEc (edgeRow1 h ei))
    (extf .f32
      (Host.gather (rowGatherDims 64000 128 1048576 h.wfGE) (truncf .bf16 x (by decide))
        (broadcastInDim SEc ![0] h.bEc (wrapNeg h.b0E 64000#32 (edgeRow0 h ei))))
      (by decide))

/-- On the extended reals the narrowing and the widening are the identity. -/
theorem edgeSumK_ideal (x : FVec Ideal SX .f32) (ei : IVec SEI 32) : edgeSumK (F := Ideal) h x ei = edgeSum h x ei := rfl

end Cert.Stages

end
-- ==== Proof.KernelStretch1.lean ====
import proofs.«403703_j45397804319006_2_alg».proof.Proof.Gen.KernelIdeal.Frame
import proofs.«403703_j45397804319006_2_alg».proof.Proof.KernelStages
import Idealize.ShloMosaic.Lib.StableHlo.Run

set_option maxRecDepth 16384

noncomputable section

namespace Cert.KernelIdeal.Stretch1

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg) (h : Cert.Stages.ShapeFacts)

/-! ## The second host stretch, read back: what the second region finds, over the contents the first region left -/

set_option maxHeartbeats 16000000 in
/-- The second region's input: one round of message passing over the second argument. -/
theorem V3_x (c : Dev nD) :
    V3 m ρ c main_v26 = Cert.Stages.edgeSumK h (W2 m ρ c (Proc.devRef .tc main_arg1)) (W2 m ρ c (Proc.devRef .tc main_arg2)) := by
  show StableHlo.after hostOps1 (W2 m ρ c) (Proc.devRef .tc main_v26) = _
  after_results
  rfl

set_option maxHeartbeats 16000000 in
theorem V3_w (c : Dev nD) : V3 m ρ c main_arg7 = W2 m ρ c (Proc.devRef .tc main_arg7) := by
  show StableHlo.after hostOps1 (W2 m ρ c) (Proc.devRef .tc main_arg7) = _
  after_results
set_option maxHeartbeats 16000000 in
theorem V3_b (c : Dev nD) : V3 m ρ c main_arg8 = W2 m ρ c (Proc.devRef .tc main_arg8) := by
  show StableHlo.after hostOps1 (W2 m ρ c) (Proc.devRef .tc main_arg8) = _
  after_results

/-! ## What the second stretch and the second region leave alone -/

set_option maxHeartbeats 16000000 in
theorem W4_arg2 (c : Dev nD) : W4 m ρ c (Proc.devRef .tc main_arg2) = W2 m ρ c (Proc.devRef .tc main_arg2) := by
  rw [W4_of_ne m ρ c main_arg2 (by decide)]
  show StableHlo.after hostOps1 (W2 m ρ c) (Proc.devRef .tc main_arg2) = _
  after_results

set_option maxHeartbeats 16000000 in
theorem W4_arg5 (c : Dev nD) : W4 m ρ c (Proc.devRef .tc main_arg5) = W2 m ρ c (Proc.devRef .tc main_arg5) := by
  rw [W4_of_ne m ρ c main_arg5 (by decide)]
  show StableHlo.after hostOps1 (W2 m ρ c) (Proc.devRef .tc main_arg5) = _
  after_results

set_option maxHeartbeats 16000000 in
theorem W4_arg6 (c : Dev nD) : W4 m ρ c (Proc.devRef .tc main_arg6) = W2 m ρ c (Proc.devRef .tc main_arg6) := by
  rw [W4_of_ne m ρ c main_arg6 (by decide)]
  show StableHlo.after hostOps1 (W2 m ρ c) (Proc.devRef .tc main_arg6) = _
  after_results

set_option maxHeartbeats 16000000 in
theorem W4_arg9 (c : Dev nD) : W4 m ρ c (Proc.devRef .tc main_arg9) = W2 m ρ c (Proc.devRef .tc main_arg9) := by
  rw [W4_of_ne m ρ c main_arg9 (by decide)]
  show StableHlo.after hostOps1 (W2 m ρ c) (Proc.devRef .tc main_arg9) = _
  after_results

set_option maxHeartbeats 16000000 in
theorem W4_arg10 (c : Dev nD) : W4 m ρ c (Proc.devRef .tc main_arg10) = W2 m ρ c (Proc.devRef .tc main_arg10) := by
  rw [W4_of_ne m ρ c main_arg10 (by decide)]
  show StableHlo.after hostOps1 (W2 m ρ c) (Proc.devRef .tc main_arg10) = _
  after_results

set_option maxHeartbeats 16000000 in
theorem W4_arg11 (c : Dev nD) : W4 m ρ c (Proc.devRef .tc main_arg11) = W2 m ρ c (Proc.devRef .tc main_arg11) := by
  rw [W4_of_ne m ρ c main_arg11 (by decide)]
  show StableHlo.after hostOps1 (W2 m ρ c) (Proc.devRef .tc main_arg11) = _
  after_results

set_option maxHeartbeats 16000000 in
theorem W4_arg12 (c : Dev nD) : W4 m ρ c (Proc.devRef .tc main_arg12) = W2 m ρ c (Proc.devRef .tc main_arg12) := by
  rw [W4_of_ne m ρ c main_arg12 (by decide)]
  show StableHlo.after hostOps1 (W2 m ρ c) (Proc.devRef .tc main_arg12) = _
  after_results

set_option maxHeartbeats 16000000 in
/-- The first region's output is not written again. -/
theorem W4_keep0 (c : Dev nD) : W4 m ρ c (Proc.devRef .tc main_v10) = W2 m ρ c (Proc.devRef .tc main_v10) := by
  rw [W4_of_ne m ρ c main_v10 (by decide)]
  show StableHlo.after hostOps1 (W2 m ρ c) (Proc.devRef .tc main_v10) = _
  after_results

end Cert.KernelIdeal.Stretch1

end
-- ==== Proof.KernelStretch2.lean ====
import proofs.«403703_j45397804319006_2_alg».proof.Proof.Gen.KernelIdeal.Frame
import proofs.«403703_j45397804319006_2_alg».proof.Proof.KernelStages
import Idealize.ShloMosaic.Lib.StableHlo.Run

set_option maxRecDepth 16384

noncomputable section

namespace Cert.KernelIdeal.Stretch2

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg) (h : Cert.Stages.ShapeFacts)

/-! ## The third host stretch, read back: what the third region finds, over the contents the second region left -/

set_option maxHeartbeats 16000000 in
/-- The third region's input rows: the flat selection of rows of a second round of message passing over the second
    region's output. -/
theorem V5_x (c : Dev nD) :
    V5 m ρ c main_v58 = Cert.Stages.flatRows h (Cert.Stages.edgeSumK h (W4 m ρ c (Proc.devRef .tc main_v27)) (W4 m ρ c (Proc.devRef .tc main_arg2)))
      (W4 m ρ c (Proc.devRef .tc main_arg5)) (W4 m ρ c (Proc.devRef .tc main_arg6)) := by
  show StableHlo.after hostOps2 (W4 m ρ c) (Proc.devRef .tc main_v58) = _
  after_results
  rfl

set_option maxHeartbeats 16000000 in
/-- Its weight: the product of the two last weights. -/
theorem V5_w (c : Dev nD) : V5 m ρ c main_v44 = Cert.Stages.prodW h (W4 m ρ c (Proc.devRef .tc main_arg9)) (W4 m ρ c (Proc.devRef .tc main_arg11)) := by
  show StableHlo.after hostOps2 (W4 m ρ c) (Proc.devRef .tc main_v44) = _
  after_results
  rfl

set_option maxHeartbeats 16000000 in
/-- Its bias: the folded bias. -/
theorem V5_b (c : Dev nD) :
    V5 m ρ c main_v48 = Cert.Stages.prodB h (W4 m ρ c (Proc.devRef .tc main_arg10)) (W4 m ρ c (Proc.devRef .tc main_arg11)) (W4 m ρ c (Proc.devRef .tc main_arg12)) := by
  show StableHlo.after hostOps2 (W4 m ρ c) (Proc.devRef .tc main_v48) = _
  after_results
  rfl

set_option maxHeartbeats 16000000 in
/-- The first region's output is not written by the third stretch or the third region. -/
theorem W6_keep0 (c : Dev nD) : W6 m ρ c (Proc.devRef .tc main_v10) = W4 m ρ c (Proc.devRef .tc main_v10) := by
  rw [W6_of_ne m ρ c main_v10 (by decide)]
  show StableHlo.after hostOps2 (W4 m ρ c) (Proc.devRef .tc main_v10) = _
  after_results

end Cert.KernelIdeal.Stretch2

end
-- ==== Proof.KernelStretch3.lean ====
import proofs.«403703_j45397804319006_2_alg».proof.Proof.Gen.KernelIdeal.Frame
import proofs.«403703_j45397804319006_2_alg».proof.Proof.KernelStages
import Idealize.ShloMosaic.Lib.StableHlo.Run

set_option maxRecDepth 16384

noncomputable section

namespace Cert.KernelIdeal.Stretch3

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg) (h : Cert.Stages.ShapeFacts)

/-! ## The last host stretch: the two regions' outputs as the two slabs of the result -/

set_option maxHeartbeats 16000000 in
theorem W7_result (c : Dev nD) :
    W7 m ρ c (Proc.devRef .tc main_v62) = Cert.Stages.stack h (W6 m ρ c (Proc.devRef .tc main_v10)) (W6 m ρ c (Proc.devRef .tc main_v59)) := by
  show StableHlo.after hostOps3 (W6 m ρ c) (Proc.devRef .tc main_v62) = _
  after_results
  rfl

end Cert.KernelIdeal.Stretch3

end
-- ==== Proof.RegionValue0.lean ====
/-
  WHAT THE FIRST PROJECTION KERNEL LEAVES IN ITS OUTPUT ARRAY.

  The kernel runs over 8 grid points; point `t` loads rows `4000·t … 4000·t + 3999` of the input, the whole weight matrix
  and the whole bias, multiplies (the narrowing of the operands to bf16 is the identity on the extended reals; the
  accumulator starts at zero), adds the bias broadcast along the rows, and writes the 4000 × 128 block back to the same
  rows of the output. The 8 blocks tile the 32000 rows, so after the run the output array is `x · W + b` of the arrays
  the region found, entry by entry.
-/
import proofs.«403703_j45397804319006_2_alg».proof.Proof.Gen.KernelIdeal.Frame
import proofs.«403703_j45397804319006_2_alg».proof.Proof.Affine
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue0

open Cert.KernelIdeal Cert.KernelIdeal.Gen Cert.Affine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product's operand indices, axis by axis -/

/-- The left operand's row is the output's row. -/
private theorem lhs_k0_pay1_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contraction position. -/
private theorem lhs_k0_pay1_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contraction position. -/
private theorem rhs_k0_pay1_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
private theorem rhs_k0_pay1_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- THE 4000 × 128 BY 128 × 128 PRODUCT INTO A ZERO ACCUMULATOR, at entry (p, q): the sum over the 128 contraction
    positions of the left operand's row p times the right operand's column q. -/
private theorem product_apply {φ₁ φ₂ : FTy} (a : FVec Ideal S4000x128 φ₁) (b : FVec Ideal S128x128 φ₂) (p : Fin 4000) (q : Fin 128) :
    matmul (F := Ideal) dot_S4000x128_S128x128_S4000x128_1_0_0_1_n_n none a b (constant (F := Ideal) S4000x128 .f32 0x00000000#32) (ix2 p q)
      = ∑ k : Fin 128, a (ix2 p k) * b (ix2 k q) := by
  show FloatOps.matmul dot_S4000x128_S128x128_S4000x128_1_0_0_1_n_n none a b (constant S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_k0_pay1_0 _ _
    | ⟨1, _⟩ => exact (lhs_k0_pay1_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_k0_pay1_0 _ _).trans hk
    | ⟨1, _⟩ => exact rhs_k0_pay1_1 _ _)
  rw [el, er]

/-- THE BIAS ROW: the 128 biases viewed as one row and repeated down the 4000 rows read, at (p, q), bias q. -/
private theorem bias_apply {α : Type} (b : S128.Idx → α) (p : Fin 4000) (q : Fin 128) :
    broadcastTo S4000x128 (shapeCast S1x128 b shapeCasts_S128_S1x128) broadcasts_S1x128_S4000x128 (ix2 p q) = b (ix1 q) := by
  rw [broadcastTo_1b_ab_apply, shapeCast_a_1a_apply]

/-- THE PAYLOAD AT AN ENTRY: row p of the loaded block times column q of the weights, plus bias q. -/
private theorem k0_pay1_apply (x0 : Vec Ideal S4000x128 .f32) (x1 : Vec Ideal S128x128 .f32) (x2 : Vec Ideal S128 .f32) (p : Fin 4000) (q : Fin 128) :
    (k0_pay1 (F := Ideal) x0 x1 x2) (ix2 p q) = (∑ k : Fin 128, x0 (ix2 p k) * x1 (ix2 k q)) + x2 (ix1 q) := by
  unfold k0_pay1
  simp only [shapeCast_self]
  rw [addf_apply, product_apply, bias_apply]
  rfl

/-! ## The windows over the grid -/

/-- The zero offset of a whole rank-2 access. -/
private theorem hz2 : (![0, 0] : Fin 2 → Nat) = fun _ => 0 := funext fun a => by fin_cases a <;> rfl
/-- The zero offset of a whole rank-1 access. -/
private theorem hz1 : (![0] : Fin 1 → Nat) = fun _ => 0 := funext fun a => by fin_cases a <;> rfl

/-- The 8 points of the grid. -/
private theorem point_lt (t : Fin cfg0.N) : t.val < 8 := lt_of_lt_of_eq t.isLt N_0

/-- THE INDEX MAPS, decided over the 8 points: the input's and the output's block at point t is row block t (column
    block 0); the weights' and the bias's block is always block 0, the whole array. -/
private theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-! ## The three input blocks at a point, read off the arrays the region found -/

/-- The input's block at point t holds rows 4000·t … 4000·t + 3999 of the input array. -/
private theorem xblock_apply (c : Dev nD) (t : Fin cfg0.N) (p : Fin 4000) (k : Fin 128) (h : 4000 * t.val + p.val < 32000) :
    (iblk0 (F := Ideal) V c 0 t : Vec Ideal S4000x128 .f32) (ix2 p k)
      = (V c main_v9 : S32000x128.Idx → EReal) (ix2 ⟨4000 * t.val + p.val, h⟩ k) := by
  obtain ⟨e0, e1, -⟩ := index_facts0 t
  unfold iblk0
  rw [View.read_apply]
  show V c main_v9 _ = V c main_v9 _
  refine congrArg (V c main_v9) (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

/-- The weights' block at every point is the whole weight matrix. -/
private theorem wblock_apply (c : Dev nD) (t : Fin cfg0.N) (k q : Fin 128) :
    (iblk0 (F := Ideal) V c 1 t : Vec Ideal S128x128 .f32) (ix2 k q) = (V c main_arg13 : S128x128.Idx → EReal) (ix2 k q) := by
  obtain ⟨-, -, e0, e1, -⟩ := index_facts0 t
  unfold iblk0
  rw [View.read_apply]
  show V c main_arg13 _ = V c main_arg13 _
  refine congrArg (V c main_arg13) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias's block at every point is the whole bias. -/
private theorem bblock_apply (c : Dev nD) (t : Fin cfg0.N) (q : Fin 128) :
    (iblk0 (F := Ideal) V c 2 t : Vec Ideal S128 .f32) (ix1 q) = (V c main_arg14 : S128.Idx → EReal) (ix1 q) := by
  obtain ⟨-, -, -, -, e0, -⟩ := index_facts0 t
  unfold iblk0
  rw [View.read_apply]
  show V c main_arg14 _ = V c main_arg14 _
  refine congrArg (V c main_arg14) (funext fun a => Fin.ext ?_)
  match a with
  | ⟨0, _⟩ => show win0_2.index t (0 : Fin 1) * 128 + 1 * q.val = q.val; rw [e0]; omega

/-! ## What a point writes back -/

/-- Entry (p, q) of the output's block at point t is entry (4000·t + p, q) of the output array. -/
private theorem oblock_emb (t : Fin cfg0.N) (p : Fin 4000) (q : Fin 128) (h : 4000 * t.val + p.val < 32000) :
    (((cfg0.win 3).blk t).view.emb (ix2 p q) : S32000x128.Idx) = ix2 ⟨4000 * t.val + p.val, h⟩ q := by
  obtain ⟨-, -, -, -, -, e0, e1⟩ := index_facts0 t
  refine funext fun a => Fin.ext ?_
  match a with
  | ⟨0, _⟩ => show win0_3.index t (0 : Fin 2) * 4000 + 1 * p.val = 4000 * t.val + p.val; rw [e0]; omega
  | ⟨1, _⟩ => show win0_3.index t (1 : Fin 2) * 128 + 1 * q.val = q.val; rw [e1]; omega

/-- WHAT POINT t WRITES BACK is block t of the affine image of the three arrays the region found. -/
private theorem flushed0_3_eq (c : Dev nD) (t : Fin cfg0.N) :
    (dat0 (F := Ideal) V c).flushed 3 t
      = ((cfg0.win 3).blk t).view.read (Elt Ideal) (affine (R := 32000) (V c main_v9) (V c main_arg13) (V c main_arg14)) := by
  show (cfg0.win 3).cut (grid0.coords t) ((dat0 V c).after 3 t) = _
  rw [after0_3]
  unfold out0_3
  rw [View.canon_unit_zero hz2]
  simp only [View.ld_unit_zero (S := S4000x128) hz2, View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  have hr : 4000 * t.val + p.val < 32000 := by have := point_lt t; have := p.isLt; omega
  show k0_pay1 (F := Ideal) (iblk0 V c 0 t) (iblk0 V c 1 t) (iblk0 V c 2 t) (ix2 p q)
    = affine (R := 32000) (V c main_v9) (V c main_arg13) (V c main_arg14) (((cfg0.win 3).blk t).view.emb (ix2 p q))
  rw [oblock_emb t p q hr, affine_apply]
  refine (k0_pay1_apply (iblk0 V c 0 t) (iblk0 V c 1 t) (iblk0 V c 2 t) p q).trans ?_
  refine congrArg₂ (· + ·) (Finset.sum_congr rfl fun k _ => ?_) (bblock_apply V c t q)
  exact congrArg₂ (· * ·) (xblock_apply V c t p k hr) (wblock_apply V c t k q)

/-! ## The 8 blocks tile the 32000 rows -/

/-- An entry of the output array is in point t's block iff each coordinate is in the block's range on its axis. -/
private theorem mem_oblock (t : Fin cfg0.N) (i : S32000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v10).slice (win0_3.rect t)).set ↔ _
  rw [View.set_slice_whole, Rect.mem_set_unit]
  exact Iff.rfl

/-- Row r is in the block of point r / 4000, and every point writes back. -/
private theorem rows_covered (i : S32000x128.Idx) :
    ∃ t : Fin cfg0.N, (cfg0.win 3).flush t = true ∧ i ∈ ((cfg0.win 3).blk t).view.set := by
  have hi0 : (i 0).val < 32000 := (i 0).isLt
  have hi1 : (i 1).val < 128 := (i 1).isLt
  have hN : cfg0.N = 8 := N_0
  refine ⟨⟨(i 0).val / 4000, by rw [hN]; omega⟩, flush0_3 _, ?_⟩
  rw [mem_oblock]
  obtain ⟨-, -, -, -, -, e0, e1⟩ := index_facts0 ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 128 ≤ (i 1).val ∧ (i 1).val < win0_3.index _ (1 : Fin 2) * 128 + 128
    rw [e1]; omega

/-- THE OUTPUT ARRAY AFTER THE REGION: the affine image of the three arrays the region found. -/
theorem value (c : Dev nD) :
    (dat0 (F := Ideal) V c).arrAt 3 cfg0.N = affine (R := 32000) (V c main_v9) (V c main_arg13) (V c main_arg14) :=
  (dat0 (F := Ideal) V c).arrAt_eq_of_cover 3 (affine (R := 32000) (V c main_v9) (V c main_arg13) (V c main_arg14))
    (fun t _ => flushed0_3_eq V c t) rows_covered

end Cert.KernelIdeal.RegionValue0

end
-- ==== Proof.RegionValue1.lean ====
/-
  WHAT THE SECOND PROJECTION KERNEL LEAVES IN ITS OUTPUT ARRAY.

  The kernel runs over 16 grid points; point `t` loads rows `4000·t … 4000·t + 3999` of the input, the whole weight matrix
  and the whole bias, multiplies (the narrowing of the operands to bf16 is the identity on the extended reals; the
  accumulator starts at zero), adds the bias broadcast along the rows, and writes the 4000 × 128 block back to the same
  rows of the output. The 16 blocks tile the 64000 rows, so after the run the output array is `x · W + b` of the arrays
  the region found, entry by entry.
-/
import proofs.«403703_j45397804319006_2_alg».proof.Proof.Gen.KernelIdeal.Frame
import proofs.«403703_j45397804319006_2_alg».proof.Proof.Affine
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue1

open Cert.KernelIdeal Cert.KernelIdeal.Gen Cert.Affine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product's operand indices, axis by axis -/

/-- The left operand's row is the output's row. -/
private theorem lhs_k1_pay1_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contraction position. -/
private theorem lhs_k1_pay1_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contraction position. -/
private theorem rhs_k1_pay1_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
private theorem rhs_k1_pay1_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- THE 4000 × 128 BY 128 × 128 PRODUCT INTO A ZERO ACCUMULATOR, at entry (p, q): the sum over the 128 contraction
    positions of the left operand's row p times the right operand's column q. -/
private theorem product_apply {φ₁ φ₂ : FTy} (a : FVec Ideal S4000x128 φ₁) (b : FVec Ideal S128x128 φ₂) (p : Fin 4000) (q : Fin 128) :
    matmul (F := Ideal) dot_S4000x128_S128x128_S4000x128_1_0_0_1_n_n none a b (constant (F := Ideal) S4000x128 .f32 0x00000000#32) (ix2 p q)
      = ∑ k : Fin 128, a (ix2 p k) * b (ix2 k q) := by
  show FloatOps.matmul dot_S4000x128_S128x128_S4000x128_1_0_0_1_n_n none a b (constant S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_k1_pay1_0 _ _
    | ⟨1, _⟩ => exact (lhs_k1_pay1_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_k1_pay1_0 _ _).trans hk
    | ⟨1, _⟩ => exact rhs_k1_pay1_1 _ _)
  rw [el, er]

/-- THE BIAS ROW: the 128 biases viewed as one row and repeated down the 4000 rows read, at (p, q), bias q. -/
private theorem bias_apply {α : Type} (b : S128.Idx → α) (p : Fin 4000) (q : Fin 128) :
    broadcastTo S4000x128 (shapeCast S1x128 b shapeCasts_S128_S1x128) broadcasts_S1x128_S4000x128 (ix2 p q) = b (ix1 q) := by
  rw [broadcastTo_1b_ab_apply, shapeCast_a_1a_apply]

/-- THE PAYLOAD AT AN ENTRY: row p of the loaded block times column q of the weights, plus bias q. -/
private theorem k1_pay1_apply (x0 : Vec Ideal S4000x128 .f32) (x1 : Vec Ideal S128x128 .f32) (x2 : Vec Ideal S128 .f32) (p : Fin 4000) (q : Fin 128) :
    (k1_pay1 (F := Ideal) x0 x1 x2) (ix2 p q) = (∑ k : Fin 128, x0 (ix2 p k) * x1 (ix2 k q)) + x2 (ix1 q) := by
  unfold k1_pay1
  simp only [shapeCast_self]
  rw [addf_apply, product_apply, bias_apply]
  rfl

/-! ## The windows over the grid -/

/-- The zero offset of a whole rank-2 access. -/
private theorem hz2 : (![0, 0] : Fin 2 → Nat) = fun _ => 0 := funext fun a => by fin_cases a <;> rfl
/-- The zero offset of a whole rank-1 access. -/
private theorem hz1 : (![0] : Fin 1 → Nat) = fun _ => 0 := funext fun a => by fin_cases a <;> rfl

/-- The 16 points of the grid. -/
private theorem point_lt (t : Fin cfg1.N) : t.val < 16 := lt_of_lt_of_eq t.isLt N_1

/-- THE INDEX MAPS, decided over the 16 points: the input's and the output's block at point t is row block t (column
    block 0); the weights' and the bias's block is always block 0, the whole array. -/
private theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-! ## The three input blocks at a point, read off the arrays the region found -/

/-- The input's block at point t holds rows 4000·t … 4000·t + 3999 of the input array. -/
private theorem xblock_apply (c : Dev nD) (t : Fin cfg1.N) (p : Fin 4000) (k : Fin 128) (h : 4000 * t.val + p.val < 64000) :
    (iblk1 (F := Ideal) V c 0 t : Vec Ideal S4000x128 .f32) (ix2 p k)
      = (V c main_v26 : S64000x128.Idx → EReal) (ix2 ⟨4000 * t.val + p.val, h⟩ k) := by
  obtain ⟨e0, e1, -⟩ := index_facts1 t
  unfold iblk1
  rw [View.read_apply]
  show V c main_v26 _ = V c main_v26 _
  refine congrArg (V c main_v26) (funext fun a => Fin.ext ?_)
  match a with
  | ⟨0, _⟩ => show win1_0.index t (0 : Fin 2) * 4000 + 1 * p.val = 4000 * t.val + p.val; rw [e0]; omega
  | ⟨1, _⟩ => show win1_0.index t (1 : Fin 2) * 128 + 1 * k.val = k.val; rw [e1]; omega

/-- The weights' block at every point is the whole weight matrix. -/
private theorem wblock_apply (c : Dev nD) (t : Fin cfg1.N) (k q : Fin 128) :
    (iblk1 (F := Ideal) V c 1 t : Vec Ideal S128x128 .f32) (ix2 k q) = (V c main_arg7 : S128x128.Idx → EReal) (ix2 k q) := by
  obtain ⟨-, -, e0, e1, -⟩ := index_facts1 t
  unfold iblk1
  rw [View.read_apply]
  show V c main_arg7 _ = V c main_arg7 _
  refine congrArg (V c main_arg7) (funext fun a => Fin.ext ?_)
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The bias's block at every point is the whole bias. -/
private theorem bblock_apply (c : Dev nD) (t : Fin cfg1.N) (q : Fin 128) :
    (iblk1 (F := Ideal) V c 2 t : Vec Ideal S128 .f32) (ix1 q) = (V c main_arg8 : S128.Idx → EReal) (ix1 q) := by
  obtain ⟨-, -, -, -, e0, -⟩ := index_facts1 t
  unfold iblk1
  rw [View.read_apply]
  show V c main_arg8 _ = V c main_arg8 _
  refine congrArg (V c main_arg8) (funext fun a => Fin.ext ?_)
  match a with
  | ⟨0, _⟩ => show win1_2.index t (0 : Fin 1) * 128 + 1 * q.val = q.val; rw [e0]; omega

/-! ## What a point writes back -/

/-- Entry (p, q) of the output's block at point t is entry (4000·t + p, q) of the output array. -/
private theorem oblock_emb (t : Fin cfg1.N) (p : Fin 4000) (q : Fin 128) (h : 4000 * t.val + p.val < 64000) :
    (((cfg1.win 3).blk t).view.emb (ix2 p q) : S64000x128.Idx) = ix2 ⟨4000 * t.val + p.val, h⟩ q := by
  obtain ⟨-, -, -, -, -, e0, e1⟩ := index_facts1 t
  refine funext fun a => Fin.ext ?_
  match a with
  | ⟨0, _⟩ => show win1_3.index t (0 : Fin 2) * 4000 + 1 * p.val = 4000 * t.val + p.val; rw [e0]; omega
  | ⟨1, _⟩ => show win1_3.index t (1 : Fin 2) * 128 + 1 * q.val = q.val; rw [e1]; omega

/-- WHAT POINT t WRITES BACK is block t of the affine image of the three arrays the region found. -/
private theorem flushed1_3_eq (c : Dev nD) (t : Fin cfg1.N) :
    (dat1 (F := Ideal) V c).flushed 3 t
      = ((cfg1.win 3).blk t).view.read (Elt Ideal) (affine (R := 64000) (V c main_v26) (V c main_arg7) (V c main_arg8)) := by
  show (cfg1.win 3).cut (grid1.coords t) ((dat1 V c).after 3 t) = _
  rw [after1_3]
  unfold out1_3
  rw [View.canon_unit_zero hz2]
  simp only [View.ld_unit_zero (S := S4000x128) hz2, View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  have hr : 4000 * t.val + p.val < 64000 := by have := point_lt t; have := p.isLt; omega
  show k1_pay1 (F := Ideal) (iblk1 V c 0 t) (iblk1 V c 1 t) (iblk1 V c 2 t) (ix2 p q)
    = affine (R := 64000) (V c main_v26) (V c main_arg7) (V c main_arg8) (((cfg1.win 3).blk t).view.emb (ix2 p q))
  rw [oblock_emb t p q hr, affine_apply]
  refine (k1_pay1_apply (iblk1 V c 0 t) (iblk1 V c 1 t) (iblk1 V c 2 t) p q).trans ?_
  refine congrArg₂ (· + ·) (Finset.sum_congr rfl fun k _ => ?_) (bblock_apply V c t q)
  exact congrArg₂ (· * ·) (xblock_apply V c t p k hr) (wblock_apply V c t k q)

/-! ## The 16 blocks tile the 64000 rows -/

/-- An entry of the output array is in point t's block iff each coordinate is in the block's range on its axis. -/
private theorem mem_oblock (t : Fin cfg1.N) (i : S64000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v27).slice (win1_3.rect t)).set ↔ _
  rw [View.set_slice_whole, Rect.mem_set_unit]
  exact Iff.rfl

/-- Row r is in the block of point r / 4000, and every point writes back. -/
private theorem rows_covered (i : S64000x128.Idx) :
    ∃ t : Fin cfg1.N, (cfg1.win 3).flush t = true ∧ i ∈ ((cfg1.win 3).blk t).view.set := by
  have hi0 : (i 0).val < 64000 := (i 0).isLt
  have hi1 : (i 1).val < 128 := (i 1).isLt
  have hN : cfg1.N = 16 := N_1
  refine ⟨⟨(i 0).val / 4000, by rw [hN]; omega⟩, flush1_3 _, ?_⟩
  rw [mem_oblock]
  obtain ⟨-, -, -, -, -, e0, e1⟩ := index_facts1 ⟨(i 0).val / 4000, by rw [hN]; omega⟩
  intro a
  match a with
  | ⟨0, _⟩ =>
    show win1_3.index _ (0 : Fin 2) * 4000 ≤ (i 0).val ∧ (i 0).val < win1_3.index _ (0 : Fin 2) * 4000 + 4000
    rw [e0]; show (i 0).val / 4000 * 4000 ≤ (i 0).val ∧ (i 0).val < (i 0).val / 4000 * 4000 + 4000; omega
  | ⟨1, _⟩ =>
    show win1_3.index _ (1 : Fin 2) * 128 ≤ (i 1).val ∧ (i 1).val < win1_3.index _ (1 : Fin 2) * 128 + 128
    rw [e1]; omega

/-- THE OUTPUT ARRAY AFTER THE REGION: the affine image of the three arrays the region found. -/
theorem value (c : Dev nD) :
    (dat1 (F := Ideal) V c).arrAt 3 cfg1.N = affine (R := 64000) (V c main_v26) (V c main_arg7) (V c main_arg8) :=
  (dat1 (F := Ideal) V c).arrAt_eq_of_cover 3 (affine (R := 64000) (V c main_v26) (V c main_arg7) (V c main_arg8))
    (fun t _ => flushed1_3_eq V c t) rows_covered

end Cert.KernelIdeal.RegionValue1

end
-- ==== Proof.RegionValue2.lean ====
/-
  WHAT THE THIRD PROJECTION KERNEL LEAVES IN ITS OUTPUT ARRAY.

  The kernel runs over 8 grid points; point `t` loads rows `4000·t … 4000·t + 3999` of the input, the whole weight matrix
  and the whole bias, multiplies (the narrowing of the operands to bf16 is the identity on the extended reals; the
  accumulator starts at zero), adds the bias broadcast along the rows, and writes the 4000 × 128 block back to the same
  rows of the output. The 8 blocks tile the 32000 rows, so after the run the output array is `x · W + b` of the arrays
  the region found, entry by entry.
-/
import proofs.«403703_j45397804319006_2_alg».proof.Proof.Gen.KernelIdeal.Frame
import proofs.«403703_j45397804319006_2_alg».proof.Proof.Affine
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue2

open Cert.KernelIdeal Cert.KernelIdeal.Gen Cert.Affine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product's operand indices, axis by axis -/

/-- The left operand's row is the output's row. -/
private theorem lhs_k2_pay1_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contraction position. -/
private theorem lhs_k2_pay1_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contraction position. -/
private theorem rhs_k2_pay1_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
private theorem rhs_k2_pay1_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- THE 4000 × 128 BY 128 × 128 PRODUCT INTO A ZERO ACCUMULATOR, at entry (p, q): the sum over the 128 contraction
    positions of the left operand's row p times the right operand's column q. -/
private theorem product_apply {φ₁ φ₂ : FTy} (a : FVec Ideal S4000x128 φ₁) (b : FVec Ideal S128x128 φ₂) (p : Fin 4000) (q : Fin 128) :
    matmul (F := Ideal) dot_S4000x128_S128x128_S4000x128_1_0_0_1_n_n none a b (constant (F := Ideal) S4000x128 .f32 0x00000000#32) (ix2 p q)
      = ∑ k : Fin 128, a (ix2 p k) * b (ix2 k q) := by
  show FloatOps.matmul dot_S4000x128_S128x128_S4000x128_1_0_0_1_n_n none a b (constant S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_k2_pay1_0 _ _
    | ⟨1, _⟩ => exact (lhs_k2_pay1_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_k2_pay1_0 _ _).trans hk
    | ⟨1, _⟩ => exact rhs_k2_pay1_1 _ _)
  rw [el, er]

/-- THE BIAS ROW: the 128 biases viewed as one row and repeated down the 4000 rows read, at (p, q), bias q. -/
private theorem bias_apply {α : Type} (b : S128.Idx → α) (p : Fin 4000) (q : Fin 128) :
    broadcastTo S4000x128 (shapeCast S1x128 b shapeCasts_S128_S1x128) broadcasts_S1x128_S4000x128 (ix2 p q) = b (ix1 q) := by
  rw [broadcastTo_1b_ab_apply, shapeCast_a_1a_apply]

/-- THE PAYLOAD AT AN ENTRY: row p of the loaded block times column q of the weights, plus bias q. -/
private theorem k2_pay1_apply (x0 : Vec Ideal S4000x128 .f32) (x1 : Vec Ideal S128x128 .f32) (x2 : Vec Ideal S128 .f32) (p : Fin 4000) (q : Fin 128) :
    (k2_pay1 (F := Ideal) x0 x1 x2) (ix2 p q) = (∑ k : Fin 128, x0 (ix2 p k) * x1 (ix2 k q)) + x2 (ix1 q) := by
  unfold k2_pay1
  simp only [shapeCast_self]
  rw [addf_apply, product_apply, bias_apply]
  rfl

/-! ## The windows over the grid -/

/-- The zero offset of a whole rank-2 access. -/
private theorem hz2 : (![0, 0] : Fin 2 → Nat) = fun _ => 0 := funext fun a => by fin_cases a <;> rfl
/-- The zero offset of a whole rank-1 access. -/
private theorem hz1 : (![0] : Fin 1 → Nat) = fun _ => 0 := funext fun a => by fin_cases a <;> rfl

/-- The 8 points of the grid. -/
private theorem point_lt (t : Fin cfg2.N) : t.val < 8 := lt_of_lt_of_eq t.isLt N_2

/-- THE INDEX MAPS, decided over the 8 points: the input's and the output's block at point t is row block t (column
    block 0); the weights' and the bias's block is always block 0, the whole array. -/
private theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-! ## The three input blocks at a point, read off the arrays the region found -/

/-- The input's block at point t holds rows 4000·t … 4000·t + 3999 of the input array. -/
private theorem xblock_apply (c : Dev nD) (t : Fin cfg2.N) (p : Fin 4000) (k : Fin 128) (h : 4000 * t.val + p.val < 32000) :
    (iblk2 (F := Ideal) V c 0 t : Vec Ideal S4000x128 .f32) (ix2 p k)
      = (V c main_v58 : S32000x128.Idx → EReal) (ix2 ⟨4000 * t.val + p.val, h⟩ k) := by
  obtain ⟨e0, e1, -⟩ := index_facts2 t
  unfold iblk2
  rw [View.read_apply]
  show V c main_v58 _ = V c main_v58 _
  refine congrArg (V c main_v58) (funext fun a => Fin.ext ?_)
  match a with
  | ⟨0, _⟩ => show win2_0.index t (0 : Fin 2) * 4000 + 1 * p.val = 4000 * t.val + p.val; rw [e0]; omega
  | ⟨1, _⟩ => show win2_0.index t (1 : Fin 2) * 128 + 1 * k.val = k.val; rw [e1]; omega

/-- The weights' block at every point is the whole weight matrix. -/
private theorem wblock_apply (c : Dev nD) (t : Fin cfg2.N) (k q : Fin 128) :
    (iblk2 (F := Ideal) V c 1 t : Vec Ideal S128x128 .f32) (ix2 k q) = (V c main_v44 : S128x128.Idx → EReal) (ix2 k q) := by
  obtain ⟨-, -, e0, e1, -⟩ := index_facts2 t
  unfold iblk2
  rw [View.read_apply]
  show V c main_v44 _ = V c main_v44 _
  refine congrArg (V c main_v44) (funext fun a => Fin.ext ?_)
  match a with
  | ⟨0, _⟩ => show win2_1.index t (0 : Fin 2) * 128 + 1 * k.val = k.val; rw [e0]; omega
  | ⟨1, _⟩ => show win2_1.index t (1 : Fin 2) * 128 + 1 * q.val = q.val; rw [e1]; omega

/-- The bias's block at every point is the whole bias. -/
private theorem bblock_apply (c : Dev nD) (t : Fin cfg2.N) (q : Fin 128) :
    (iblk2 (F := Ideal) V c 2 t : Vec Ideal S128 .f32) (ix1 q) = (V c main_v48 : S128.Idx → EReal) (ix1 q) := by
  obtain ⟨-, -, -, -, e0, -⟩ := index_facts2 t
  unfold iblk2
  rw [View.read_apply]
  show V c main_v48 _ = V c main_v48 _
  refine congrArg (V c main_v48) (funext fun a => Fin.ext ?_)
  match a with
  | ⟨0, _⟩ => show win2_2.index t (0 : Fin 1) * 128 + 1 * q.val = q.val; rw [e0]; omega

/-! ## What a point writes back -/

/-- Entry (p, q) of the output's block at point t is entry (4000·t + p, q) of the output array. -/
private theorem oblock_emb (t : Fin cfg2.N) (p : Fin 4000) (q : Fin 128) (h : 4000 * t.val + p.val < 32000) :
    (((cfg2.win 3).blk t).view.emb (ix2 p q) : S32000x128.Idx) = ix2 ⟨4000 * t.val + p.val, h⟩ q := by
  obtain ⟨-, -, -, -, -, e0, e1⟩ := index_facts2 t
  refine funext fun a => Fin.ext ?_
  match a with
  | ⟨0, _⟩ => show win2_3.index t (0 : Fin 2) * 4000 + 1 * p.val = 4000 * t.val + p.val; rw [e0]; omega
  | ⟨1, _⟩ => show win2_3.index t (1 : Fin 2) * 128 + 1 * q.val = q.val; rw [e1]; omega

/-- WHAT POINT t WRITES BACK is block t of the affine image of the three arrays the region found. -/
private theorem flushed2_3_eq (c : Dev nD) (t : Fin cfg2.N) :
    (dat2 (F := Ideal) V c).flushed 3 t
      = ((cfg2.win 3).blk t).view.read (Elt Ideal) (affine (R := 32000) (V c main_v58) (V c main_v44) (V c main_v48)) := by
  show (cfg2.win 3).cut (grid2.coords t) ((dat2 V c).after 3 t) = _
  rw [after2_3]
  unfold out2_3
  rw [View.canon_unit_zero hz2]
  simp only [View.ld_unit_zero (S := S4000x128) hz2, View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  have hr : 4000 * t.val + p.val < 32000 := by have := point_lt t; have := p.isLt; omega
  show k2_pay1 (F := Ideal) (iblk2 V c 0 t) (iblk2 V c 1 t) (iblk2 V c 2 t) (ix2 p q)
    = affine (R := 32000) (V c main_v58) (V c main_v44) (V c main_v48) (((cfg2.win 3).blk t).view.emb (ix2 p q))
  rw [oblock_emb t p q hr, affine_apply]
  refine (k2_pay1_apply (iblk2 V c 0 t) (iblk2 V c 1 t) (iblk2 V c 2 t) p q).trans ?_
  refine congrArg₂ (· + ·) (Finset.sum_congr rfl fun k _ => ?_) (bblock_apply V c t q)
  exact congrArg₂ (· * ·) (xblock_apply V c t p k hr) (wblock_apply V c t k q)

/-! ## The 8 blocks tile the 32000 rows -/

/-- An entry of the output array is in point t's block iff each coordinate is in the block's range on its axis. -/
private theorem mem_oblock (t : Fin cfg2.N) (i : S32000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v59).slice (win2_3.rect t)).set ↔ _
  rw [View.set_slice_whole, Rect.mem_set_unit]
  exact Iff.rfl

/-- Row r is in the block of point r / 4000, and every point writes back. -/
private theorem rows_covered (i : S32000x128.Idx) :
    ∃ t : Fin cfg2.N, (cfg2.win 3).flush t = true ∧ i ∈ ((cfg2.win 3).blk t).view.set := by
  have hi0 : (i 0).val < 32000 := (i 0).isLt
  have hi1 : (i 1).val < 128 := (i 1).isLt
  have hN : cfg2.N = 8 := N_2
  refine ⟨⟨(i 0).val / 4000, by rw [hN]; omega⟩, flush2_3 _, ?_⟩
  rw [mem_oblock]
  obtain ⟨-, -, -, -, -, e0, e1⟩ := index_facts2 ⟨(i 0).val / 4000, by rw [hN]; omega⟩
  intro a
  match a with
  | ⟨0, _⟩ =>
    show win2_3.index _ (0 : Fin 2) * 4000 ≤ (i 0).val ∧ (i 0).val < win2_3.index _ (0 : Fin 2) * 4000 + 4000
    rw [e0]; show (i 0).val / 4000 * 4000 ≤ (i 0).val ∧ (i 0).val < (i 0).val / 4000 * 4000 + 4000; omega
  | ⟨1, _⟩ =>
    show win2_3.index _ (1 : Fin 2) * 128 ≤ (i 1).val ∧ (i 1).val < win2_3.index _ (1 : Fin 2) * 128 + 128
    rw [e1]; omega

/-- THE OUTPUT ARRAY AFTER THE REGION: the affine image of the three arrays the region found. -/
theorem value (c : Dev nD) :
    (dat2 (F := Ideal) V c).arrAt 3 cfg2.N = affine (R := 32000) (V c main_v58) (V c main_v44) (V c main_v48) :=
  (dat2 (F := Ideal) V c).arrAt_eq_of_cover 3 (affine (R := 32000) (V c main_v58) (V c main_v44) (V c main_v48))
    (fun t _ => flushed2_3_eq V c t) rows_covered

end Cert.KernelIdeal.RegionValue2

end
-- ==== Proof.KernelValue.lean ====
/-
  THE KERNEL PROGRAM'S RESULT AS ONE FUNCTION OF ITS ARGUMENTS, on the extended reals.

  The last boundary's contents at the returned array are walked back through the program: the last host stretch stacks the
  first and the third regions' outputs; each region's output is the affine image of what it found (its own value lemma);
  what a region finds is what the host stretch before it computed from the contents the previous region left; and the
  arguments are never written. On the extended reals the bf16 round trip around the gathered messages is the identity.
-/
import proofs.«403703_j45397804319006_2_alg».proof.Proof.KernelStretch0
import proofs.«403703_j45397804319006_2_alg».proof.Proof.KernelStretch1
import proofs.«403703_j45397804319006_2_alg».proof.Proof.KernelStretch2
import proofs.«403703_j45397804319006_2_alg».proof.Proof.KernelStretch3
import proofs.«403703_j45397804319006_2_alg».proof.Proof.RegionValue0
import proofs.«403703_j45397804319006_2_alg».proof.Proof.RegionValue1
import proofs.«403703_j45397804319006_2_alg».proof.Proof.RegionValue2
import Idealize.ShloMosaic.PureOps.Ideal

set_option maxRecDepth 16384

noncomputable section

namespace Cert.KernelIdeal.KernelValue

open Cert.KernelIdeal Cert.KernelIdeal.Gen Cert.Affine
open Idealize.ShloMosaic Idealize.ShloMosaic.TcCoe Idealize.SL.Sem Idealize.ShloMosaic.StableHlo

variable (m : (ℓ : Loc nD τ sig) → Buf (Elt Ideal) ℓ) (ρ : Dev nD → PrngReg) (h : Cert.Stages.ShapeFacts)

/-- The first region's output at the last boundary: the affine image of the flat selection of rows of the first argument. -/
theorem first_output (c : Dev nD) :
    W6 m ρ c (Proc.devRef .tc main_v10)
      = affine (R := 32000) (Cert.Stages.flatRows h (m ((c.tc : Thread nD τ).loc main_arg0)) (m ((c.tc : Thread nD τ).loc main_arg3)) (m ((c.tc : Thread nD τ).loc main_arg4))) (m ((c.tc : Thread nD τ).loc main_arg13)) (m ((c.tc : Thread nD τ).loc main_arg14)) := by
  rw [Stretch2.W6_keep0 m ρ c, Stretch1.W4_keep0 m ρ c]
  refine (W2_arr m ρ c 3).trans ?_
  rw [RegionValue0.value (V1 m ρ) c, Stretch0.V1_x m ρ h c, Stretch0.V1_w m ρ c, Stretch0.V1_b m ρ c]

/-- The second region's output, as the third host stretch finds it: the affine image of one round of message passing. -/
theorem second_output (c : Dev nD) :
    W4 m ρ c (Proc.devRef .tc main_v27)
      = affine (R := 64000) (Cert.Stages.edgeSum (F := Ideal) h (m ((c.tc : Thread nD τ).loc main_arg1)) (m ((c.tc : Thread nD τ).loc main_arg2))) (m ((c.tc : Thread nD τ).loc main_arg7)) (m ((c.tc : Thread nD τ).loc main_arg8)) := by
  refine (W4_arr m ρ c 3).trans ?_
  rw [RegionValue1.value (V3 m ρ) c, Stretch1.V3_x m ρ h c, Stretch1.V3_w m ρ c, Stretch1.V3_b m ρ c,
    Stretch0.W2_arg1 m ρ c, Stretch0.W2_arg2 m ρ c, Stretch0.W2_arg7 m ρ c, Stretch0.W2_arg8 m ρ c, Cert.Stages.edgeSumK_ideal]

/-- The third region's output at the last boundary. -/
theorem third_output (c : Dev nD) :
    W6 m ρ c (Proc.devRef .tc main_v59)
      = affine (R := 32000)
          (Cert.Stages.flatRows h
            (Cert.Stages.edgeSum (F := Ideal) h
              (affine (R := 64000) (Cert.Stages.edgeSum (F := Ideal) h (m ((c.tc : Thread nD τ).loc main_arg1)) (m ((c.tc : Thread nD τ).loc main_arg2))) (m ((c.tc : Thread nD τ).loc main_arg7)) (m ((c.tc : Thread nD τ).loc main_arg8)))
              (m ((c.tc : Thread nD τ).loc main_arg2)))
            (m ((c.tc : Thread nD τ).loc main_arg5)) (m ((c.tc : Thread nD τ).loc main_arg6)))
          (Cert.Stages.prodW (F := Ideal) h (m ((c.tc : Thread nD τ).loc main_arg9)) (m ((c.tc : Thread nD τ).loc main_arg11)))
          (Cert.Stages.prodB (F := Ideal) h (m ((c.tc : Thread nD τ).loc main_arg10)) (m ((c.tc : Thread nD τ).loc main_arg11)) (m ((c.tc : Thread nD τ).loc main_arg12))) := by
  refine (W6_arr m ρ c 3).trans ?_
  rw [RegionValue2.value (V5 m ρ) c, Stretch2.V5_x m ρ h c, Stretch2.V5_w m ρ h c, Stretch2.V5_b m ρ h c,
    second_output m ρ h c,
    Stretch1.W4_arg2 m ρ c, Stretch1.W4_arg5 m ρ c, Stretch1.W4_arg6 m ρ c, Stretch1.W4_arg9 m ρ c, Stretch1.W4_arg10 m ρ c,
    Stretch1.W4_arg11 m ρ c, Stretch1.W4_arg12 m ρ c,
    Stretch0.W2_arg2 m ρ c, Stretch0.W2_arg5 m ρ c, Stretch0.W2_arg6 m ρ c, Stretch0.W2_arg9 m ρ c, Stretch0.W2_arg10 m ρ c,
    Stretch0.W2_arg11 m ρ c, Stretch0.W2_arg12 m ρ c, Cert.Stages.edgeSumK_ideal]

/-- THE RESULT ARRAY at the last boundary is the kernel program's function of the fifteen arguments. -/
theorem result_eq (c : Dev nD) :
    W7 m ρ c (Proc.devRef .tc main_v62)
      = Cert.Stages.kernelVal h (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14)) := by
  rw [Stretch3.W7_result m ρ h c, first_output m ρ h c, third_output m ρ h c]
  rfl

end Cert.KernelIdeal.KernelValue

end
-- ==== Proof.RefChunks.lean ====
/-
  THE REFERENCE'S 91 OPERATIONS IN FOUR STRETCHES, cut where a stage's output is complete: the first selection of rows and
  its projection; the first round of message passing and its projection; the second round and its projection; the second
  selection, the last projection and the stacking. Each stretch is read back over the contents the one before left, held
  as one opaque valuation, so that no step ever handles more than one stage.
-/
import proofs.«403703_j45397804319006_2_alg».proof.Proof.RefRun
import proofs.«403703_j45397804319006_2_alg».proof.Proof.Stages

set_option maxRecDepth 16384

noncomputable section

namespace Cert.ReferenceIdeal.Chunks

open Cert.ReferenceIdeal Cert.ReferenceIdeal.Gen Cert.ReferenceIdeal.RawRun
open Idealize.ShloMosaic Idealize.ShloMosaic.TcCoe Idealize.SL.Sem Idealize.ShloMosaic.StableHlo

variable {F : FTy → Type} [FloatOps F]

/-- Operations 1–23: the pair selection of rows of the first argument and its projection. -/
abbrev opsA : List (HloOp τ sig (Elt F)) :=
  [ reshape main_arg0 main_v0 rfl shapeCasts_S64000x128_S64x1000x128,
    nullary main_c (constantI S_ 32 0#32),
    unary main_c main_v1 (broadcastInDim S32000 ![] bcast_S_S32000 : (⟨S_, .i32⟩ : BufTy).Contents (Elt F) → (⟨S32000, .i32⟩ : BufTy).Contents (Elt F)),
    binary main_arg3 main_v1 main_v2 (cmpi .slt : (⟨S32000, .i32⟩ : BufTy).Contents (Elt F) → (⟨S32000, .i32⟩ : BufTy).Contents (Elt F) → (⟨S32000, .i1⟩ : BufTy).Contents (Elt F)),
    nullary main_c_0 (constantI S_ 32 64#32),
    unary main_c_0 main_v3 (broadcastInDim S32000 ![] bcast_S_S32000 : (⟨S_, .i32⟩ : BufTy).Contents (Elt F) → (⟨S32000, .i32⟩ : BufTy).Contents (Elt F)),
    binary main_arg3 main_v3 main_v4 (addi : (⟨S32000, .i32⟩ : BufTy).Contents (Elt F) → (⟨S32000, .i32⟩ : BufTy).Contents (Elt F) → (⟨S32000, .i32⟩ : BufTy).Contents (Elt F)),
    ternary main_v2 main_v4 main_arg3 main_v5 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    nullary main_c_1 (constantI S_ 32 0#32),
    unary main_c_1 main_v6 (broadcastInDim S32000 ![] bcast_S_S32000 : (⟨S_, .i32⟩ : BufTy).Contents (Elt F) → (⟨S32000, .i32⟩ : BufTy).Contents (Elt F)),
    binary main_arg4 main_v6 main_v7 (cmpi .slt : (⟨S32000, .i32⟩ : BufTy).Contents (Elt F) → (⟨S32000, .i32⟩ : BufTy).Contents (Elt F) → (⟨S32000, .i1⟩ : BufTy).Contents (Elt F)),
    nullary main_c_2 (constantI S_ 32 1000#32),
    unary main_c_2 main_v8 (broadcastInDim S32000 ![] bcast_S_S32000 : (⟨S_, .i32⟩ : BufTy).Contents (Elt F) → (⟨S32000, .i32⟩ : BufTy).Contents (Elt F)),
    binary main_arg4 main_v8 main_v9 (addi : (⟨S32000, .i32⟩ : BufTy).Contents (Elt F) → (⟨S32000, .i32⟩ : BufTy).Contents (Elt F) → (⟨S32000, .i32⟩ : BufTy).Contents (Elt F)),
    ternary main_v7 main_v9 main_arg4 main_v10 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    unary main_v5 main_v11 (broadcastInDim S32000x1 ![0] bcast_S32000_S32000x1_0 : (⟨S32000, .i32⟩ : BufTy).Contents (Elt F) → (⟨S32000x1, .i32⟩ : BufTy).Contents (Elt F)),
    unary main_v10 main_v12 (broadcastInDim S32000x1 ![0] bcast_S32000_S32000x1_0 : (⟨S32000, .i32⟩ : BufTy).Contents (Elt F) → (⟨S32000x1, .i32⟩ : BufTy).Contents (Elt F)),
    binary main_v11 main_v12 main_v13 ((fun a b => concatenate S32000x2 1 [⟨S32000x1, a⟩, ⟨S32000x1, b⟩] concatenates_S32000x1_S32000x1_S32000x2_d1) : (⟨S32000x1, .i32⟩ : BufTy).Contents (Elt F) → (⟨S32000x1, .i32⟩ : BufTy).Contents (Elt F) → (⟨S32000x2, .i32⟩ : BufTy).Contents (Elt F)),
    binary main_v0 main_v13 main_v14 ((fun x i => Host.gather gather_S64x1000x128_S32000x2_S32000x128_1_01_n_n_01_1_11128 x i) : (⟨S64x1000x128, .f32⟩ : BufTy).Contents (Elt F) → (⟨S32000x2, .i32⟩ : BufTy).Contents (Elt F) → (⟨S32000x128, .f32⟩ : BufTy).Contents (Elt F)),
    binary main_v14 main_arg13 main_v15 ((fun l r => Host.dotGeneral dot_S32000x128_S128x128_S32000x128_1_0_0_1_n_n none l r) : (⟨S32000x128, .f32⟩ : BufTy).Contents (Elt F) → (⟨S128x128, .f32⟩ : BufTy).Contents (Elt F) → (⟨S32000x128, .f32⟩ : BufTy).Contents (Elt F)),
    unary main_arg14 main_v16 (broadcastInDim S1x128 ![1] bcast_S128_S1x128_1 : (⟨S128, .f32⟩ : BufTy).Contents (Elt F) → (⟨S1x128, .f32⟩ : BufTy).Contents (Elt F)),
    unary main_v16 main_v17 (broadcastInDim S32000x128 ![0, 1] bcast_S1x128_S32000x128_0_1 : (⟨S1x128, .f32⟩ : BufTy).Contents (Elt F) → (⟨S32000x128, .f32⟩ : BufTy).Contents (Elt F)),
    binary main_v15 main_v17 main_v18 (addf : (⟨S32000x128, .f32⟩ : BufTy).Contents (Elt F) → (⟨S32000x128, .f32⟩ : BufTy).Contents (Elt F) → (⟨S32000x128, .f32⟩ : BufTy).Contents (Elt F)) ]

/-- Operations 24–44: the first round of message passing and its projection. -/
abbrev opsB : List (HloOp τ sig (Elt F)) :=
  [ unary main_arg2 main_v19 ((extractStridedSlice S1x1048576 ![0, 0] · slices_S2x1048576_S1x1048576_0_0) : (⟨S2x1048576, .i32⟩ : BufTy).Contents (Elt F) → (⟨S1x1048576, .i32⟩ : BufTy).Contents (Elt F)),
    reshape main_v19 main_v20 rfl shapeCasts_S1x1048576_S1048576,
    nullary main_c_3 (constantI S_ 32 0#32),
    unary main_c_3 main_v21 (broadcastInDim S1048576 ![] bcast_S_S1048576 : (⟨S_, .i32⟩ : BufTy).Contents (Elt F) → (⟨S1048576, .i32⟩ : BufTy).Contents (Elt F)),
    binary main_v20 main_v21 main_v22 (cmpi .slt : (⟨S1048576, .i32⟩ : BufTy).Contents (Elt F) → (⟨S1048576, .i32⟩ : BufTy).Contents (Elt F) → (⟨S1048576, .i1⟩ : BufTy).Contents (Elt F)),
    nullary main_c_4 (constantI S_ 32 64000#32),
    unary main_c_4 main_v23 (broadcastInDim S1048576 ![] bcast_S_S1048576 : (⟨S_, .i32⟩ : BufTy).Contents (Elt F) → (⟨S1048576, .i32⟩ : BufTy).Contents (Elt F)),
    binary main_v20 main_v23 main_v24 (addi : (⟨S1048576, .i32⟩ : BufTy).Contents (Elt F) → (⟨S1048576, .i32⟩ : BufTy).Contents (Elt F) → (⟨S1048576, .i32⟩ : BufTy).Contents (Elt F)),
    ternary main_v22 main_v24 main_v20 main_v25 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v25 main_v26 (broadcastInDim S1048576x1 ![0] bcast_S1048576_S1048576x1_0 : (⟨S1048576, .i32⟩ : BufTy).Contents (Elt F) → (⟨S1048576x1, .i32⟩ : BufTy).Contents (Elt F)),
    binary main_arg1 main_v26 main_v27 ((fun x i => Host.gather gather_S64000x128_S1048576x1_S1048576x128_1_0_n_n_0_1_1128 x i) : (⟨S64000x128, .f32⟩ : BufTy).Contents (Elt F) → (⟨S1048576x1, .i32⟩ : BufTy).Contents (Elt F) → (⟨S1048576x128, .f32⟩ : BufTy).Contents (Elt F)),
    unary main_arg2 main_v28 ((extractStridedSlice S1x1048576 ![1, 0] · slices_S2x1048576_S1x1048576_1_0) : (⟨S2x1048576, .i32⟩ : BufTy).Contents (Elt F) → (⟨S1x1048576, .i32⟩ : BufTy).Contents (Elt F)),
    reshape main_v28 main_v29 rfl shapeCasts_S1x1048576_S1048576,
    nullary main_cst (constant S_ .f32 0x00000000#32),
    unary main_cst main_v30 (broadcastInDim S64000x128 ![] bcast_S_S64000x128 : (⟨S_, .f32⟩ : BufTy).Contents (Elt F) → (⟨S64000x128, .f32⟩ : BufTy).Contents (Elt F)),
    unary main_v29 main_v31 (broadcastInDim S1048576x1 ![0] bcast_S1048576_S1048576x1_0 : (⟨S1048576, .i32⟩ : BufTy).Contents (Elt F) → (⟨S1048576x1, .i32⟩ : BufTy).Contents (Elt F)),
    ternary main_v30 main_v31 main_v27 main_v32 ((fun x i u => Host.scatterAdd scatter_S64000x128_S1048576x1_S1048576x128_1_0_0_1 x i u) : (⟨S64000x128, .f32⟩ : BufTy).Contents (Elt F) → (⟨S1048576x1, .i32⟩ : BufTy).Contents (Elt F) → (⟨S1048576x128, .f32⟩ : BufTy).Contents (Elt F) → (⟨S64000x128, .f32⟩ : BufTy).Contents (Elt F)),
    binary main_v32 main_arg7 main_v33 ((fun l r => Host.dotGeneral dot_S64000x128_S128x128_S64000x128_1_0_0_1_n_n none l r) : (⟨S64000x128, .f32⟩ : BufTy).Contents (Elt F) → (⟨S128x128, .f32⟩ : BufTy).Contents (Elt F) → (⟨S64000x128, .f32⟩ : BufTy).Contents (Elt F)),
    unary main_arg8 main_v34 (broadcastInDim S1x128 ![1] bcast_S128_S1x128_1 : (⟨S128, .f32⟩ : BufTy).Contents (Elt F) → (⟨S1x128, .f32⟩ : BufTy).Contents (Elt F)),
    unary main_v34 main_v35 (broadcastInDim S64000x128 ![0, 1] bcast_S1x128_S64000x128_0_1 : (⟨S1x128, .f32⟩ : BufTy).Contents (Elt F) → (⟨S64000x128, .f32⟩ : BufTy).Contents (Elt F)),
    binary main_v33 main_v35 main_v36 (addf : (⟨S64000x128, .f32⟩ : BufTy).Contents (Elt F) → (⟨S64000x128, .f32⟩ : BufTy).Contents (Elt F) → (⟨S64000x128, .f32⟩ : BufTy).Contents (Elt F)) ]

/-- Operations 45–65: the second round of message passing and its projection. -/
abbrev opsC : List (HloOp τ sig (Elt F)) :=
  [ unary main_arg2 main_v37 ((extractStridedSlice S1x1048576 ![0, 0] · slices_S2x1048576_S1x1048576_0_0) : (⟨S2x1048576, .i32⟩ : BufTy).Contents (Elt F) → (⟨S1x1048576, .i32⟩ : BufTy).Contents (Elt F)),
    reshape main_v37 main_v38 rfl shapeCasts_S1x1048576_S1048576,
    nullary main_c_5 (constantI S_ 32 0#32),
    unary main_c_5 main_v39 (broadcastInDim S1048576 ![] bcast_S_S1048576 : (⟨S_, .i32⟩ : BufTy).Contents (Elt F) → (⟨S1048576, .i32⟩ : BufTy).Contents (Elt F)),
    binary main_v38 main_v39 main_v40 (cmpi .slt : (⟨S1048576, .i32⟩ : BufTy).Contents (Elt F) → (⟨S1048576, .i32⟩ : BufTy).Contents (Elt F) → (⟨S1048576, .i1⟩ : BufTy).Contents (Elt F)),
    nullary main_c_6 (constantI S_ 32 64000#32),
    unary main_c_6 main_v41 (broadcastInDim S1048576 ![] bcast_S_S1048576 : (⟨S_, .i32⟩ : BufTy).Contents (Elt F) → (⟨S1048576, .i32⟩ : BufTy).Contents (Elt F)),
    binary main_v38 main_v41 main_v42 (addi : (⟨S1048576, .i32⟩ : BufTy).Contents (Elt F) → (⟨S1048576, .i32⟩ : BufTy).Contents (Elt F) → (⟨S1048576, .i32⟩ : BufTy).Contents (Elt F)),
    ternary main_v40 main_v42 main_v38 main_v43 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v43 main_v44 (broadcastInDim S1048576x1 ![0] bcast_S1048576_S1048576x1_0 : (⟨S1048576, .i32⟩ : BufTy).Contents (Elt F) → (⟨S1048576x1, .i32⟩ : BufTy).Contents (Elt F)),
    binary main_v36 main_v44 main_v45 ((fun x i => Host.gather gather_S64000x128_S1048576x1_S1048576x128_1_0_n_n_0_1_1128 x i) : (⟨S64000x128, .f32⟩ : BufTy).Contents (Elt F) → (⟨S1048576x1, .i32⟩ : BufTy).Contents (Elt F) → (⟨S1048576x128, .f32⟩ : BufTy).Contents (Elt F)),
    unary main_arg2 main_v46 ((extractStridedSlice S1x1048576 ![1, 0] · slices_S2x1048576_S1x1048576_1_0) : (⟨S2x1048576, .i32⟩ : BufTy).Contents (Elt F) → (⟨S1x1048576, .i32⟩ : BufTy).Contents (Elt F)),
    reshape main_v46 main_v47 rfl shapeCasts_S1x1048576_S1048576,
    nullary main_cst_7 (constant S_ .f32 0x00000000#32),
    unary main_cst_7 main_v48 (broadcastInDim S64000x128 ![] bcast_S_S64000x128 : (⟨S_, .f32⟩ : BufTy).Contents (Elt F) → (⟨S64000x128, .f32⟩ : BufTy).Contents (Elt F)),
    unary main_v47 main_v49 (broadcastInDim S1048576x1 ![0] bcast_S1048576_S1048576x1_0 : (⟨S1048576, .i32⟩ : BufTy).Contents (Elt F) → (⟨S1048576x1, .i32⟩ : BufTy).Contents (Elt F)),
    ternary main_v48 main_v49 main_v45 main_v50 ((fun x i u => Host.scatterAdd scatter_S64000x128_S1048576x1_S1048576x128_1_0_0_1 x i u) : (⟨S64000x128, .f32⟩ : BufTy).Contents (Elt F) → (⟨S1048576x1, .i32⟩ : BufTy).Contents (Elt F) → (⟨S1048576x128, .f32⟩ : BufTy).Contents (Elt F) → (⟨S64000x128, .f32⟩ : BufTy).Contents (Elt F)),
    binary main_v50 main_arg9 main_v51 ((fun l r => Host.dotGeneral dot_S64000x128_S128x128_S64000x128_1_0_0_1_n_n none l r) : (⟨S64000x128, .f32⟩ : BufTy).Contents (Elt F) → (⟨S128x128, .f32⟩ : BufTy).Contents (Elt F) → (⟨S64000x128, .f32⟩ : BufTy).Contents (Elt F)),
    unary main_arg10 main_v52 (broadcastInDim S1x128 ![1] bcast_S128_S1x128_1 : (⟨S128, .f32⟩ : BufTy).Contents (Elt F) → (⟨S1x128, .f32⟩ : BufTy).Contents (Elt F)),
    unary main_v52 main_v53 (broadcastInDim S64000x128 ![0, 1] bcast_S1x128_S64000x128_0_1 : (⟨S1x128, .f32⟩ : BufTy).Contents (Elt F) → (⟨S64000x128, .f32⟩ : BufTy).Contents (Elt F)),
    binary main_v51 main_v53 main_v54 (addf : (⟨S64000x128, .f32⟩ : BufTy).Contents (Elt F) → (⟨S64000x128, .f32⟩ : BufTy).Contents (Elt F) → (⟨S64000x128, .f32⟩ : BufTy).Contents (Elt F)) ]

/-- Operations 66–91: the pair selection of rows of the second round's output, the last projection, the stacking. -/
abbrev opsD : List (HloOp τ sig (Elt F)) :=
  [ reshape main_v54 main_v55 rfl shapeCasts_S64000x128_S64x1000x128,
    nullary main_c_8 (constantI S_ 32 0#32),
    unary main_c_8 main_v56 (broadcastInDim S32000 ![] bcast_S_S32000 : (⟨S_, .i32⟩ : BufTy).Contents (Elt F) → (⟨S32000, .i32⟩ : BufTy).Contents (Elt F)),
    binary main_arg5 main_v56 main_v57 (cmpi .slt : (⟨S32000, .i32⟩ : BufTy).Contents (Elt F) → (⟨S32000, .i32⟩ : BufTy).Contents (Elt F) → (⟨S32000, .i1⟩ : BufTy).Contents (Elt F)),
    nullary main_c_9 (constantI S_ 32 64#32),
    unary main_c_9 main_v58 (broadcastInDim S32000 ![] bcast_S_S32000 : (⟨S_, .i32⟩ : BufTy).Contents (Elt F) → (⟨S32000, .i32⟩ : BufTy).Contents (Elt F)),
    binary main_arg5 main_v58 main_v59 (addi : (⟨S32000, .i32⟩ : BufTy).Contents (Elt F) → (⟨S32000, .i32⟩ : BufTy).Contents (Elt F) → (⟨S32000, .i32⟩ : BufTy).Contents (Elt F)),
    ternary main_v57 main_v59 main_arg5 main_v60 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    nullary main_c_10 (constantI S_ 32 0#32),
    unary main_c_10 main_v61 (broadcastInDim S32000 ![] bcast_S_S32000 : (⟨S_, .i32⟩ : BufTy).Contents (Elt F) → (⟨S32000, .i32⟩ : BufTy).Contents (Elt F)),
    binary main_arg6 main_v61 main_v62 (cmpi .slt : (⟨S32000, .i32⟩ : BufTy).Contents (Elt F) → (⟨S32000, .i32⟩ : BufTy).Contents (Elt F) → (⟨S32000, .i1⟩ : BufTy).Contents (Elt F)),
    nullary main_c_11 (constantI S_ 32 1000#32),
    unary main_c_11 main_v63 (broadcastInDim S32000 ![] bcast_S_S32000 : (⟨S_, .i32⟩ : BufTy).Contents (Elt F) → (⟨S32000, .i32⟩ : BufTy).Contents (Elt F)),
    binary main_arg6 main_v63 main_v64 (addi : (⟨S32000, .i32⟩ : BufTy).Contents (Elt F) → (⟨S32000, .i32⟩ : BufTy).Contents (Elt F) → (⟨S32000, .i32⟩ : BufTy).Contents (Elt F)),
    ternary main_v62 main_v64 main_arg6 main_v65 (select : (⟨S32000, .i1⟩ : BufTy).Contents (Elt F) → (⟨S32000, .i32⟩ : BufTy).Contents (Elt F) → (⟨S32000, .i32⟩ : BufTy).Contents (Elt F) → (⟨S32000, .i32⟩ : BufTy).Contents (Elt F)),
    unary main_v60 main_v66 (broadcastInDim S32000x1 ![0] bcast_S32000_S32000x1_0 : (⟨S32000, .i32⟩ : BufTy).Contents (Elt F) → (⟨S32000x1, .i32⟩ : BufTy).Contents (Elt F)),
    unary main_v65 main_v67 (broadcastInDim S32000x1 ![0] bcast_S32000_S32000x1_0 : (⟨S32000, .i32⟩ : BufTy).Contents (Elt F) → (⟨S32000x1, .i32⟩ : BufTy).Contents (Elt F)),
    binary main_v66 main_v67 main_v68 ((fun a b => concatenate S32000x2 1 [⟨S32000x1, a⟩, ⟨S32000x1, b⟩] concatenates_S32000x1_S32000x1_S32000x2_d1) : (⟨S32000x1, .i32⟩ : BufTy).Contents (Elt F) → (⟨S32000x1, .i32⟩ : BufTy).Contents (Elt F) → (⟨S32000x2, .i32⟩ : BufTy).Contents (Elt F)),
    binary main_v55 main_v68 main_v69 ((fun x i => Host.gather gather_S64x1000x128_S32000x2_S32000x128_1_01_n_n_01_1_11128 x i) : (⟨S64x1000x128, .f32⟩ : BufTy).Contents (Elt F) → (⟨S32000x2, .i32⟩ : BufTy).Contents (Elt F) → (⟨S32000x128, .f32⟩ : BufTy).Contents (Elt F)),
    binary main_v69 main_arg11 main_v70 ((fun l r => Host.dotGeneral dot_S32000x128_S128x128_S32000x128_1_0_0_1_n_n none l r) : (⟨S32000x128, .f32⟩ : BufTy).Contents (Elt F) → (⟨S128x128, .f32⟩ : BufTy).Contents (Elt F) → (⟨S32000x128, .f32⟩ : BufTy).Contents (Elt F)),
    unary main_arg12 main_v71 (broadcastInDim S1x128 ![1] bcast_S128_S1x128_1 : (⟨S128, .f32⟩ : BufTy).Contents (Elt F) → (⟨S1x128, .f32⟩ : BufTy).Contents (Elt F)),
    unary main_v71 main_v72 (broadcastInDim S32000x128 ![0, 1] bcast_S1x128_S32000x128_0_1 : (⟨S1x128, .f32⟩ : BufTy).Contents (Elt F) → (⟨S32000x128, .f32⟩ : BufTy).Contents (Elt F)),
    binary main_v70 main_v72 main_v73 (addf : (⟨S32000x128, .f32⟩ : BufTy).Contents (Elt F) → (⟨S32000x128, .f32⟩ : BufTy).Contents (Elt F) → (⟨S32000x128, .f32⟩ : BufTy).Contents (Elt F)),
    unary main_v18 main_v74 (broadcastInDim S1x32000x128 ![1, 2] bcast_S32000x128_S1x32000x128_1_2 : (⟨S32000x128, .f32⟩ : BufTy).Contents (Elt F) → (⟨S1x32000x128, .f32⟩ : BufTy).Contents (Elt F)),
    unary main_v73 main_v75 (broadcastInDim S1x32000x128 ![1, 2] bcast_S32000x128_S1x32000x128_1_2 : (⟨S32000x128, .f32⟩ : BufTy).Contents (Elt F) → (⟨S1x32000x128, .f32⟩ : BufTy).Contents (Elt F)),
    binary main_v74 main_v75 main_v76 ((fun a b => concatenate S2x32000x128 0 [⟨S1x32000x128, a⟩, ⟨S1x32000x128, b⟩] concatenates_S1x32000x128_S1x32000x128_S2x32000x128_d0) : (⟨S1x32000x128, .f32⟩ : BufTy).Contents (Elt F) → (⟨S1x32000x128, .f32⟩ : BufTy).Contents (Elt F) → (⟨S2x32000x128, .f32⟩ : BufTy).Contents (Elt F)) ]

set_option maxRecDepth 65536 in
set_option maxHeartbeats 4000000 in
/-- The four stretches in a row are the program's operations. -/
theorem ops_split : (ops : List (HloOp τ sig (Elt F))) = opsA ++ (opsB ++ (opsC ++ opsD)) := rfl

variable (m : (ℓ : Loc nD τ sig) → Buf (Elt F) ℓ) (h : Cert.Stages.ShapeFacts)

/-- The buffers after the first, the second and the third stretch. -/
def VA (c : Dev nD) : Valuation τ sig (Elt F) := StableHlo.after opsA (launchContents m c)
def VB (c : Dev nD) : Valuation τ sig (Elt F) := StableHlo.after opsB (VA m c)
def VC (c : Dev nD) : Valuation τ sig (Elt F) := StableHlo.after opsC (VB m c)

theorem after_ops (c : Dev nD) : StableHlo.after (ops (F := F)) (launchContents m c) = StableHlo.after opsD (VC m c) := by
  rw [ops_split, StableHlo.after_append, StableHlo.after_append, StableHlo.after_append]
  rfl

/-! ## The first stretch -/

set_option maxHeartbeats 16000000 in
theorem VA_out (c : Dev nD) :
    VA m c (Proc.devRef .tc main_v18)
      = Cert.Stages.hostAffineM h (Cert.Stages.pairRows h (m ((c.tc : Thread nD τ).loc main_arg0)) (m ((c.tc : Thread nD τ).loc main_arg3)) (m ((c.tc : Thread nD τ).loc main_arg4))) (m ((c.tc : Thread nD τ).loc main_arg13)) (m ((c.tc : Thread nD τ).loc main_arg14)) := by
  show StableHlo.after opsA (launchContents m c) (Proc.devRef .tc main_v18) = _
  after_results
  rfl

set_option maxHeartbeats 16000000 in
theorem VA_arg1 (c : Dev nD) : VA m c (Proc.devRef .tc main_arg1) = m ((c.tc : Thread nD τ).loc main_arg1) := by
  show StableHlo.after opsA _ (Proc.devRef .tc main_arg1) = _
  after_results

set_option maxHeartbeats 16000000 in
theorem VA_arg2 (c : Dev nD) : VA m c (Proc.devRef .tc main_arg2) = m ((c.tc : Thread nD τ).loc main_arg2) := by
  show StableHlo.after opsA _ (Proc.devRef .tc main_arg2) = _
  after_results

set_option maxHeartbeats 16000000 in
theorem VA_arg5 (c : Dev nD) : VA m c (Proc.devRef .tc main_arg5) = m ((c.tc : Thread nD τ).loc main_arg5) := by
  show StableHlo.after opsA _ (Proc.devRef .tc main_arg5) = _
  after_results

set_option maxHeartbeats 16000000 in
theorem VA_arg6 (c : Dev nD) : VA m c (Proc.devRef .tc main_arg6) = m ((c.tc : Thread nD τ).loc main_arg6) := by
  show StableHlo.after opsA _ (Proc.devRef .tc main_arg6) = _
  after_results

set_option maxHeartbeats 16000000 in
theorem VA_arg7 (c : Dev nD) : VA m c (Proc.devRef .tc main_arg7) = m ((c.tc : Thread nD τ).loc main_arg7) := by
  show StableHlo.after opsA _ (Proc.devRef .tc main_arg7) = _
  after_results

set_option maxHeartbeats 16000000 in
theorem VA_arg8 (c : Dev nD) : VA m c (Proc.devRef .tc main_arg8) = m ((c.tc : Thread nD τ).loc main_arg8) := by
  show StableHlo.after opsA _ (Proc.devRef .tc main_arg8) = _
  after_results

set_option maxHeartbeats 16000000 in
theorem VA_arg9 (c : Dev nD) : VA m c (Proc.devRef .tc main_arg9) = m ((c.tc : Thread nD τ).loc main_arg9) := by
  show StableHlo.after opsA _ (Proc.devRef .tc main_arg9) = _
  after_results

set_option maxHeartbeats 16000000 in
theorem VA_arg10 (c : Dev nD) : VA m c (Proc.devRef .tc main_arg10) = m ((c.tc : Thread nD τ).loc main_arg10) := by
  show StableHlo.after opsA _ (Proc.devRef .tc main_arg10) = _
  after_results

set_option maxHeartbeats 16000000 in
theorem VA_arg11 (c : Dev nD) : VA m c (Proc.devRef .tc main_arg11) = m ((c.tc : Thread nD τ).loc main_arg11) := by
  show StableHlo.after opsA _ (Proc.devRef .tc main_arg11) = _
  after_results

set_option maxHeartbeats 16000000 in
theorem VA_arg12 (c : Dev nD) : VA m c (Proc.devRef .tc main_arg12) = m ((c.tc : Thread nD τ).loc main_arg12) := by
  show StableHlo.after opsA _ (Proc.devRef .tc main_arg12) = _
  after_results

/-! ## The second stretch -/

set_option maxHeartbeats 16000000 in
theorem VB_out (c : Dev nD) :
    VB m c (Proc.devRef .tc main_v36)
      = Cert.Stages.hostAffineX h (Cert.Stages.edgeSum h (VA m c (Proc.devRef .tc main_arg1)) (VA m c (Proc.devRef .tc main_arg2))) (VA m c (Proc.devRef .tc main_arg7)) (VA m c (Proc.devRef .tc main_arg8)) := by
  show StableHlo.after opsB (VA m c) (Proc.devRef .tc main_v36) = _
  after_results
  rfl

set_option maxHeartbeats 16000000 in
theorem VB_v18 (c : Dev nD) : VB m c (Proc.devRef .tc main_v18) = VA m c (Proc.devRef .tc main_v18) := by
  show StableHlo.after opsB _ (Proc.devRef .tc main_v18) = _
  after_results

set_option maxHeartbeats 16000000 in
theorem VB_arg2 (c : Dev nD) : VB m c (Proc.devRef .tc main_arg2) = VA m c (Proc.devRef .tc main_arg2) := by
  show StableHlo.after opsB _ (Proc.devRef .tc main_arg2) = _
  after_results

set_option maxHeartbeats 16000000 in
theorem VB_arg5 (c : Dev nD) : VB m c (Proc.devRef .tc main_arg5) = VA m c (Proc.devRef .tc main_arg5) := by
  show StableHlo.after opsB _ (Proc.devRef .tc main_arg5) = _
  after_results

set_option maxHeartbeats 16000000 in
theorem VB_arg6 (c : Dev nD) : VB m c (Proc.devRef .tc main_arg6) = VA m c (Proc.devRef .tc main_arg6) := by
  show StableHlo.after opsB _ (Proc.devRef .tc main_arg6) = _
  after_results

set_option maxHeartbeats 16000000 in
theorem VB_arg9 (c : Dev nD) : VB m c (Proc.devRef .tc main_arg9) = VA m c (Proc.devRef .tc main_arg9) := by
  show StableHlo.after opsB _ (Proc.devRef .tc main_arg9) = _
  after_results

set_option maxHeartbeats 16000000 in
theorem VB_arg10 (c : Dev nD) : VB m c (Proc.devRef .tc main_arg10) = VA m c (Proc.devRef .tc main_arg10) := by
  show StableHlo.after opsB _ (Proc.devRef .tc main_arg10) = _
  after_results

set_option maxHeartbeats 16000000 in
theorem VB_arg11 (c : Dev nD) : VB m c (Proc.devRef .tc main_arg11) = VA m c (Proc.devRef .tc main_arg11) := by
  show StableHlo.after opsB _ (Proc.devRef .tc main_arg11) = _
  after_results

set_option maxHeartbeats 16000000 in
theorem VB_arg12 (c : Dev nD) : VB m c (Proc.devRef .tc main_arg12) = VA m c (Proc.devRef .tc main_arg12) := by
  show StableHlo.after opsB _ (Proc.devRef .tc main_arg12) = _
  after_results

/-! ## The third stretch -/

set_option maxHeartbeats 16000000 in
theorem VC_out (c : Dev nD) :
    VC m c (Proc.devRef .tc main_v54)
      = Cert.Stages.hostAffineX h (Cert.Stages.edgeSum h (VB m c (Proc.devRef .tc main_v36)) (VB m c (Proc.devRef .tc main_arg2))) (VB m c (Proc.devRef .tc main_arg9)) (VB m c (Proc.devRef .tc main_arg10)) := by
  show StableHlo.after opsC (VB m c) (Proc.devRef .tc main_v54) = _
  after_results
  rfl

set_option maxHeartbeats 16000000 in
theorem VC_v18 (c : Dev nD) : VC m c (Proc.devRef .tc main_v18) = VB m c (Proc.devRef .tc main_v18) := by
  show StableHlo.after opsC _ (Proc.devRef .tc main_v18) = _
  after_results

set_option maxHeartbeats 16000000 in
theorem VC_arg5 (c : Dev nD) : VC m c (Proc.devRef .tc main_arg5) = VB m c (Proc.devRef .tc main_arg5) := by
  show StableHlo.after opsC _ (Proc.devRef .tc main_arg5) = _
  after_results

set_option maxHeartbeats 16000000 in
theorem VC_arg6 (c : Dev nD) : VC m c (Proc.devRef .tc main_arg6) = VB m c (Proc.devRef .tc main_arg6) := by
  show StableHlo.after opsC _ (Proc.devRef .tc main_arg6) = _
  after_results

set_option maxHeartbeats 16000000 in
theorem VC_arg11 (c : Dev nD) : VC m c (Proc.devRef .tc main_arg11) = VB m c (Proc.devRef .tc main_arg11) := by
  show StableHlo.after opsC _ (Proc.devRef .tc main_arg11) = _
  after_results

set_option maxHeartbeats 16000000 in
theorem VC_arg12 (c : Dev nD) : VC m c (Proc.devRef .tc main_arg12) = VB m c (Proc.devRef .tc main_arg12) := by
  show StableHlo.after opsC _ (Proc.devRef .tc main_arg12) = _
  after_results

/-! ## The last stretch -/

set_option maxHeartbeats 16000000 in
theorem VD_out (c : Dev nD) :
    StableHlo.after opsD (VC m c) (Proc.devRef .tc main_v76)
      = Cert.Stages.stack h (VC m c (Proc.devRef .tc main_v18))
          (Cert.Stages.hostAffineM h (Cert.Stages.pairRows h (VC m c (Proc.devRef .tc main_v54)) (VC m c (Proc.devRef .tc main_arg5)) (VC m c (Proc.devRef .tc main_arg6))) (VC m c (Proc.devRef .tc main_arg11)) (VC m c (Proc.devRef .tc main_arg12))) := by
  after_results
  rfl

end Cert.ReferenceIdeal.Chunks

end
-- ==== Proof.RefValue.lean ====
/-
  THE REFERENCE PROGRAM'S RESULT AS ONE FUNCTION OF ITS ARGUMENTS.

  The fold of the 91 host operations over the launch memory, read at the returned array stretch by stretch, is the composition of the stages:
  two rounds of message passing each followed by its projection, the pair selection of rows before the first and after
  the last projection, and the two results stacked. No operation writes an argument. Both facts hold whatever the float
  family: they only follow the operations' data flow.
-/
import proofs.«403703_j45397804319006_2_alg».proof.Proof.RefRun
import proofs.«403703_j45397804319006_2_alg».proof.Proof.RefChunks
import proofs.«403703_j45397804319006_2_alg».proof.Proof.Stages

noncomputable section

namespace Cert.ReferenceIdeal.RefValue

open Cert.ReferenceIdeal Cert.ReferenceIdeal.Gen Cert.ReferenceIdeal.RawRun
open Idealize.ShloMosaic Idealize.ShloMosaic.TcCoe Idealize.SL.Sem Idealize.ShloMosaic.StableHlo

variable {F : FTy → Type} [FloatOps F] (m : (ℓ : Loc nD τ sig) → Buf (Elt F) ℓ)

set_option maxRecDepth 16384 in
set_option maxHeartbeats 40000000 in
/-- THE RESULT ARRAY after the 91 operations is the reference's function of the fifteen arguments. -/
theorem result_eq (h : Cert.Stages.ShapeFacts) (c : Dev nD) :
    after (ops (F := F)) (launchContents m c) (Proc.devRef .tc main_v76)
      = Cert.Stages.refVal (F := F) h (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14)) := by
  rw [Chunks.after_ops m c, Chunks.VD_out m h c,
    Chunks.VC_v18 m c, Chunks.VC_out m h c, Chunks.VC_arg5 m c, Chunks.VC_arg6 m c, Chunks.VC_arg11 m c, Chunks.VC_arg12 m c,
    Chunks.VB_v18 m c, Chunks.VB_out m h c, Chunks.VB_arg2 m c, Chunks.VB_arg5 m c, Chunks.VB_arg6 m c, Chunks.VB_arg9 m c, Chunks.VB_arg10 m c, Chunks.VB_arg11 m c, Chunks.VB_arg12 m c,
    Chunks.VA_out m h c, Chunks.VA_arg1 m c, Chunks.VA_arg2 m c, Chunks.VA_arg5 m c, Chunks.VA_arg6 m c, Chunks.VA_arg7 m c, Chunks.VA_arg8 m c, Chunks.VA_arg9 m c, Chunks.VA_arg10 m c, Chunks.VA_arg11 m c, Chunks.VA_arg12 m c]
  rfl

/-! ## No operation writes an argument -/

set_option maxRecDepth 16384 in
set_option maxHeartbeats 4000000 in
theorem kept_arg0 (c : Dev nD) :
    after (ops (F := F)) (launchContents m c) (Proc.devRef .tc main_arg0) = m ((c.tc : Thread nD τ).loc main_arg0) :=
  StableHlo.after_of_forall_not_mem (b := Proc.devRef .tc main_arg0) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg1 (c : Dev nD) :
    after (ops (F := F)) (launchContents m c) (Proc.devRef .tc main_arg1) = m ((c.tc : Thread nD τ).loc main_arg1) :=
  StableHlo.after_of_forall_not_mem (b := Proc.devRef .tc main_arg1) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg2 (c : Dev nD) :
    after (ops (F := F)) (launchContents m c) (Proc.devRef .tc main_arg2) = m ((c.tc : Thread nD τ).loc main_arg2) :=
  StableHlo.after_of_forall_not_mem (b := Proc.devRef .tc main_arg2) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg3 (c : Dev nD) :
    after (ops (F := F)) (launchContents m c) (Proc.devRef .tc main_arg3) = m ((c.tc : Thread nD τ).loc main_arg3) :=
  StableHlo.after_of_forall_not_mem (b := Proc.devRef .tc main_arg3) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg4 (c : Dev nD) :
    after (ops (F := F)) (launchContents m c) (Proc.devRef .tc main_arg4) = m ((c.tc : Thread nD τ).loc main_arg4) :=
  StableHlo.after_of_forall_not_mem (b := Proc.devRef .tc main_arg4) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg5 (c : Dev nD) :
    after (ops (F := F)) (launchContents m c) (Proc.devRef .tc main_arg5) = m ((c.tc : Thread nD τ).loc main_arg5) :=
  StableHlo.after_of_forall_not_mem (b := Proc.devRef .tc main_arg5) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg6 (c : Dev nD) :
    after (ops (F := F)) (launchContents m c) (Proc.devRef .tc main_arg6) = m ((c.tc : Thread nD τ).loc main_arg6) :=
  StableHlo.after_of_forall_not_mem (b := Proc.devRef .tc main_arg6) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg7 (c : Dev nD) :
    after (ops (F := F)) (launchContents m c) (Proc.devRef .tc main_arg7) = m ((c.tc : Thread nD τ).loc main_arg7) :=
  StableHlo.after_of_forall_not_mem (b := Proc.devRef .tc main_arg7) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg8 (c : Dev nD) :
    after (ops (F := F)) (launchContents m c) (Proc.devRef .tc main_arg8) = m ((c.tc : Thread nD τ).loc main_arg8) :=
  StableHlo.after_of_forall_not_mem (b := Proc.devRef .tc main_arg8) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg9 (c : Dev nD) :
    after (ops (F := F)) (launchContents m c) (Proc.devRef .tc main_arg9) = m ((c.tc : Thread nD τ).loc main_arg9) :=
  StableHlo.after_of_forall_not_mem (b := Proc.devRef .tc main_arg9) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg10 (c : Dev nD) :
    after (ops (F := F)) (launchContents m c) (Proc.devRef .tc main_arg10) = m ((c.tc : Thread nD τ).loc main_arg10) :=
  StableHlo.after_of_forall_not_mem (b := Proc.devRef .tc main_arg10) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg11 (c : Dev nD) :
    after (ops (F := F)) (launchContents m c) (Proc.devRef .tc main_arg11) = m ((c.tc : Thread nD τ).loc main_arg11) :=
  StableHlo.after_of_forall_not_mem (b := Proc.devRef .tc main_arg11) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg12 (c : Dev nD) :
    after (ops (F := F)) (launchContents m c) (Proc.devRef .tc main_arg12) = m ((c.tc : Thread nD τ).loc main_arg12) :=
  StableHlo.after_of_forall_not_mem (b := Proc.devRef .tc main_arg12) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg13 (c : Dev nD) :
    after (ops (F := F)) (launchContents m c) (Proc.devRef .tc main_arg13) = m ((c.tc : Thread nD τ).loc main_arg13) :=
  StableHlo.after_of_forall_not_mem (b := Proc.devRef .tc main_arg13) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxRecDepth 16384 in
set_option maxHeartbeats 4000000 in
theorem kept_arg14 (c : Dev nD) :
    after (ops (F := F)) (launchContents m c) (Proc.devRef .tc main_arg14) = m ((c.tc : Thread nD τ).loc main_arg14) :=
  StableHlo.after_of_forall_not_mem (b := Proc.devRef .tc main_arg14) _ _ (List.forall_iff_forall_mem.mp (by
    simp only [ops, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

end Cert.ReferenceIdeal.RefValue

end
-- ==== Proof.PreDecode.lean ====
/-
  WHAT THE PRECONDITION SAYS, array by array.

  The stated precondition is one bit: the conjunction, over the ten float arguments, of "every entry's absolute value is
  below +∞", and, over the four index arguments that address the `[64, 1000]` grid of rows, of "every entry is at least 0
  and below its axis' extent". Read back: each float argument holds only real numbers, the two group indices lie in
  `[0, 64)` and the two row indices in `[0, 1000)`, as signed 32-bit integers.
-/
import proofs.«403703_j45397804319006_2_alg».proof.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.PreDecode

open Idealize.ShloMosaic Idealize.ShloMosaic.ValueIdx Cert.Pre_finite_inputs

/-! ## One entry read back

The two per-entry facts the conjuncts are made of: a float whose absolute value compares below `+∞` is a real number,
and a signed word that compares at least `0` and below `k` has its signed value in `[0, k)`. -/

/-- The rank-0 shape has exactly one index. -/
private instance subsingleton_scalar_idx : Subsingleton S_.Idx := ⟨fun _ _ => funext fun d => d.elim0⟩

/-- The f32 pattern `0x7F800000` (sign 0, exponent all ones, fraction 0) denotes `+∞`. -/
private theorem inf_literal : Ideal.ofBits .f32 0x7F800000#32 = ⊤ := by simp [Ideal.ofBits, Ideal.ieee]

/-- On the extended reals `|x| = max x (-x)`, and `|x| < ⊤` excludes both infinities: `|⊥| = |⊤| = ⊤`. -/
private theorem real_of_abs_lt_top (x : EReal) (h : max x (-x) < ⊤) : ∃ r : ℝ, x = (r : EReal) := by
  induction x using EReal.rec with
  | bot => simp at h
  | coe r => exact ⟨r, rfl⟩
  | top => simp at h

/-- The bit `|x| < +∞` being 1 says `x` is real: were `|x| < ⊤` false, the comparison's bit would be 0. -/
private theorem real_of_bit (x : Ideal .f32)
    (h : FloatOps.cmpf .olt (FloatOps.hostAbsf x) (Ideal.ofBits .f32 0x7F800000#32) = 1#1) :
    ∃ r : ℝ, x = (r : EReal) := by
  rw [inf_literal] at h
  apply real_of_abs_lt_top
  by_contra hn
  have hz : FloatOps.cmpf .olt (FloatOps.hostAbsf x) (⊤ : Ideal .f32) = 0#1 := by
    show Ideal.cmp .olt (max x (-x)) ⊤ = 0#1
    simp [Ideal.cmp, hn]
  rw [hz] at h
  exact absurd h (by decide)

/-- The bit `0 ≤ x ∧ x < k` (signed) being 1 says the signed value of `x` is in `[0, k)`. -/
private theorem range_of_bits (x k : BitVec 32)
    (h : IntOp.andi (IntOp.cmpi .sge x 0#32) (IntOp.cmpi .slt x k) = 1#1) :
    0 ≤ x.toInt ∧ x.toInt < k.toInt := by
  obtain ⟨h1, h2⟩ := IntOp.andi_eq_one.1 h
  have hge := IntOp.cmpi_sge.1 h1
  have hlt := IntOp.cmpi_slt.1 h2
  exact ⟨by simpa using hge, hlt⟩

/-! ## One conjunct read back

A conjunct is an `and`-reduction over every axis, from 1, of the array of per-entry bits; it is 1 only if every entry's
bit is 1. The shape is a parameter: the argument uses no extent. -/

/-- "All `|a| < +∞`" is 1: every entry of `a` is real. -/
private theorem all_real {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
          (cmpf .olt (Host.absf a) (broadcastInDim s ![] hb (constant S_ .f32 0x7F800000#32)))
          (constantI S_ 1 1#1) hr h0 ix0 = 1#1)
    (i : s.Idx) : ∃ r : ℝ, a i = (r : EReal) := by
  have hi := Host.reduce_andi_all _ _ hr h0 ix0 e i
  rw [cmpf_apply, StableHlo.Predicate.bcast_scalar hb h0] at hi
  exact real_of_bit (a i) hi

/-- "All `0 ≤ a ∧ a < k`" is 1: every entry's signed value is in `[0, k)`. -/
private theorem all_in_range {n : Nat} {axes : List (Fin (⟨1, ![n]⟩ : Shape).rank)} (a : IVec ⟨1, ![n]⟩ 32) (k : BitVec 32)
    (hb : S_.BroadcastsInDim ⟨1, ![n]⟩ (![] : Fin 0 → Fin (⟨1, ![n]⟩ : Shape).rank))
    (hr : (⟨1, ![n]⟩ : Shape).ReducesTo axes S_) (h0 : 0 < S_.numel)
    (e : Host.reduce IntOp.andi
          (andi (cmpi .sge a (broadcastInDim ⟨1, ![n]⟩ ![] hb (constantI S_ 32 0#32)))
                (cmpi .slt a (broadcastInDim ⟨1, ![n]⟩ ![] hb (constantI S_ 32 k))))
          (constantI S_ 1 1#1) hr h0 ix0 = 1#1)
    (j : Fin n) : 0 ≤ (a (ix1 j)).toInt ∧ (a (ix1 j)).toInt < k.toInt := by
  have hi := Host.reduce_andi_all _ _ hr h0 ix0 e (ix1 j)
  have hi' : IntOp.andi (IntOp.cmpi .sge (a (ix1 j)) (broadcastInDim ⟨1, ![n]⟩ ![] hb (constantI S_ 32 0#32) (ix1 j)))
      (IntOp.cmpi .slt (a (ix1 j)) (broadcastInDim ⟨1, ![n]⟩ ![] hb (constantI S_ 32 k) (ix1 j))) = 1#1 := hi
  rw [StableHlo.Predicate.bcast_scalar hb h0, StableHlo.Predicate.bcast_scalar hb h0] at hi'
  exact range_of_bits (a (ix1 j)) k hi'

/-- The precondition read back. -/
structure Decoded (a0 a1 : FVec Ideal S64000x128 .f32) (a3 a4 a5 a6 : IVec S32000 32)
    (a7 : FVec Ideal S128x128 .f32) (a8 : FVec Ideal S128 .f32) (a9 : FVec Ideal S128x128 .f32) (a10 : FVec Ideal S128 .f32)
    (a11 : FVec Ideal S128x128 .f32) (a12 : FVec Ideal S128 .f32) (a13 : FVec Ideal S128x128 .f32) (a14 : FVec Ideal S128 .f32) :
    Prop where
  real0 : ∀ i, ∃ r : ℝ, a0 i = (r : EReal)
  real1 : ∀ i, ∃ r : ℝ, a1 i = (r : EReal)
  real7 : ∀ i, ∃ r : ℝ, a7 i = (r : EReal)
  real8 : ∀ i, ∃ r : ℝ, a8 i = (r : EReal)
  real9 : ∀ i, ∃ r : ℝ, a9 i = (r : EReal)
  real10 : ∀ i, ∃ r : ℝ, a10 i = (r : EReal)
  real11 : ∀ i, ∃ r : ℝ, a11 i = (r : EReal)
  real12 : ∀ i, ∃ r : ℝ, a12 i = (r : EReal)
  real13 : ∀ i, ∃ r : ℝ, a13 i = (r : EReal)
  real14 : ∀ i, ∃ r : ℝ, a14 i = (r : EReal)
  group0 : ∀ e : Fin 32000, 0 ≤ (a3 (ix1 e)).toInt ∧ (a3 (ix1 e)).toInt < 64
  row0 : ∀ e : Fin 32000, 0 ≤ (a4 (ix1 e)).toInt ∧ (a4 (ix1 e)).toInt < 1000
  group1 : ∀ e : Fin 32000, 0 ≤ (a5 (ix1 e)).toInt ∧ (a5 (ix1 e)).toInt < 64
  row1 : ∀ e : Fin 32000, 0 ≤ (a6 (ix1 e)).toInt ∧ (a6 (ix1 e)).toInt < 1000

/-- THE PRECONDITION, READ BACK: if the stated predicate is all ones, every float argument is real and every index pair is
    in range. -/
theorem decode [Cert.Pre_finite_inputs.Facts]
    (a0 a1 : FVec Ideal S64000x128 .f32) (a2 : IVec S2x1048576 32) (a3 a4 a5 a6 : IVec S32000 32)
    (a7 : FVec Ideal S128x128 .f32) (a8 : FVec Ideal S128 .f32) (a9 : FVec Ideal S128x128 .f32) (a10 : FVec Ideal S128 .f32)
    (a11 : FVec Ideal S128x128 .f32) (a12 : FVec Ideal S128 .f32) (a13 : FVec Ideal S128x128 .f32) (a14 : FVec Ideal S128 .f32)
    (h : Cert.Pre_finite_inputs.fn (F := Ideal) a0 a1 a2 a3 a4 a5 a6 a7 a8 a9 a10 a11 a12 a13 a14 = (fun _ => 1#1)) :
    Decoded a0 a1 a3 a4 a5 a6 a7 a8 a9 a10 a11 a12 a13 a14 := by
  -- The predicate at its one index is the conjunction of fourteen bits, nested to the left in the order of the arguments.
  have h0 := congrFun h ix0
  dsimp only [fn, fn_part1, fn_part2, fn_part3, fn_part4] at h0
  -- Peel the conjuncts off from the right: a conjunction of two bits is 1 only if both are.
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨h0, c14⟩ := IntOp.andi_eq_one.1 h0
  obtain ⟨h0, c13⟩ := IntOp.andi_eq_one.1 h0
  obtain ⟨h0, c12⟩ := IntOp.andi_eq_one.1 h0
  obtain ⟨h0, c11⟩ := IntOp.andi_eq_one.1 h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨c0, c1⟩ := IntOp.andi_eq_one.1 h0
  -- The two extents as signed values.
  have k64 : (64#32 : BitVec 32).toInt = 64 := by decide
  have k1000 : (1000#32 : BitVec 32).toInt = 1000 := by decide
  exact
    { real0 := all_real a0 _ _ _ c0
      real1 := all_real a1 _ _ _ c1
      real7 := all_real a7 _ _ _ c7
      real8 := all_real a8 _ _ _ c8
      real9 := all_real a9 _ _ _ c9
      real10 := all_real a10 _ _ _ c10
      real11 := all_real a11 _ _ _ c11
      real12 := all_real a12 _ _ _ c12
      real13 := all_real a13 _ _ _ c13
      real14 := all_real a14 _ _ _ c14
      group0 := fun e => k64 ▸ all_in_range a3 64#32 _ _ _ c3 e
      row0 := fun e => k1000 ▸ all_in_range a4 1000#32 _ _ _ c4 e
      group1 := fun e => k64 ▸ all_in_range a5 64#32 _ _ _ c5 e
      row1 := fun e => k1000 ▸ all_in_range a6 1000#32 _ _ _ c6 e }

end Cert.PreDecode

end
-- ==== Proof.ShapeFactsProved.lean ====
/-
  THE SHAPE SIDE CONDITIONS OF THE STAGES, each one a fact one of the two programs states of its own shapes and its
  certificate proves.
-/
import proofs.«403703_j45397804319006_2_alg».proof.Proof.Gen.KernelIdeal
import proofs.«403703_j45397804319006_2_alg».proof.Proof.Gen.ReferenceIdeal
import proofs.«403703_j45397804319006_2_alg».proof.Proof.Stages

namespace Cert.Stages

theorem shapeFacts : ShapeFacts where
  b0I := Cert.ReferenceIdeal.Facts₀.bcast_S_S32000
  bIc := Cert.ReferenceIdeal.Facts₀.bcast_S32000_S32000x1_0
  b0E := Cert.ReferenceIdeal.Facts₀.bcast_S_S1048576
  bEc := Cert.ReferenceIdeal.Facts₀.bcast_S1048576_S1048576x1_0
  b0X := Cert.ReferenceIdeal.Facts₀.bcast_S_S64000x128
  sl0 := Cert.ReferenceIdeal.Facts₀.slices_S2x1048576_S1x1048576_0_0
  sl1 := Cert.ReferenceIdeal.Facts₀.slices_S2x1048576_S1x1048576_1_0
  scE := Cert.ReferenceIdeal.Facts₀.shapeCasts_S1x1048576_S1048576
  wfGE := Cert.ReferenceIdeal.Facts₀.gather_S64000x128_S1048576x1_S1048576x128_1_0_n_n_0_1_1128_wf
  wfSE := Cert.ReferenceIdeal.Facts₀.scatter_S64000x128_S1048576x1_S1048576x128_1_0_0_1_wf
  wfGI := Cert.KernelIdeal.Facts₀.gather_S64000x128_S32000x1_S32000x128_1_0_n_n_0_1_1128_wf
  wfG2 := Cert.ReferenceIdeal.Facts₀.gather_S64x1000x128_S32000x2_S32000x128_1_01_n_n_01_1_11128_wf
  sc3 := Cert.ReferenceIdeal.Facts₀.shapeCasts_S64000x128_S64x1000x128
  cat2 := Cert.ReferenceIdeal.Facts₀.concatenates_S32000x1_S32000x1_S32000x2_d1
  bT := Cert.ReferenceIdeal.Facts₀.bcast_S32000x128_S1x32000x128_1_2
  catT := Cert.ReferenceIdeal.Facts₀.concatenates_S1x32000x128_S1x32000x128_S2x32000x128_d0
  wfDM := Cert.ReferenceIdeal.Facts₀.dot_S32000x128_S128x128_S32000x128_1_0_0_1_n_n_wf
  wfDX := Cert.ReferenceIdeal.Facts₀.dot_S64000x128_S128x128_S64000x128_1_0_0_1_n_n_wf
  wfDW := Cert.KernelIdeal.Facts₀.dot_S128x128_S128x128_S128x128_1_0_0_1_n_n_wf
  wfD1 := Cert.KernelIdeal.Facts₀.dot_S1x128_S128x128_S1x128_1_0_0_1_n_n_wf
  bB1 := Cert.ReferenceIdeal.Facts₀.bcast_S128_S1x128_1
  bB1M := Cert.ReferenceIdeal.Facts₀.bcast_S1x128_S32000x128_0_1
  bB1X := Cert.ReferenceIdeal.Facts₀.bcast_S1x128_S64000x128_0_1
  scB := Cert.KernelIdeal.Facts₀.shapeCasts_S1x128_S128

end Cert.Stages
-- ==== Proof.lean ====
/-
  THE CERTIFICATE. The kernel program gathers rows by one flat index and folds its last two projections into one; the
  reference gathers by an index pair and projects twice. Under the stated precondition — every float argument real, every
  index pair inside the 64 × 1000 grid of rows — the two return the same array on the extended reals:
  the flat and the pair selections name the same rows, a selection of rows commutes with a row-wise affine map, and two
  affine maps of real arrays compose into one (distributivity and the exchange of two finite sums, which is where the
  finiteness of the arguments is used). The three frames are the programs' runs with the results dropped; the
  idealization rewrote nothing, so there is nothing to preserve.
-/
import proofs.«403703_j45397804319006_2_alg».proof.Defs
import proofs.«403703_j45397804319006_2_alg».proof.Proof.Gen.Kernel
import proofs.«403703_j45397804319006_2_alg».proof.Proof.Gen.Kernel.Skeleton
import proofs.«403703_j45397804319006_2_alg».proof.Proof.Gen.Kernel.Launch
import proofs.«403703_j45397804319006_2_alg».proof.Proof.Gen.Kernel.Points
import proofs.«403703_j45397804319006_2_alg».proof.Proof.Gen.Kernel.Frame
import proofs.«403703_j45397804319006_2_alg».proof.Proof.Gen.KernelIdeal
import proofs.«403703_j45397804319006_2_alg».proof.Proof.Gen.KernelIdeal.Skeleton
import proofs.«403703_j45397804319006_2_alg».proof.Proof.Gen.KernelIdeal.Launch
import proofs.«403703_j45397804319006_2_alg».proof.Proof.Gen.KernelIdeal.Points
import proofs.«403703_j45397804319006_2_alg».proof.Proof.Gen.KernelIdeal.Frame
import proofs.«403703_j45397804319006_2_alg».proof.Proof.Gen.ReferenceIdeal
import proofs.«403703_j45397804319006_2_alg».proof.Proof.Gen.Pre_finite_inputs
import proofs.«403703_j45397804319006_2_alg».proof.Proof.KernelRun
import proofs.«403703_j45397804319006_2_alg».proof.Proof.KernelValue
import proofs.«403703_j45397804319006_2_alg».proof.Proof.RefRun
import proofs.«403703_j45397804319006_2_alg».proof.Proof.RefValue
import proofs.«403703_j45397804319006_2_alg».proof.Proof.PreDecode
import proofs.«403703_j45397804319006_2_alg».proof.Proof.Stages
import proofs.«403703_j45397804319006_2_alg».proof.Proof.ShapeFactsProved
import Idealize.ShloMosaic.Adequacy
import Idealize.ShloMosaic.Init

noncomputable section

namespace Cert.Proof

open Idealize.ShloMosaic Idealize.SL.Sem

/-- The kernel program as printed runs and leaves its arguments: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations, none of which writes an argument. -/
theorem frame_reference : Cert.frame_ReferenceIdeal := fun m ρ _ =>
  (θ_run Cert.ReferenceIdeal.defs _ _).mono (fun r hr c =>
    ⟨(hr c Cert.ReferenceIdeal.main_arg0).trans (Cert.ReferenceIdeal.RefValue.kept_arg0 m c),
      (hr c Cert.ReferenceIdeal.main_arg1).trans (Cert.ReferenceIdeal.RefValue.kept_arg1 m c),
      (hr c Cert.ReferenceIdeal.main_arg2).trans (Cert.ReferenceIdeal.RefValue.kept_arg2 m c),
      (hr c Cert.ReferenceIdeal.main_arg3).trans (Cert.ReferenceIdeal.RefValue.kept_arg3 m c),
      (hr c Cert.ReferenceIdeal.main_arg4).trans (Cert.ReferenceIdeal.RefValue.kept_arg4 m c),
      (hr c Cert.ReferenceIdeal.main_arg5).trans (Cert.ReferenceIdeal.RefValue.kept_arg5 m c),
      (hr c Cert.ReferenceIdeal.main_arg6).trans (Cert.ReferenceIdeal.RefValue.kept_arg6 m c),
      (hr c Cert.ReferenceIdeal.main_arg7).trans (Cert.ReferenceIdeal.RefValue.kept_arg7 m c),
      (hr c Cert.ReferenceIdeal.main_arg8).trans (Cert.ReferenceIdeal.RefValue.kept_arg8 m c),
      (hr c Cert.ReferenceIdeal.main_arg9).trans (Cert.ReferenceIdeal.RefValue.kept_arg9 m c),
      (hr c Cert.ReferenceIdeal.main_arg10).trans (Cert.ReferenceIdeal.RefValue.kept_arg10 m c),
      (hr c Cert.ReferenceIdeal.main_arg11).trans (Cert.ReferenceIdeal.RefValue.kept_arg11 m c),
      (hr c Cert.ReferenceIdeal.main_arg12).trans (Cert.ReferenceIdeal.RefValue.kept_arg12 m c),
      (hr c Cert.ReferenceIdeal.main_arg13).trans (Cert.ReferenceIdeal.RefValue.kept_arg13 m c),
      (hr c Cert.ReferenceIdeal.main_arg14).trans (Cert.ReferenceIdeal.RefValue.kept_arg14 m c)⟩)
    (Cert.ReferenceIdeal.RawRun.raw_run (F := Ideal) m ρ)

/-- Both programs end with the same array. -/
theorem algebraic : Cert.algebraic_KernelIdeal_ReferenceIdeal := by
  intro m ρ m' ρ' hpre hagree
  refine ⟨fun c => Cert.Stages.kernelVal Cert.Stages.shapeFacts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r hr c => ⟨(hr c).1.trans (Cert.KernelIdeal.KernelValue.result_eq m ρ Cert.Stages.shapeFacts c), (hr c).2⟩)
      (Cert.KernelIdeal.ResultRun.run_result (F := Ideal) m ρ)
  · refine (θ_run Cert.ReferenceIdeal.defs _ _).mono (fun r hr c => ⟨?_,
      (hr c Cert.ReferenceIdeal.main_arg0).trans (Cert.ReferenceIdeal.RefValue.kept_arg0 m' c),
      (hr c Cert.ReferenceIdeal.main_arg1).trans (Cert.ReferenceIdeal.RefValue.kept_arg1 m' c),
      (hr c Cert.ReferenceIdeal.main_arg2).trans (Cert.ReferenceIdeal.RefValue.kept_arg2 m' c),
      (hr c Cert.ReferenceIdeal.main_arg3).trans (Cert.ReferenceIdeal.RefValue.kept_arg3 m' c),
      (hr c Cert.ReferenceIdeal.main_arg4).trans (Cert.ReferenceIdeal.RefValue.kept_arg4 m' c),
      (hr c Cert.ReferenceIdeal.main_arg5).trans (Cert.ReferenceIdeal.RefValue.kept_arg5 m' c),
      (hr c Cert.ReferenceIdeal.main_arg6).trans (Cert.ReferenceIdeal.RefValue.kept_arg6 m' c),
      (hr c Cert.ReferenceIdeal.main_arg7).trans (Cert.ReferenceIdeal.RefValue.kept_arg7 m' c),
      (hr c Cert.ReferenceIdeal.main_arg8).trans (Cert.ReferenceIdeal.RefValue.kept_arg8 m' c),
      (hr c Cert.ReferenceIdeal.main_arg9).trans (Cert.ReferenceIdeal.RefValue.kept_arg9 m' c),
      (hr c Cert.ReferenceIdeal.main_arg10).trans (Cert.ReferenceIdeal.RefValue.kept_arg10 m' c),
      (hr c Cert.ReferenceIdeal.main_arg11).trans (Cert.ReferenceIdeal.RefValue.kept_arg11 m' c),
      (hr c Cert.ReferenceIdeal.main_arg12).trans (Cert.ReferenceIdeal.RefValue.kept_arg12 m' c),
      (hr c Cert.ReferenceIdeal.main_arg13).trans (Cert.ReferenceIdeal.RefValue.kept_arg13 m' c),
      (hr c Cert.ReferenceIdeal.main_arg14).trans (Cert.ReferenceIdeal.RefValue.kept_arg14 m' c)⟩)
      (Cert.ReferenceIdeal.RawRun.raw_run (F := Ideal) m' ρ')
    obtain ⟨e0, e1, e2, e3, e4, e5, e6, e7, e8, e9, e10, e11, e12, e13, e14⟩ := hagree c
    have D := Cert.PreDecode.decode _ _ _ _ _ _ _ _ _ _ _ _ _ _ _ (hpre c)
    rw [hr c Cert.ReferenceIdeal.main_v76, Cert.ReferenceIdeal.RefValue.result_eq m' Cert.Stages.shapeFacts c,
      e0, e1, e2, e3, e4, e5, e6, e7, e8, e9, e10, e11, e12, e13, e14]
    exact Cert.Stages.refVal_eq_kernelVal Cert.Stages.shapeFacts _ _ _ _ _ _ _ _ _ _ _ _ _ _ _
      D.real1 D.real7 D.real8 D.real9 D.real10 D.real11 D.real12 D.group0 D.row0 D.group1 D.row1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
